-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S800000 : Shape := ⟨1, ![800000]⟩
abbrev S256x256 : Shape := ⟨2, ![256, 256]⟩
abbrev S256 : Shape := ⟨1, ![256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S800000 : S_.BroadcastsInDim S800000 (![] : Fin 0 → Fin S800000.rank)
  reducesTo_S800000_S_d0 : S800000.ReducesTo [0] S_

variable [Facts]

def fn_part3 {F : FTy → Type} [FloatOps F] (main_arg1 : IVec S800000 32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_c_20 : IVec S_ 32 := constantI S_ 32 0#32
  let main_v54 : IVec S800000 32 := broadcastInDim S800000 ![] bcast_S_S800000 main_c_20
  let main_v55 : IVec S800000 1 := cmpi .sge main_arg1 main_v54
  let main_c_21 : IVec S_ 32 := constantI S_ 32 50000#32
  let main_v56 : IVec S800000 32 := broadcastInDim S800000 ![] bcast_S_S800000 main_c_21
  let main_v57 : IVec S800000 1 := cmpi .slt main_arg1 main_v56
  let main_v58 : IVec S800000 1 := andi main_v55 main_v57
  let main_c_22 : IVec S_ 1 := constantI S_ 1 1#1
  let main_v59 : IVec S_ 1 := (fun x v => Host.reduce IntOp.andi x v reducesTo_S800000_S_d0 h_S_) main_v58 main_c_22
  let main_v60 : IVec S_ 1 := andi main_v53 main_v59
  main_v60

def fn_part2 {F : FTy → Type} [FloatOps F] (main_arg1 : IVec S800000 32) (main_arg9 : FVec F S256 .f32) (main_arg10 : FVec F S256 .f32) (main_arg11 : FVec F S256 .f32) (main_arg12 : FVec F S256 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg11
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg12
  let main_cst_18 : FVec F S_ .f32 := constant S_ .f32 0x7F800000#32
  let main_v50 : FVec F S256 .f32 := broadcastInDim S256 ![] bcast_S_S256 main_cst_18
  fn_part3 (F := F) main_arg1 main_v48 main_v49 main_v50

def fn_part1 {F : FTy → Type} [FloatOps F] (main_arg1 : IVec S800000 32) (main_arg6 : FVec F S256 .f32) (main_arg7 : FVec F S256x256 .f32) (main_arg8 : FVec F S256 .f32) (main_arg9 : FVec F S256 .f32) (main_arg10 : FVec F S256 .f32) (main_arg11 : FVec F S256 .f32) (main_arg12 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg1 main_arg9 main_arg10 main_arg11 main_arg12 main_v33

def fn {F : FTy → Type} [FloatOps F] (main_arg0 : FVec F S50000x256 .f32) (main_arg1 : IVec S800000 32) (main_arg2 : IVec S800000 32) (main_arg3 : FVec F S256x256 .f32) (main_arg4 : FVec F S256 .f32) (main_arg5 : FVec F S256x256 .f32) (main_arg6 : FVec F S256 .f32) (main_arg7 : FVec F S256x256 .f32) (main_arg8 : FVec F S256 .f32) (main_arg9 : FVec F S256 .f32) (main_arg10 : FVec F S256 .f32) (main_arg11 : FVec F S256 .f32) (main_arg12 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg3
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg1 main_arg6 main_arg7 main_arg8 main_arg9 main_arg10 main_arg11 main_arg12 main_v13 main_v16
-- ==== Kernel.lean ====
abbrev S50000x256 : Shape := ⟨2, ![50000, 256]⟩
abbrev S800000 : Shape := ⟨1, ![800000]⟩
abbrev S256x256 : Shape := ⟨2, ![256, 256]⟩
abbrev S256 : Shape := ⟨1, ![256]⟩
abbrev S1x256 : Shape := ⟨2, ![1, 256]⟩
abbrev S2000x256 : Shape := ⟨2, ![2000, 256]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x256 : Shape := ⟨2, ![800000, 256]⟩
abbrev S2000 : Shape := ⟨1, ![2000]⟩
abbrev S2000x1 : Shape := ⟨2, ![2000, 1]⟩

abbrev nBuf : Space → Nat
  | .hbm => 104
  | .vmem => 40
  | .smem => 0
  | _ => 0

abbrev bufTy : (tb : Table) → Fin (tcTables nBuf tb) → BufTy
  | .hbm, ⟨0, _⟩ => ⟨S50000x256, .f32⟩
  | .hbm, ⟨1, _⟩ => ⟨S800000, .i32⟩
  | .hbm, ⟨2, _⟩ => ⟨S800000, .i32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S1x256, .f32⟩
  | .hbm, ⟨14, _⟩ => ⟨S1x256, .f32⟩
  | .hbm, ⟨15, _⟩ => ⟨S1x256, .f32⟩
  | .hbm, ⟨16, _⟩ => ⟨S1x256, .f32⟩
  | .hbm, ⟨17, _⟩ => ⟨S1x256, .f32⟩
  | .hbm, ⟨18, _⟩ => ⟨S1x256, .f32⟩
  | .hbm, ⟨19, _⟩ => ⟨S1x256, .f32⟩
  | .hbm, ⟨20, _⟩ => ⟨S50000x256, .f32⟩
  | .hbm, ⟨21, _⟩ => ⟨S50000x256, .f32⟩
  | .hbm, ⟨22, _⟩ => ⟨S50000x256, .f32⟩
  | .hbm, ⟨23, _⟩ => ⟨S50000x256, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S1, .i32⟩
  | .hbm, ⟨33, _⟩ => ⟨S_, .i32⟩
  | .hbm, ⟨34, _⟩ => ⟨S800000x1, .i32⟩
  | .hbm, ⟨35, _⟩ => ⟨S800000x1, .i1⟩
  | .hbm, ⟨36, _⟩ => ⟨S1x1, .i32⟩
  | .hbm, ⟨37, _⟩ => ⟨S800000x1, .i32⟩
  | .hbm, ⟨38, _⟩ => ⟨S800000x1, .i1⟩
  | .hbm, ⟨39, _⟩ => ⟨S800000x1, .i1⟩
  | .hbm, ⟨40, _⟩ => ⟨S_, .i1⟩
  | .hbm, ⟨41, _⟩ => ⟨S800000, .i1⟩
  | .hbm, ⟨42, _⟩ => ⟨S800000x256, .f32⟩
  | .hbm, ⟨43, _⟩ => ⟨S800000x256, .i1⟩
  | .hbm, ⟨44, _⟩ => ⟨S_, .f32⟩
  | .hbm, ⟨45, _⟩ => ⟨S800000x256, .f32⟩
  | .hbm, ⟨46, _⟩ => ⟨S800000x256, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S1, .i32⟩
  | .hbm, ⟨56, _⟩ => ⟨S_, .i32⟩
  | .hbm, ⟨57, _⟩ => ⟨S800000x1, .i32⟩
  | .hbm, ⟨58, _⟩ => ⟨S800000x1, .i1⟩
  | .hbm, ⟨59, _⟩ => ⟨S1x1, .i32⟩
  | .hbm, ⟨60, _⟩ => ⟨S800000x1, .i32⟩
  | .hbm, ⟨61, _⟩ => ⟨S800000x1, .i1⟩
  | .hbm, ⟨62, _⟩ => ⟨S800000x1, .i1⟩
  | .hbm, ⟨63, _⟩ => ⟨S_, .i1⟩
  | .hbm, ⟨64, _⟩ => ⟨S800000, .i1⟩
  | .hbm, ⟨65, _⟩ => ⟨S800000x256, .f32⟩
  | .hbm, ⟨66, _⟩ => ⟨S800000x256, .i1⟩
  | .hbm, ⟨67, _⟩ => ⟨S_, .f32⟩
  | .hbm, ⟨68, _⟩ => ⟨S800000x256, .f32⟩
  | .hbm, ⟨69, _⟩ => ⟨S800000x256, .f32⟩
  | .hbm, ⟨70, _⟩ => ⟨S_, .i32⟩
  | .hbm, ⟨71, _⟩ => ⟨S800000, .i32⟩
  | .hbm, ⟨72, _⟩ => ⟨S800000, .i1⟩
  | .hbm, ⟨73, _⟩ => ⟨S_, .i32⟩
  | .hbm, ⟨74, _⟩ => ⟨S800000, .i32⟩
  | .hbm, ⟨75, _⟩ => ⟨S800000, .i32⟩
  | .hbm, ⟨76, _⟩ => ⟨S800000, .i32⟩
  | .hbm, ⟨77, _⟩ => ⟨S800000x1, .i32⟩
  | .hbm, ⟨78, _⟩ => ⟨S1, .i32⟩
  | .hbm, ⟨79, _⟩ => ⟨S_, .i32⟩
  | .hbm, ⟨80, _⟩ => ⟨S800000x1, .i32⟩
  | .hbm, ⟨81, _⟩ => ⟨S800000x1, .i1⟩
  | .hbm, ⟨82, _⟩ => ⟨S1x1, .i32⟩
  | .hbm, ⟨83, _⟩ => ⟨S800000x1, .i32⟩
  | .hbm, ⟨84, _⟩ => ⟨S800000x1, .i1⟩
  | .hbm, ⟨85, _⟩ => ⟨S800000x1, .i1⟩
  | .hbm, ⟨86, _⟩ => ⟨S_, .i1⟩
  | .hbm, ⟨87, _⟩ => ⟨S800000, .i1⟩
  | .hbm, ⟨88, _⟩ => ⟨S800000x256, .f32⟩
  | .hbm, ⟨89, _⟩ => ⟨S800000x256, .i1⟩
  | .hbm, ⟨90, _⟩ => ⟨S_, .f32⟩
  | .hbm, ⟨91, _⟩ => ⟨S800000x256, .f32⟩
  | .hbm, ⟨92, _⟩ => ⟨S800000x256, .f32⟩
  | .hbm, ⟨93, _⟩ => ⟨S800000x256, .f32⟩
  | .hbm, ⟨94, _⟩ => ⟨S800000x256, .f32⟩
  | .hbm, ⟨95, _⟩ => ⟨S_, .f32⟩
  | .hbm, ⟨96, _⟩ => ⟨S50000x256, .f32⟩
  | .hbm, ⟨97, _⟩ => ⟨S800000x1, .i32⟩
  | .hbm, ⟨98, _⟩ => ⟨S50000x256, .f32⟩
  | .hbm, ⟨99, _⟩ => ⟨S_, .f32⟩
  | .hbm, ⟨100, _⟩ => ⟨S50000x256, .f32⟩
  | .hbm, ⟨101, _⟩ => ⟨S800000x1, .i32⟩
  | .hbm, ⟨102, _⟩ => ⟨S50000x256, .f32⟩
  | .hbm, ⟨103, _⟩ => ⟨S50000x256, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S1x256, .f32⟩
  | .local _ .vmem, ⟨4, _⟩ => ⟨S256x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S2000x256, .f32⟩
  | .local _ .vmem, ⟨23, _⟩ => ⟨S2000x256, .f32⟩
  | .local _ .vmem, ⟨24, _⟩ => ⟨S2000x256, .f32⟩
  | .local _ .vmem, ⟨25, _⟩ => ⟨S2000x256, .f32⟩
  | .local _ .vmem, ⟨26, _⟩ => ⟨S2000x256, .f32⟩
  | .local _ .vmem, ⟨27, _⟩ => ⟨S2000x256, .f32⟩
  | .local _ .vmem, ⟨28, _⟩ => ⟨S2000x256, .f32⟩
  | .local _ .vmem, ⟨29, _⟩ => ⟨S2000x256, .f32⟩
  | .local _ .vmem, ⟨30, _⟩ => ⟨S2000x256, .f32⟩
  | .local _ .vmem, ⟨31, _⟩ => ⟨S2000x256, .f32⟩
  | .local _ .vmem, ⟨32, _⟩ => ⟨S2000x256, .f32⟩
  | .local _ .vmem, ⟨33, _⟩ => ⟨S2000x256, .f32⟩
  | .local _ .vmem, ⟨34, _⟩ => ⟨S2000x256, .f32⟩
  | .local _ .vmem, ⟨35, _⟩ => ⟨S2000x256, .f32⟩
  | .local _ .vmem, ⟨36, _⟩ => ⟨S1x256, .f32⟩
  | .local _ .vmem, ⟨37, _⟩ => ⟨S1x256, .f32⟩
  | .local _ .vmem, ⟨38, _⟩ => ⟨S2000x256, .f32⟩
  | .local _ .vmem, ⟨39, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7_0 : Ref sig .tc := ⟨.hbm, 20, rfl⟩
abbrev main_v7_1 : Ref sig .tc := ⟨.hbm, 21, rfl⟩
abbrev main_v7_2 : Ref sig .tc := ⟨.hbm, 22, rfl⟩
abbrev main_v7_3 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_c_2 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_3 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_call0_cst : Ref sig .tc := ⟨.hbm, 44, rfl⟩
abbrev main_call0_v15 : Ref sig .tc := ⟨.hbm, 45, rfl⟩
abbrev main_v8 : Ref sig .tc := ⟨.hbm, 46, rfl⟩
abbrev main_call1_c : Ref sig .tc := ⟨.hbm, 47, rfl⟩
abbrev main_call1_v0 : Ref sig .tc := ⟨.hbm, 48, rfl⟩
abbrev main_call1_v1 : Ref sig .tc := ⟨.hbm, 49, rfl⟩
abbrev main_call1_c_0 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_c_1 : Ref sig .tc := ⟨.hbm, 55, rfl⟩
abbrev main_call1_c_2 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_c_3 : Ref sig .tc := ⟨.hbm, 63, rfl⟩
abbrev main_call1_v12 : Ref sig .tc := ⟨.hbm, 64, rfl⟩
abbrev main_call1_v13 : Ref sig .tc := ⟨.hbm, 65, rfl⟩
abbrev main_call1_v14 : Ref sig .tc := ⟨.hbm, 66, rfl⟩
abbrev main_call1_cst : Ref sig .tc := ⟨.hbm, 67, rfl⟩
abbrev main_call1_v15 : Ref sig .tc := ⟨.hbm, 68, rfl⟩
abbrev main_v9 : Ref sig .tc := ⟨.hbm, 69, rfl⟩
abbrev main_call2_c : Ref sig .tc := ⟨.hbm, 70, rfl⟩
abbrev main_call2_v0 : Ref sig .tc := ⟨.hbm, 71, rfl⟩
abbrev main_call2_v1 : Ref sig .tc := ⟨.hbm, 72, rfl⟩
abbrev main_call2_c_0 : Ref sig .tc := ⟨.hbm, 73, rfl⟩
abbrev main_call2_v2 : Ref sig .tc := ⟨.hbm, 74, rfl⟩
abbrev main_call2_v3 : Ref sig .tc := ⟨.hbm, 75, rfl⟩
abbrev main_call2_v4 : Ref sig .tc := ⟨.hbm, 76, rfl⟩
abbrev main_call2_v5 : Ref sig .tc := ⟨.hbm, 77, rfl⟩
abbrev main_call2_c_1 : Ref sig .tc := ⟨.hbm, 78, rfl⟩
abbrev main_call2_c_2 : Ref sig .tc := ⟨.hbm, 79, rfl⟩
abbrev main_call2_v6 : Ref sig .tc := ⟨.hbm, 80, rfl⟩
abbrev main_call2_v7 : Ref sig .tc := ⟨.hbm, 81, rfl⟩
abbrev main_call2_v8 : Ref sig .tc := ⟨.hbm, 82, rfl⟩
abbrev main_call2_v9 : Ref sig .tc := ⟨.hbm, 83, rfl⟩
abbrev main_call2_v10 : Ref sig .tc := ⟨.hbm, 84, rfl⟩
abbrev main_call2_v11 : Ref sig .tc := ⟨.hbm, 85, rfl⟩
abbrev main_call2_c_3 : Ref sig .tc := ⟨.hbm, 86, rfl⟩
abbrev main_call2_v12 : Ref sig .tc := ⟨.hbm, 87, rfl⟩
abbrev main_call2_v13 : Ref sig .tc := ⟨.hbm, 88, rfl⟩
abbrev main_call2_v14 : Ref sig .tc := ⟨.hbm, 89, rfl⟩
abbrev main_call2_cst : Ref sig .tc := ⟨.hbm, 90, rfl⟩
abbrev main_call2_v15 : Ref sig .tc := ⟨.hbm, 91, rfl⟩
abbrev main_v10 : Ref sig .tc := ⟨.hbm, 92, rfl⟩
abbrev main_v11_0 : Ref sig .tc := ⟨.hbm, 93, rfl⟩
abbrev main_v11_1 : Ref sig .tc := ⟨.hbm, 94, rfl⟩
abbrev main_cst : Ref sig .tc := ⟨.hbm, 95, rfl⟩
abbrev main_v12 : Ref sig .tc := ⟨.hbm, 96, rfl⟩
abbrev main_v13 : Ref sig .tc := ⟨.hbm, 97, rfl⟩
abbrev main_v14 : Ref sig .tc := ⟨.hbm, 98, rfl⟩
abbrev main_cst_0 : Ref sig .tc := ⟨.hbm, 99, rfl⟩
abbrev main_v15 : Ref sig .tc := ⟨.hbm, 100, rfl⟩
abbrev main_v16 : Ref sig .tc := ⟨.hbm, 101, rfl⟩
abbrev main_v17 : Ref sig .tc := ⟨.hbm, 102, rfl⟩
abbrev main_v18 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg2_1 : Ref sig .tc := ⟨.vmem, 33, rfl⟩
abbrev cc2_stg3_0 : Ref sig .tc := ⟨.vmem, 34, rfl⟩
abbrev cc2_stg3_1 : Ref sig .tc := ⟨.vmem, 35, rfl⟩
abbrev cc2_stg4_0 : Ref sig .tc := ⟨.vmem, 36, rfl⟩
abbrev cc2_stg5_0 : Ref sig .tc := ⟨.vmem, 37, rfl⟩
abbrev cc2_stg6_0 : Ref sig .tc := ⟨.vmem, 38, rfl⟩
abbrev cc2_stg6_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem2_1 : DmaSem sig := 33
abbrev cc2_sem3_0 : DmaSem sig := 34
abbrev cc2_sem3_1 : DmaSem sig := 35
abbrev cc2_sem4_0 : DmaSem sig := 36
abbrev cc2_sem5_0 : DmaSem sig := 37
abbrev cc2_sem6_0 : DmaSem sig := 38
abbrev cc2_sem6_1 : DmaSem sig := 39

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2000x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2000x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2000x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![400], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x256_0 : S800000.BroadcastsInDim S800000x256 (![0] : Fin 1 → Fin S800000x256.rank)
  bcast_S_S800000x256 : S_.BroadcastsInDim S800000x256 (![] : Fin 0 → Fin S800000x256.rank)
  shapeCasts_S2000x256_S2000x256 : S2000x256.ShapeCasts S2000x256
  bcast_S_S50000x256 : S_.BroadcastsInDim S50000x256 (![] : Fin 0 → Fin S50000x256.rank)
  reduces_S2000x256_S2000 : S2000x256.Reduces [1] S2000
  shapeCasts_S2000_S2000x1 : S2000.ShapeCasts S2000x1
  broadcasts_S2000x1_S2000x256 : S2000x1.Broadcasts S2000x256
  dot_S2000x256_S256x256_S2000x256_1_0_0_1_n_n_wf : DotDims.WF S2000x256 S256x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x256.size a ≤ S50000x256.size a
  hwx0_9 : ∀ i : grid0.Coords, EltTy.bits .f32 = 32 ∨ (Rect.block (s := S50000x256) S2000x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x256.size a ≤ S50000x256.size a
  hwx0_10 : ∀ i : grid0.Coords, EltTy.bits .f32 = 32 ∨ (Rect.block (s := S50000x256) S2000x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2000x256.size a ≤ S50000x256.size a
  hwx0_11 : ∀ i : grid0.Coords, EltTy.bits .f32 = 32 ∨ (Rect.block (s := S50000x256) S2000x256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2000x256.size a ≤ S50000x256.size a
  hwx0_12 : ∀ i : grid0.Coords, EltTy.bits .f32 = 32 ∨ (Rect.block (s := S50000x256) S2000x256.size (cc0_transform_12 i) (hinb0_12 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S800000x256.size a
  hwx1_0 : ∀ i : grid1.Coords, EltTy.bits .f32 = 32 ∨ (Rect.block (s := S800000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S800000x256.size a
  hwx1_1 : ∀ i : grid1.Coords, EltTy.bits .f32 = 32 ∨ (Rect.block (s := S800000x256) S2000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S800000x256.size a
  hwx1_2 : ∀ i : grid1.Coords, EltTy.bits .f32 = 32 ∨ (Rect.block (s := S800000x256) S2000x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x256.size a ≤ S800000x256.size a
  hwx1_3 : ∀ i : grid1.Coords, EltTy.bits .f32 = 32 ∨ (Rect.block (s := S800000x256) S2000x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x256.size a ≤ S800000x256.size a
  hwx1_4 : ∀ i : grid1.Coords, EltTy.bits .f32 = 32 ∨ (Rect.block (s := S800000x256) S2000x256.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .f32 = 32 ∨ (Rect.block (s := S50000x256) S2000x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S50000x256.size a
  hwx2_2 : ∀ i : grid2.Coords, EltTy.bits .f32 = 32 ∨ (Rect.block (s := S50000x256) S2000x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x256.size a ≤ S50000x256.size a
  hwx2_3 : ∀ i : grid2.Coords, EltTy.bits .f32 = 32 ∨ (Rect.block (s := S50000x256) S2000x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x256.size a ≤ S50000x256.size a
  hwx2_6 : ∀ i : grid2.Coords, EltTy.bits .f32 = 32 ∨ (Rect.block (s := S50000x256) S2000x256.size (cc2_transform_6 i) (hinb2_6 i)).WholeWords (EltTy.packing .f32)

variable [Facts₀]

def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7_0) S2000x256.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v7_1) S2000x256.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v7_2) S2000x256.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v7_3) S2000x256.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_v8) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S2000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11_0) S2000x256.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v11_1) S2000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg0) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7_2) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v14) S2000x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v17) S2000x256.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v5) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v6) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v18) S2000x256.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x256 : Shape := ⟨2, ![50000, 256]⟩
abbrev S800000 : Shape := ⟨1, ![800000]⟩
abbrev S256x256 : Shape := ⟨2, ![256, 256]⟩
abbrev S256 : Shape := ⟨1, ![256]⟩
abbrev S1x256 : Shape := ⟨2, ![1, 256]⟩
abbrev S_ : Shape := ⟨0, ![]⟩
abbrev S800000x1 : Shape := ⟨2, ![800000, 1]⟩
abbrev S800000x256 : Shape := ⟨2, ![800000, 256]⟩
abbrev S50000 : Shape := ⟨1, ![50000]⟩
abbrev S50000x1 : Shape := ⟨2, ![50000, 1]⟩

abbrev nBuf : Space → Nat
  | .hbm => 114
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S800000, .i32⟩
  | .hbm, ⟨2, _⟩ => ⟨S800000, .i32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S50000x256, .f32⟩
  | .hbm, ⟨14, _⟩ => ⟨S1x256, .f32⟩
  | .hbm, ⟨15, _⟩ => ⟨S50000x256, .f32⟩
  | .hbm, ⟨16, _⟩ => ⟨S50000x256, .f32⟩
  | .hbm, ⟨17, _⟩ => ⟨S50000x256, .f32⟩
  | .hbm, ⟨18, _⟩ => ⟨S1x256, .f32⟩
  | .hbm, ⟨19, _⟩ => ⟨S50000x256, .f32⟩
  | .hbm, ⟨20, _⟩ => ⟨S50000x256, .f32⟩
  | .hbm, ⟨21, _⟩ => ⟨S50000x256, .f32⟩
  | .hbm, ⟨22, _⟩ => ⟨S1x256, .f32⟩
  | .hbm, ⟨23, _⟩ => ⟨S50000x256, .f32⟩
  | .hbm, ⟨24, _⟩ => ⟨S50000x256, .f32⟩
  | .hbm, ⟨25, _⟩ => ⟨S1x256, .f32⟩
  | .hbm, ⟨26, _⟩ => ⟨S50000x256, .f32⟩
  | .hbm, ⟨27, _⟩ => ⟨S50000x256, .f32⟩
  | .hbm, ⟨28, _⟩ => ⟨S1x256, .f32⟩
  | .hbm, ⟨29, _⟩ => ⟨S50000x256, .f32⟩
  | .hbm, ⟨30, _⟩ => ⟨S50000x256, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x256, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x256, .f32⟩
  | .hbm, ⟨49, _⟩ => ⟨S800000x256, .f32⟩
  | .hbm, ⟨50, _⟩ => ⟨S800000x256, .f32⟩
  | .hbm, ⟨51, _⟩ => ⟨S800000x256, .f32⟩
  | .hbm, ⟨52, _⟩ => ⟨S_, .f32⟩
  | .hbm, ⟨53, _⟩ => ⟨S800000x256, .f32⟩
  | .hbm, ⟨54, _⟩ => ⟨S800000x256, .f32⟩
  | .hbm, ⟨55, _⟩ => ⟨S_, .f32⟩
  | .hbm, ⟨56, _⟩ => ⟨S800000x256, .f32⟩
  | .hbm, ⟨57, _⟩ => ⟨S800000x256, .f32⟩
  | .hbm, ⟨58, _⟩ => ⟨S_, .i32⟩
  | .hbm, ⟨59, _⟩ => ⟨S800000, .i32⟩
  | .hbm, ⟨60, _⟩ => ⟨S800000, .i1⟩
  | .hbm, ⟨61, _⟩ => ⟨S_, .i32⟩
  | .hbm, ⟨62, _⟩ => ⟨S800000, .i32⟩
  | .hbm, ⟨63, _⟩ => ⟨S800000, .i32⟩
  | .hbm, ⟨64, _⟩ => ⟨S800000, .i32⟩
  | .hbm, ⟨65, _⟩ => ⟨S800000x1, .i32⟩
  | .hbm, ⟨66, _⟩ => ⟨S800000x256, .f32⟩
  | .hbm, ⟨67, _⟩ => ⟨S800000x256, .f32⟩
  | .hbm, ⟨68, _⟩ => ⟨S_, .f32⟩
  | .hbm, ⟨69, _⟩ => ⟨S50000x256, .f32⟩
  | .hbm, ⟨70, _⟩ => ⟨S800000x1, .i32⟩
  | .hbm, ⟨71, _⟩ => ⟨S50000x256, .f32⟩
  | .hbm, ⟨72, _⟩ => ⟨S_, .f32⟩
  | .hbm, ⟨73, _⟩ => ⟨S50000x256, .f32⟩
  | .hbm, ⟨74, _⟩ => ⟨S800000x1, .i32⟩
  | .hbm, ⟨75, _⟩ => ⟨S50000x256, .f32⟩
  | .hbm, ⟨76, _⟩ => ⟨S_, .f32⟩
  | .hbm, ⟨77, _⟩ => ⟨S50000x256, .f32⟩
  | .hbm, ⟨78, _⟩ => ⟨S50000x256, .f32⟩
  | .hbm, ⟨79, _⟩ => ⟨S50000x256, .f32⟩
  | .hbm, ⟨80, _⟩ => ⟨S50000x256, .f32⟩
  | .hbm, ⟨81, _⟩ => ⟨S_, .f32⟩
  | .hbm, ⟨82, _⟩ => ⟨S50000, .f32⟩
  | .hbm, ⟨83, _⟩ => ⟨S50000x1, .f32⟩
  | .hbm, ⟨84, _⟩ => ⟨S_, .f32⟩
  | .hbm, ⟨85, _⟩ => ⟨S50000x1, .f32⟩
  | .hbm, ⟨86, _⟩ => ⟨S50000x1, .f32⟩
  | .hbm, ⟨87, _⟩ => ⟨S50000x256, .f32⟩
  | .hbm, ⟨88, _⟩ => ⟨S50000x256, .f32⟩
  | .hbm, ⟨89, _⟩ => ⟨S50000x256, .f32⟩
  | .hbm, ⟨90, _⟩ => ⟨S_, .f32⟩
  | .hbm, ⟨91, _⟩ => ⟨S50000, .f32⟩
  | .hbm, ⟨92, _⟩ => ⟨S50000x1, .f32⟩
  | .hbm, ⟨93, _⟩ => ⟨S_, .f32⟩
  | .hbm, ⟨94, _⟩ => ⟨S50000x1, .f32⟩
  | .hbm, ⟨95, _⟩ => ⟨S50000x1, .f32⟩
  | .hbm, ⟨96, _⟩ => ⟨S50000x256, .f32⟩
  | .hbm, ⟨97, _⟩ => ⟨S50000x256, .f32⟩
  | .hbm, ⟨98, _⟩ => ⟨S_, .f32⟩
  | .hbm, ⟨99, _⟩ => ⟨S50000x1, .f32⟩
  | .hbm, ⟨100, _⟩ => ⟨S50000x1, .f32⟩
  | .hbm, ⟨101, _⟩ => ⟨S50000x1, .f32⟩
  | .hbm, ⟨102, _⟩ => ⟨S50000x256, .f32⟩
  | .hbm, ⟨103, _⟩ => ⟨S50000x256, .f32⟩
  | .hbm, ⟨104, _⟩ => ⟨S1x256, .f32⟩
  | .hbm, ⟨105, _⟩ => ⟨S50000x256, .f32⟩
  | .hbm, ⟨106, _⟩ => ⟨S50000x256, .f32⟩
  | .hbm, ⟨107, _⟩ => ⟨S1x256, .f32⟩
  | .hbm, ⟨108, _⟩ => ⟨S50000x256, .f32⟩
  | .hbm, ⟨109, _⟩ => ⟨S50000x256, .f32⟩
  | .hbm, ⟨110, _⟩ => ⟨S_, .f32⟩
  | .hbm, ⟨111, _⟩ => ⟨S50000x256, .f32⟩
  | .hbm, ⟨112, _⟩ => ⟨S50000x256, .f32⟩
  | .hbm, ⟨113, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_0 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_1 : Ref sig .tc := ⟨.hbm, 40, rfl⟩
abbrev main_v25 : Ref sig .tc := ⟨.hbm, 41, rfl⟩
abbrev main_v26 : Ref sig .tc := ⟨.hbm, 42, rfl⟩
abbrev main_c_2 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst : Ref sig .tc := ⟨.hbm, 52, rfl⟩
abbrev main_v35 : Ref sig .tc := ⟨.hbm, 53, rfl⟩
abbrev main_v36 : Ref sig .tc := ⟨.hbm, 54, rfl⟩
abbrev main_cst_3 : Ref sig .tc := ⟨.hbm, 55, rfl⟩
abbrev main_v37 : Ref sig .tc := ⟨.hbm, 56, rfl⟩
abbrev main_v38 : Ref sig .tc := ⟨.hbm, 57, rfl⟩
abbrev main_c_4 : Ref sig .tc := ⟨.hbm, 58, rfl⟩
abbrev main_v39 : Ref sig .tc := ⟨.hbm, 59, rfl⟩
abbrev main_v40 : Ref sig .tc := ⟨.hbm, 60, rfl⟩
abbrev main_c_5 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_6 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_7 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_8 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_9 : Ref sig .tc := ⟨.hbm, 81, rfl⟩
abbrev main_v57 : Ref sig .tc := ⟨.hbm, 82, rfl⟩
abbrev main_v58 : Ref sig .tc := ⟨.hbm, 83, rfl⟩
abbrev main_cst_10 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_11 : Ref sig .tc := ⟨.hbm, 90, rfl⟩
abbrev main_v64 : Ref sig .tc := ⟨.hbm, 91, rfl⟩
abbrev main_v65 : Ref sig .tc := ⟨.hbm, 92, rfl⟩
abbrev main_cst_12 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_13 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_call0_cst : Ref sig .tc := ⟨.hbm, 110, rfl⟩
abbrev main_call0_v0 : Ref sig .tc := ⟨.hbm, 111, rfl⟩
abbrev main_v81 : Ref sig .tc := ⟨.hbm, 112, rfl⟩
abbrev main_v82 : Ref sig .tc := ⟨.hbm, 113, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S800000x256 : S_.BroadcastsInDim S800000x256 (![] : Fin 0 → Fin S800000x256.rank)
  bcast_S_S50000x256 : S_.BroadcastsInDim S50000x256 (![] : Fin 0 → Fin S50000x256.rank)
  reducesTo_S50000x256_S50000_d1 : S50000x256.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x256_0_1 : S50000x1.BroadcastsInDim S50000x256 (![0, 1] : Fin 2 → Fin S50000x256.rank)
  dot_S50000x256_S256x256_S50000x256_1_0_0_1_n_n_wf : DotDims.WF S50000x256 S256x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1

variable [Facts₀]

def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf

class Facts : Prop extends Facts₀ where

variable [Facts]
-- ==== Proof.Spec.lean ====
/-
  The mathematics of one gated graph-attention layer with a layer norm, on the extended reals, entry by entry.

  Nodes carry rows of 256 features; x is the node array [50000, 256].
  • `lin x W b` is the affine map x·W + b, read at (p, q): the sum over k of x[p,k]·W[k,q], plus b[q].
  • `linRow` is the same with the shift b given as a 1 × 256 array.
  • `sigm s` is the logistic function 1 / (1 + e^(−s)).
  • For a row h of 256 entries: `mean h` = (Σ h) / 256, `dev h k` = h[k] − mean h, `var h` = (Σ dev²) / 256.
  • `normMul h g b q` = max(dev h q · rsqrt(var h + ε) · g[q] + b[q], 0): the normalised row through a reciprocal
    square root, scaled, shifted and clipped at zero.
  • `normDiv h g b q` = max(dev h q / sqrt(var h + ε) · g[q] + b[q], 0): the same through a quotient by the square
    root.
  The two agree (`normMul_eq_normDiv`): var h + ε is positive whatever the row holds (a square of an extended real
  is nonnegative, so is their sum and its quotient by 256, and ε is a positive real), and for a positive v — finite
  or +∞ — a · rsqrt v = a / sqrt v.
-/
import Mathlib.Data.EReal.Operations
import Mathlib.Data.EReal.Inv
import Mathlib.Algebra.BigOperators.Group.Finset.Basic
import Mathlib.Algebra.Order.BigOperators.Group.Finset
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- An a × b array of extended reals. -/
abbrev A2 (a b : ℕ) : Type := (⟨2, ![a, b]⟩ : Shape).Idx → EReal
/-- A vector of a extended reals. -/
abbrev A1 (a : ℕ) : Type := (⟨1, ![a]⟩ : Shape).Idx → EReal

/-- Entry (p, q) of an array. -/
abbrev at2 {a b : ℕ} (v : A2 a b) (p : Fin a) (q : Fin b) : EReal := v (ix2 p q)

/-- The affine map x·W + b read at (p, q). -/
def lin (x : A2 50000 256) (W : A2 256 256) (b : A1 256) (p : Fin 50000) (q : Fin 256) : EReal :=
  (∑ k : Fin 256, x (ix2 p k) * W (ix2 k q)) + b (ix1 q)

/-- The same with the shift given as a one-row array. -/
def linRow (x : A2 50000 256) (W : A2 256 256) (b : A2 1 256) (p : Fin 50000) (q : Fin 256) : EReal :=
  (∑ k : Fin 256, x (ix2 p k) * W (ix2 k q)) + b (ix2 (0 : Fin 1) q)

/-- The float 1.0 as an extended real. -/
abbrev one : EReal := Ideal.ofBits .f32 0x3F800000#32
/-- The float nearest 1e-6 as an extended real. -/
abbrev eps : EReal := Ideal.ofBits .f32 0x358637BD#32
/-- The float 256.0 as an extended real. -/
abbrev c256 : EReal := Ideal.ofBits .f32 0x43800000#32

/-- The logistic function 1 / (1 + e^(−s)). -/
def sigm (s : EReal) : EReal := Ideal.logistic s

/-- The mean of a row of 256 entries. -/
def mean (h : Fin 256 → EReal) : EReal := Ideal.div (∑ k : Fin 256, h k) c256
/-- An entry's deviation from the row's mean. -/
def dev (h : Fin 256 → EReal) (k : Fin 256) : EReal := h k - mean h
/-- The mean of the squared deviations. -/
def var (h : Fin 256 → EReal) : EReal := Ideal.div (∑ k : Fin 256, dev h k * dev h k) c256

/-- The normalised, scaled, shifted row clipped at zero, through the reciprocal square root. -/
def normMul (h g b : Fin 256 → EReal) (q : Fin 256) : EReal :=
  max ((dev h q * Ideal.rsqrt (var h + eps)) * g q + b q) 0
/-- The same through a quotient by the square root. -/
def normDiv (h g b : Fin 256 → EReal) (q : Fin 256) : EReal :=
  max ((Ideal.div (dev h q) (Ideal.sqrt (var h + eps))) * g q + b q) 0

end Cert.Spec

end
-- ==== Proof.SpecLaw.lean ====
/-
  The two spellings of the normalised row agree on the extended reals, and the three float constants read as reals.
-/
import proofs.«415271_j5102421148357_1_alg».proof.Proof.Spec

noncomputable section

open scoped BigOperators

namespace Cert.Spec

open Idealize.ShloMosaic Idealize.ShloMosaic.ValueIdx

/-- The float 1.0 denotes the real 1. -/
private theorem one_coe : one = ((1 : ℝ) : EReal) := by
  simp [Ideal.ofBits, Ideal.ieee, -EReal.coe_mul]; norm_num

/-- The float 256.0 denotes the real 256. -/
private theorem c256_coe : c256 = ((256 : ℝ) : EReal) := by
  simp [Ideal.ofBits, Ideal.ieee, -EReal.coe_mul]; norm_num

/-- The float nearest 1e-6 denotes a positive real, 8796093 · 2^(−43). -/
private theorem eps_coe : ∃ r : ℝ, 0 < r ∧ eps = (r : EReal) := by
  refine ⟨8796093 * (2 : ℝ) ^ (-43 : ℤ), by positivity, ?_⟩
  simp [Ideal.ofBits, Ideal.ieee, -EReal.coe_mul]

/-- The square of an extended real is nonnegative: (±∞)² = +∞, and a real square is nonnegative. -/
private theorem mul_self_nonneg' (x : EReal) : 0 ≤ x * x := by
  induction x using EReal.rec with
  | bot => simp
  | coe r => rw [← EReal.coe_mul]; exact EReal.coe_nonneg.mpr (mul_self_nonneg r)
  | top => simp

/-- A nonnegative extended real divided by 256 is nonnegative. -/
private theorem div_c256_nonneg {s : EReal} (hs : 0 ≤ s) : 0 ≤ Ideal.div s c256 := by
  rw [c256_coe, Ideal.div_coe (by norm_num : (256 : ℝ) ≠ 0)]
  exact EReal.mul_nonneg hs (EReal.coe_nonneg.mpr (by norm_num))

/-- The float 1.0 denotes 1. -/
theorem one_eq : one = 1 := by
  rw [one_coe]; rfl

/-- For a positive extended real v (finite or +∞) and any a: a · rsqrt v = a / sqrt v. -/
theorem mul_rsqrt_eq_div_sqrt (a v : EReal) (hv : 0 < v) : a * Ideal.rsqrt v = Ideal.div a (Ideal.sqrt v) := by
  induction v using EReal.rec with
  | bot => exact absurd hv (not_lt_bot)
  | coe r =>
    -- a positive real r: rsqrt r = (√r)⁻¹, sqrt r = √r ≠ 0, and a / √r = a · (√r)⁻¹
    have hr : 0 < r := EReal.coe_pos.mp hv
    have hs : Real.sqrt r ≠ 0 := (Real.sqrt_pos.mpr hr).ne'
    rw [Ideal.rsqrt_coe, Ideal.sqrt_coe, if_neg (not_lt.mpr hr.le), if_neg hr.ne', if_neg (not_lt.mpr hr.le),
      Ideal.div_coe hs, one_div]
  | top =>
    -- at +∞: rsqrt = 0 and sqrt = +∞, whose inverse is 0; both sides are a · 0
    rw [Ideal.rsqrt_top, Ideal.sqrt_top, Ideal.div, if_neg EReal.top_ne_zero, EReal.inv_top]

/-- The mean of squared deviations plus ε is positive, whatever the row holds. -/
theorem var_add_eps_pos (h : Fin 256 → EReal) : 0 < var h + eps := by
  obtain ⟨r, hr, he⟩ := eps_coe
  have hv : 0 ≤ var h := div_c256_nonneg (Finset.sum_nonneg fun k _ => mul_self_nonneg' (dev h k))
  rw [he]
  exact lt_of_lt_of_le (EReal.coe_pos.mpr hr) (le_add_of_nonneg_left hv)

/-- The normalised row through the reciprocal square root is the one through the quotient by the square root. -/
theorem normMul_eq_normDiv (h g b : Fin 256 → EReal) (q : Fin 256) : normMul h g b q = normDiv h g b q := by
  unfold normMul normDiv
  rw [mul_rsqrt_eq_div_sqrt _ _ (var_add_eps_pos h)]

end Cert.Spec

end
-- ==== Proof.TakeDef.lean ====
/-
  Taking rows of a node array at an index vector, as one function: the wrap of negative indices, the range test,
  the gather and the fill.
-/
import proofs.«415271_j5102421148357_1_alg».proof.Proof.Gen.KernelIdeal
import proofs.«415271_j5102421148357_1_alg».proof.Proof.Spec
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Cert.Spec

/-- Rows of a node array taken at an index vector: an index below zero is wrapped once (50000 added); a row whose
    wrapped index is outside [0, 49999] is filled with the word 0x7FC00000; every other row is the row of `x` the
    wrapped index names. -/
def takeRows {F : FTy → Type} [FloatOps F] (x : FVec F S50000x256 .f32) (idx : IVec S800000 32) : FVec F S800000x256 .f32 :=
  select
    (broadcastInDim S800000x256 ![0] bcast_S800000_S800000x256_0
      (Host.reduce IntOp.andi
        (andi
          (cmpi .sge
            (broadcastInDim S800000x1 ![0] bcast_S800000_S800000x1_0
              (select (cmpi .slt idx (broadcastInDim S800000 ![] bcast_S_S800000 (constantI S_ 32 0#32)))
                (addi idx (broadcastInDim S800000 ![] bcast_S_S800000 (constantI S_ 32 50000#32))) idx))
            (broadcastInDim S800000x1 ![] bcast_S_S800000x1 (constantI S_ 32 0#32)))
          (cmpi .sle
            (broadcastInDim S800000x1 ![0] bcast_S800000_S800000x1_0
              (select (cmpi .slt idx (broadcastInDim S800000 ![] bcast_S_S800000 (constantI S_ 32 0#32)))
                (addi idx (broadcastInDim S800000 ![] bcast_S_S800000 (constantI S_ 32 50000#32))) idx))
            (broadcastInDim S800000x1 ![0, 1] bcast_S1x1_S800000x1_0_1
              (broadcastInDim S1x1 ![1] bcast_S1_S1x1_1 (constantI S1 32 49999#32)))))
        (constantI S_ 1 1#1) reducesTo_S800000x1_S800000_d1 h_S_))
    (Host.gather gather_S50000x256_S800000x1_S800000x256_1_0_n_n_0_1_1256 x
      (broadcastInDim S800000x1 ![0] bcast_S800000_S800000x1_0
        (select (cmpi .slt idx (broadcastInDim S800000 ![] bcast_S_S800000 (constantI S_ 32 0#32)))
          (addi idx (broadcastInDim S800000 ![] bcast_S_S800000 (constantI S_ 32 50000#32))) idx)))
    (broadcastInDim S800000x256 ![] bcast_S_S800000x256 (constant S_ .f32 0x7FC00000#32))

end Cert.KernelIdeal.Hand

end
-- ==== Proof.Reg0.lean ====
/-
  The first tiled call (25 blocks of 2000 node rows): each of its four output arrays, entry by entry. Per block the
  body multiplies the block of x into each of three 256 × 256 matrices, adds a shift row, and multiplies the first
  product by each of two gate rows; a matrix product into a zero accumulator is, at (r, q), the sum over k of
  x[r,k]·W[k,q]. Block t of an output is rows 2000·t … 2000·t + 1999, and the 25 blocks cover the array.
-/
import proofs.«415271_j5102421148357_1_alg».proof.Proof.Gen.KernelIdeal.Frame
import proofs.«415271_j5102421148357_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.Spec

/-! ## The block product at an entry -/

/-- The product's left operand is read at the output's row: axis 0 is the free axis. -/
private theorem lhs_blockDot_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
/-- Its axis 1 is the contracted one. -/
private theorem lhs_blockDot_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
/-- The right operand's axis 0 is the contracted one. -/
private theorem rhs_blockDot_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
/-- Its axis 1 is read at the output's column. -/
private theorem rhs_blockDot_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- A block of rows times a square matrix, accumulated from zero, read at entry (r, q): the sum over k of the
    row's k-th entry times the matrix's (k, q) entry. -/
private theorem blockDot_apply {φ₁ φ₂ : FTy} (a : FVec Ideal S2000x256 φ₁) (w : FVec Ideal S256x256 φ₂) (r : Fin 2000) (q : Fin 256) :
    matmul dot_S2000x256_S256x256_S2000x256_1_0_0_1_n_n none a w (constant (F := Ideal) S2000x256 .f32 0x00000000#32) (ix2 r q)
      = ∑ k : Fin 256, a (ix2 r k) * w (ix2 k q) := by
  show FloatOps.matmul dot_S2000x256_S256x256_S2000x256_1_0_0_1_n_n none a w (constant S2000x256 .f32 0x00000000#32) (ix2 r q) = _
  rw [Ideal.matmul_constant_zero_apply, ← Equiv.sum_comp (ValueIdx.contrEquiv1 dot_S2000x256_S256x256_S2000x256_1_0_0_1_n_n 256 rfl rfl).symm]
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx (ix2 r q) ((ValueIdx.contrEquiv1 dot_S2000x256_S256x256_S2000x256_1_0_0_1_n_n 256 rfl rfl).symm k) = ix2 r k := funext fun a => Fin.ext (by
    match a with
    | ⟨0, _⟩ => exact lhs_blockDot_0 _ _
    | ⟨1, _⟩ => exact (lhs_blockDot_1 _ _).trans hk)
  have er : dot_S2000x256_S256x256_S2000x256_1_0_0_1_n_n.rhsIdx (ix2 r q) ((ValueIdx.contrEquiv1 dot_S2000x256_S256x256_S2000x256_1_0_0_1_n_n 256 rfl rfl).symm k) = ix2 k q := funext fun a => Fin.ext (by
    match a with
    | ⟨0, _⟩ => exact (rhs_blockDot_0 _ _).trans hk
    | ⟨1, _⟩ => exact rhs_blockDot_1 _ _)
  rw [el, er]

/-! ## What the body stores, at an entry -/

/-- A one-row array spread along the rows of a block reads, at (r, q), the row's q-th entry. -/
private theorem rowSpread_apply (v : Vec Ideal S1x256 .f32) (r : Fin 2000) (q : Fin 256) :
    broadcastTo S2000x256 (shapeCast S1x256 v shapeCasts_S1x256_S1x256) broadcasts_S1x256_S2000x256 (ix2 r q)
      = v (ix2 (0 : Fin 1) q) := by
  rw [shapeCast_self]
  refine broadcastTo_apply v broadcasts_S1x256_S2000x256 (ix2 r q) (ix2 (0 : Fin 1) q) fun ax => ?_
  match ax with
  | ⟨0, _⟩ => rfl
  | ⟨1, _⟩ => rfl

/-- The affine map of a block of rows, at (r, q): the row times the matrix's q-th column, plus the shift's q-th entry
    (narrowing the operands to the half-width format leaves an extended real as it is). -/
private theorem affine_apply (x : Vec Ideal S2000x256 .f32) (w : Vec Ideal S256x256 .f32) (b : Vec Ideal S1x256 .f32)
    (r : Fin 2000) (q : Fin 256) :
    k0_pay2 (F := Ideal) x w b (ix2 r q) = (∑ k : Fin 256, x (ix2 r k) * w (ix2 k q)) + b (ix2 (0 : Fin 1) q) := by
  unfold k0_pay2 k0_pay1
  rw [addf_apply, blockDot_apply, rowSpread_apply]
  rfl

/-- The second affine map of the block, at (r, q): the same sum with the second matrix and shift. -/
private theorem affine3_apply (x : Vec Ideal S2000x256 .f32) (w : Vec Ideal S256x256 .f32) (b : Vec Ideal S1x256 .f32)
    (r : Fin 2000) (q : Fin 256) :
    k0_pay3 (F := Ideal) x w b (ix2 r q) = (∑ k : Fin 256, x (ix2 r k) * w (ix2 k q)) + b (ix2 (0 : Fin 1) q) := by
  unfold k0_pay3 k0_pay1
  rw [addf_apply, blockDot_apply, rowSpread_apply]
  rfl

/-- The third affine map of the block, at (r, q). -/
private theorem affine4_apply (x : Vec Ideal S2000x256 .f32) (w : Vec Ideal S256x256 .f32) (b : Vec Ideal S1x256 .f32)
    (r : Fin 2000) (q : Fin 256) :
    k0_pay4 (F := Ideal) x w b (ix2 r q) = (∑ k : Fin 256, x (ix2 r k) * w (ix2 k q)) + b (ix2 (0 : Fin 1) q) := by
  unfold k0_pay4 k0_pay1
  rw [addf_apply, blockDot_apply, rowSpread_apply]
  rfl

/-- The first affine map gated by a one-row array, at (r, q). -/
private theorem gated5_apply (x : Vec Ideal S2000x256 .f32) (w : Vec Ideal S256x256 .f32) (b g : Vec Ideal S1x256 .f32)
    (r : Fin 2000) (q : Fin 256) :
    k0_pay5 (F := Ideal) x w b g (ix2 r q)
      = ((∑ k : Fin 256, x (ix2 r k) * w (ix2 k q)) + b (ix2 (0 : Fin 1) q)) * g (ix2 (0 : Fin 1) q) := by
  unfold k0_pay5
  rw [mulf_apply, affine_apply, rowSpread_apply]

/-- The first affine map gated by the other one-row array, at (r, q). -/
private theorem gated6_apply (x : Vec Ideal S2000x256 .f32) (w : Vec Ideal S256x256 .f32) (b g : Vec Ideal S1x256 .f32)
    (r : Fin 2000) (q : Fin 256) :
    k0_pay6 (F := Ideal) x w b g (ix2 r q)
      = ((∑ k : Fin 256, x (ix2 r k) * w (ix2 k q)) + b (ix2 (0 : Fin 1) q)) * g (ix2 (0 : Fin 1) q) := by
  unfold k0_pay6
  rw [mulf_apply, affine_apply, rowSpread_apply]

/-! ## The windows' blocks as parts of the arrays -/

/-- The offsets (0, 0) are the zero function. -/
private theorem zeroOffsets : (![0, 0] : Fin 2 → Nat) = fun _ => 0 := funext fun a => by fin_cases a <;> rfl

/-- The block index of every window at every one of the 25 points: the row-tiled windows (the node array and the
    four outputs) sit at block (t, 0); the weights and the one-row arrays are one block, at (0, 0). -/
private theorem blockIndex : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0)
    ∧ (win0_12.index t (0 : Fin 2) = t.val ∧ win0_12.index t (1 : Fin 2) = 0) :=
  (by decide +kernel : ∀ t : Fin grid0.N, _)

/-- An element of a block at block index (0, 0) sits in the array at its own coordinates. -/
private theorem idx_of_zero_block {n0 n1 : Nat} (x y : (⟨2, ![n0, n1]⟩ : Shape).Idx) {i0 i1 : Nat} (s0 s1 : Nat)
    (h0 : i0 = 0) (h1 : i1 = 0)
    (hy0 : (y 0).val = i0 * s0 + 1 * (x 0).val) (hy1 : (y 1).val = i1 * s1 + 1 * (x 1).val) : y = x := by
  subst h0 h1
  funext a
  apply Fin.ext
  match a with
  | ⟨0, _⟩ => show (y 0).val = (x 0).val; omega
  | ⟨1, _⟩ => show (y 1).val = (x 1).val; omega

/-- Row p of the node array lies in the block of rows of point p / 2000, and every column in its one column block. -/
private theorem rowTile_mem {i0 i1 b0 b1 t : Nat} (h0 : b0 = t) (h1 : b1 = 0) (ht : t = i0 / 2000) (hi1 : i1 < 256) :
    (b0 * 2000 ≤ i0 ∧ i0 < b0 * 2000 + 2000) ∧ (b1 * 256 ≤ i1 ∧ i1 < b1 * 256 + 256) := by
  subst h0 h1 ht
  omega

/-! ## The arrays the region leaves -/

/-- The row of an index of the node-shaped arrays. -/
private abbrev rowOf (i : S50000x256.Idx) : Fin 50000 := ⟨(i 0).val, idx2_lt0 i⟩
/-- Its column. -/
private abbrev colOf (i : S50000x256.Idx) : Fin 256 := ⟨(i 1).val, idx2_lt1 i⟩

/-- The affine map x·W + b of the whole node array, as an array. -/
private def affineArr (A : A2 50000 256) (W : A2 256 256) (b : A2 1 256) : A2 50000 256 :=
  fun i => linRow A W b (rowOf i) (colOf i)

/-- The affine map with every column scaled by a one-row array's entry. -/
private def gatedArr (A : A2 50000 256) (W : A2 256 256) (b g : A2 1 256) : A2 50000 256 :=
  fun i => linRow A W b (rowOf i) (colOf i) * at2 g (0 : Fin 1) (colOf i)

/-- A block's affine map at (r, q) is the array's at the index i the block's element sits at: the block's row r is
    the array's row of i, the column is i's, the matrix and the shift are whole. -/
private theorem affine_rows_eq (A : A2 50000 256) (W : A2 256 256) (b : A2 1 256)
    (x : Vec Ideal S2000x256 .f32) (w : Vec Ideal S256x256 .f32) (s : Vec Ideal S1x256 .f32) (hw : w = W) (hs : s = b)
    (r : Fin 2000) (q : Fin 256) (i : S50000x256.Idx) (hq : (i 1).val = q.val)
    (hx : ∀ k : Fin 256, x (ix2 r k) = A (ix2 (rowOf i) k)) :
    (∑ k : Fin 256, x (ix2 r k) * w (ix2 k q)) + s (ix2 (0 : Fin 1) q) = affineArr A W b i := by
  subst hw hs
  have e : colOf i = q := Fin.ext hq
  unfold affineArr linRow
  rw [e]
  exact congrArg (· + s (ix2 (0 : Fin 1) q)) (Finset.sum_congr rfl fun k _ => by rw [hx k])

/-- The same for the gated map. -/
private theorem gated_rows_eq (A : A2 50000 256) (W : A2 256 256) (b g : A2 1 256)
    (x : Vec Ideal S2000x256 .f32) (w : Vec Ideal S256x256 .f32) (s γ : Vec Ideal S1x256 .f32)
    (hw : w = W) (hs : s = b) (hg : γ = g)
    (r : Fin 2000) (q : Fin 256) (i : S50000x256.Idx) (hq : (i 1).val = q.val)
    (hx : ∀ k : Fin 256, x (ix2 r k) = A (ix2 (rowOf i) k)) :
    ((∑ k : Fin 256, x (ix2 r k) * w (ix2 k q)) + s (ix2 (0 : Fin 1) q)) * γ (ix2 (0 : Fin 1) q) = gatedArr A W b g i := by
  subst hg
  have e : colOf i = q := Fin.ext hq
  have h := affine_rows_eq A W b x w s hw hs r q i hq hx
  unfold gatedArr
  unfold affineArr at h
  rw [h, e]

/-- The point whose block holds an index's row: the row over 2000. -/
private def pointOf (i : S50000x256.Idx) : Fin cfg0.N :=
  ⟨(i 0).val / 2000, by have h := idx2_lt0 i; rw [show cfg0.N = 25 from N_0]; omega⟩

variable (V : (c : Dev nD) → (b : Ref sig .tc) → Buf (Elt Ideal) ((c : Thread nD τ).loc b))

/-- The node array's block at point t holds rows 2000·t … 2000·t + 1999 of the array. -/
private theorem nodeRows_apply (c : Dev nD) (t : Fin cfg0.N) (x : S2000x256.Idx) (i : S50000x256.Idx)
    (h0 : (i 0).val = 2000 * t.val + (x 0).val) (h1 : (i 1).val = (x 1).val) :
    (iblk0 V c 0 t : Vec Ideal S2000x256 .f32) x = (V c main_arg0 : S50000x256.Idx → Elt Ideal .f32) i := by
  obtain ⟨⟨e0, e1⟩, -⟩ := blockIndex t
  unfold iblk0
  rw [View.read_apply]
  show V c main_arg0 _ = V c main_arg0 _
  congr 1
  funext a
  apply Fin.ext
  match a with
  | ⟨0, _⟩ => show win0_0.index t (0 : Fin 2) * 2000 + 1 * (x 0).val = (i 0).val; rw [e0, h0]; omega
  | ⟨1, _⟩ => show win0_0.index t (1 : Fin 2) * 256 + 1 * (x 1).val = (i 1).val; rw [e1, h1]; omega

/-- The three weight matrices' blocks are the whole matrices at every point. -/
private theorem weightA_block (c : Dev nD) (t : Fin cfg0.N) :
    (iblk0 V c 1 t : Vec Ideal S256x256 .f32) = (V c main_arg3 : S256x256.Idx → Elt Ideal .f32) := by
  obtain ⟨-, ⟨e0, e1⟩, -⟩ := blockIndex t
  funext x
  exact congrArg (V c main_arg3) (idx_of_zero_block x _ 256 256 e0 e1 rfl rfl)
private theorem weightB_block (c : Dev nD) (t : Fin cfg0.N) :
    (iblk0 V c 3 t : Vec Ideal S256x256 .f32) = (V c main_arg5 : S256x256.Idx → Elt Ideal .f32) := by
  obtain ⟨-, -, -, ⟨e0, e1⟩, -⟩ := blockIndex t
  funext x
  exact congrArg (V c main_arg5) (idx_of_zero_block x _ 256 256 e0 e1 rfl rfl)
private theorem weightC_block (c : Dev nD) (t : Fin cfg0.N) :
    (iblk0 V c 5 t : Vec Ideal S256x256 .f32) = (V c main_arg7 : S256x256.Idx → Elt Ideal .f32) := by
  obtain ⟨-, -, -, -, -, ⟨e0, e1⟩, -⟩ := blockIndex t
  funext x
  exact congrArg (V c main_arg7) (idx_of_zero_block x _ 256 256 e0 e1 rfl rfl)

/-- The three shifts' and the two gates' blocks are the whole one-row arrays at every point. -/
private theorem shiftA_block (c : Dev nD) (t : Fin cfg0.N) :
    (iblk0 V c 2 t : Vec Ideal S1x256 .f32) = (V c main_v0 : S1x256.Idx → Elt Ideal .f32) := by
  obtain ⟨-, -, ⟨e0, e1⟩, -⟩ := blockIndex t
  funext x
  exact congrArg (V c main_v0) (idx_of_zero_block x _ 1 256 e0 e1 rfl rfl)
private theorem shiftB_block (c : Dev nD) (t : Fin cfg0.N) :
    (iblk0 V c 4 t : Vec Ideal S1x256 .f32) = (V c main_v1 : S1x256.Idx → Elt Ideal .f32) := by
  obtain ⟨-, -, -, -, ⟨e0, e1⟩, -⟩ := blockIndex t
  funext x
  exact congrArg (V c main_v1) (idx_of_zero_block x _ 1 256 e0 e1 rfl rfl)
private theorem shiftC_block (c : Dev nD) (t : Fin cfg0.N) :
    (iblk0 V c 6 t : Vec Ideal S1x256 .f32) = (V c main_v2 : S1x256.Idx → Elt Ideal .f32) := by
  obtain ⟨-, -, -, -, -, -, ⟨e0, e1⟩, -⟩ := blockIndex t
  funext x
  exact congrArg (V c main_v2) (idx_of_zero_block x _ 1 256 e0 e1 rfl rfl)
private theorem gateL_block (c : Dev nD) (t : Fin cfg0.N) :
    (iblk0 V c 7 t : Vec Ideal S1x256 .f32) = (V c main_v3 : S1x256.Idx → Elt Ideal .f32) := by
  obtain ⟨-, -, -, -, -, -, -, ⟨e0, e1⟩, -⟩ := blockIndex t
  funext x
  exact congrArg (V c main_v3) (idx_of_zero_block x _ 1 256 e0 e1 rfl rfl)
private theorem gateR_block (c : Dev nD) (t : Fin cfg0.N) :
    (iblk0 V c 8 t : Vec Ideal S1x256 .f32) = (V c main_v4 : S1x256.Idx → Elt Ideal .f32) := by
  obtain ⟨-, -, -, -, -, -, -, -, ⟨e0, e1⟩, -⟩ := blockIndex t
  funext x
  exact congrArg (V c main_v4) (idx_of_zero_block x _ 1 256 e0 e1 rfl rfl)

/-! ## What each point writes back, and the arrays after the region -/

/-- Point t writes to the gated source scores' array the rows it computed: block t of the gated map. -/
private theorem flushedSrc_eq (c : Dev nD) (t : Fin cfg0.N) :
    (dat0 V c).flushed 9 t = ((cfg0.win 9).blk t).view.read (Elt Ideal) (gatedArr (V c main_arg0) (V c main_arg3) (V c main_v0) (V c main_v3)) := by
  obtain ⟨-, -, -, -, -, -, -, -, -, ⟨e0, e1⟩, -⟩ := blockIndex t
  show (cfg0.win 9).cut (grid0.coords t) ((dat0 V c).after 9 t) = _
  rw [after0_9]
  unfold out0_9
  rw [View.canon_unit_zero zeroOffsets]
  simp only [View.ld_unit_zero (S := S2000x256) zeroOffsets, View.ld_unit_zero (S := S256x256) zeroOffsets,
    View.ld_unit_zero (S := S1x256) zeroOffsets]
  funext j
  obtain ⟨r, q, rfl⟩ : ∃ (r : Fin 2000) (q : Fin 256), j = ix2 r q := ⟨j 0, j 1, eq_ix2 j⟩
  refine (gated5_apply _ _ _ _ r q).trans ?_
  rw [View.read_apply]
  refine gated_rows_eq (V c main_arg0) (V c main_arg3) (V c main_v0) (V c main_v3) _ _ _ _ (weightA_block V c t) (shiftA_block V c t) (gateL_block V c t) r q _ ?_ fun k => ?_
  · show win0_9.index t (1 : Fin 2) * 256 + 1 * q.val = q.val
    rw [e1]; omega
  · refine nodeRows_apply V c t (ix2 r k) _ ?_ rfl
    show win0_9.index t (0 : Fin 2) * 2000 + 1 * r.val = 2000 * t.val + r.val
    rw [e0]; omega

/-- Every index of that array is in the block of the point its row falls to. -/
private theorem coverSrc (i : S50000x256.Idx) :
    ∃ t : Fin cfg0.N, (cfg0.win 9).flush t = true ∧ i ∈ ((cfg0.win 9).blk t).view.set := by
  obtain ⟨-, -, -, -, -, -, -, -, -, ⟨e0, e1⟩, -⟩ := blockIndex (pointOf i)
  refine ⟨pointOf i, flush0_9 _, ?_⟩
  show i ∈ ((View.whole main_v7_0).slice (win0_9.rect (pointOf i))).set
  rw [View.set_slice_whole, Rect.mem_set_unit]
  have h := rowTile_mem e0 e1 (rfl : (pointOf i).val = (i 0).val / 2000) (idx2_lt1 i)
  intro a
  match a with
  | ⟨0, _⟩ => exact h.1
  | ⟨1, _⟩ => exact h.2

/-- So the array ends holding the map, whole. -/
private theorem arrSrc_eq (c : Dev nD) : (dat0 V c).arrAt 9 cfg0.N = gatedArr (V c main_arg0) (V c main_arg3) (V c main_v0) (V c main_v3) :=
  (dat0 V c).arrAt_eq_of_cover 9 _ (fun t _ => flushedSrc_eq V c t) coverSrc

/-- Point t writes to the gated destination scores' array block t of the map gated by the other row. -/
private theorem flushedDst_eq (c : Dev nD) (t : Fin cfg0.N) :
    (dat0 V c).flushed 10 t = ((cfg0.win 10).blk t).view.read (Elt Ideal) (gatedArr (V c main_arg0) (V c main_arg3) (V c main_v0) (V c main_v4)) := by
  obtain ⟨-, -, -, -, -, -, -, -, -, -, ⟨e0, e1⟩, -⟩ := blockIndex t
  show (cfg0.win 10).cut (grid0.coords t) ((dat0 V c).after 10 t) = _
  rw [after0_10]
  unfold out0_10
  rw [View.canon_unit_zero zeroOffsets]
  simp only [View.ld_unit_zero (S := S2000x256) zeroOffsets, View.ld_unit_zero (S := S256x256) zeroOffsets,
    View.ld_unit_zero (S := S1x256) zeroOffsets]
  funext j
  obtain ⟨r, q, rfl⟩ : ∃ (r : Fin 2000) (q : Fin 256), j = ix2 r q := ⟨j 0, j 1, eq_ix2 j⟩
  refine (gated6_apply _ _ _ _ r q).trans ?_
  rw [View.read_apply]
  refine gated_rows_eq (V c main_arg0) (V c main_arg3) (V c main_v0) (V c main_v4) _ _ _ _ (weightA_block V c t) (shiftA_block V c t) (gateR_block V c t) r q _ ?_ fun k => ?_
  · show win0_10.index t (1 : Fin 2) * 256 + 1 * q.val = q.val
    rw [e1]; omega
  · refine nodeRows_apply V c t (ix2 r k) _ ?_ rfl
    show win0_10.index t (0 : Fin 2) * 2000 + 1 * r.val = 2000 * t.val + r.val
    rw [e0]; omega

/-- Every index of that array is in the block of the point its row falls to. -/
private theorem coverDst (i : S50000x256.Idx) :
    ∃ t : Fin cfg0.N, (cfg0.win 10).flush t = true ∧ i ∈ ((cfg0.win 10).blk t).view.set := by
  obtain ⟨-, -, -, -, -, -, -, -, -, -, ⟨e0, e1⟩, -⟩ := blockIndex (pointOf i)
  refine ⟨pointOf i, flush0_10 _, ?_⟩
  show i ∈ ((View.whole main_v7_1).slice (win0_10.rect (pointOf i))).set
  rw [View.set_slice_whole, Rect.mem_set_unit]
  have h := rowTile_mem e0 e1 (rfl : (pointOf i).val = (i 0).val / 2000) (idx2_lt1 i)
  intro a
  match a with
  | ⟨0, _⟩ => exact h.1
  | ⟨1, _⟩ => exact h.2

/-- So the array ends holding the map, whole. -/
private theorem arrDst_eq (c : Dev nD) : (dat0 V c).arrAt 10 cfg0.N = gatedArr (V c main_arg0) (V c main_arg3) (V c main_v0) (V c main_v4) :=
  (dat0 V c).arrAt_eq_of_cover 10 _ (fun t _ => flushedDst_eq V c t) coverDst

/-- Point t writes to the second affine map's array the rows of the map it computed: block t of the array. -/
private theorem flushedMapB_eq (c : Dev nD) (t : Fin cfg0.N) :
    (dat0 V c).flushed 11 t = ((cfg0.win 11).blk t).view.read (Elt Ideal) (affineArr (V c main_arg0) (V c main_arg5) (V c main_v1)) := by
  obtain ⟨-, -, -, -, -, -, -, -, -, -, -, ⟨e0, e1⟩, -⟩ := blockIndex t
  show (cfg0.win 11).cut (grid0.coords t) ((dat0 V c).after 11 t) = _
  rw [after0_11]
  unfold out0_11
  rw [View.canon_unit_zero zeroOffsets]
  simp only [View.ld_unit_zero (S := S2000x256) zeroOffsets, View.ld_unit_zero (S := S256x256) zeroOffsets,
    View.ld_unit_zero (S := S1x256) zeroOffsets]
  funext j
  obtain ⟨r, q, rfl⟩ : ∃ (r : Fin 2000) (q : Fin 256), j = ix2 r q := ⟨j 0, j 1, eq_ix2 j⟩
  refine (affine3_apply _ _ _ r q).trans ?_
  rw [View.read_apply]
  refine affine_rows_eq (V c main_arg0) (V c main_arg5) (V c main_v1) _ _ _ (weightB_block V c t) (shiftB_block V c t) r q _ ?_ fun k => ?_
  · show win0_11.index t (1 : Fin 2) * 256 + 1 * q.val = q.val
    rw [e1]; omega
  · refine nodeRows_apply V c t (ix2 r k) _ ?_ rfl
    show win0_11.index t (0 : Fin 2) * 2000 + 1 * r.val = 2000 * t.val + r.val
    rw [e0]; omega

/-- Every index of that array is in the block of the point its row falls to. -/
private theorem coverMapB (i : S50000x256.Idx) :
    ∃ t : Fin cfg0.N, (cfg0.win 11).flush t = true ∧ i ∈ ((cfg0.win 11).blk t).view.set := by
  obtain ⟨-, -, -, -, -, -, -, -, -, -, -, ⟨e0, e1⟩, -⟩ := blockIndex (pointOf i)
  refine ⟨pointOf i, flush0_11 _, ?_⟩
  show i ∈ ((View.whole main_v7_2).slice (win0_11.rect (pointOf i))).set
  rw [View.set_slice_whole, Rect.mem_set_unit]
  have h := rowTile_mem e0 e1 (rfl : (pointOf i).val = (i 0).val / 2000) (idx2_lt1 i)
  intro a
  match a with
  | ⟨0, _⟩ => exact h.1
  | ⟨1, _⟩ => exact h.2

/-- So the array ends holding the map, whole. -/
private theorem arrMapB_eq (c : Dev nD) : (dat0 V c).arrAt 11 cfg0.N = affineArr (V c main_arg0) (V c main_arg5) (V c main_v1) :=
  (dat0 V c).arrAt_eq_of_cover 11 _ (fun t _ => flushedMapB_eq V c t) coverMapB

/-- Point t writes to the third affine map's array block t of that map. -/
private theorem flushedMapC_eq (c : Dev nD) (t : Fin cfg0.N) :
    (dat0 V c).flushed 12 t = ((cfg0.win 12).blk t).view.read (Elt Ideal) (affineArr (V c main_arg0) (V c main_arg7) (V c main_v2)) := by
  obtain ⟨-, -, -, -, -, -, -, -, -, -, -, -, ⟨e0, e1⟩⟩ := blockIndex t
  show (cfg0.win 12).cut (grid0.coords t) ((dat0 V c).after 12 t) = _
  rw [after0_12]
  unfold out0_12
  rw [View.canon_unit_zero zeroOffsets]
  simp only [View.ld_unit_zero (S := S2000x256) zeroOffsets, View.ld_unit_zero (S := S256x256) zeroOffsets,
    View.ld_unit_zero (S := S1x256) zeroOffsets]
  funext j
  obtain ⟨r, q, rfl⟩ : ∃ (r : Fin 2000) (q : Fin 256), j = ix2 r q := ⟨j 0, j 1, eq_ix2 j⟩
  refine (affine4_apply _ _ _ r q).trans ?_
  rw [View.read_apply]
  refine affine_rows_eq (V c main_arg0) (V c main_arg7) (V c main_v2) _ _ _ (weightC_block V c t) (shiftC_block V c t) r q _ ?_ fun k => ?_
  · show win0_12.index t (1 : Fin 2) * 256 + 1 * q.val = q.val
    rw [e1]; omega
  · refine nodeRows_apply V c t (ix2 r k) _ ?_ rfl
    show win0_12.index t (0 : Fin 2) * 2000 + 1 * r.val = 2000 * t.val + r.val
    rw [e0]; omega

/-- Every index of that array is in the block of the point its row falls to. -/
private theorem coverMapC (i : S50000x256.Idx) :
    ∃ t : Fin cfg0.N, (cfg0.win 12).flush t = true ∧ i ∈ ((cfg0.win 12).blk t).view.set := by
  obtain ⟨-, -, -, -, -, -, -, -, -, -, -, -, ⟨e0, e1⟩⟩ := blockIndex (pointOf i)
  refine ⟨pointOf i, flush0_12 _, ?_⟩
  show i ∈ ((View.whole main_v7_3).slice (win0_12.rect (pointOf i))).set
  rw [View.set_slice_whole, Rect.mem_set_unit]
  have h := rowTile_mem e0 e1 (rfl : (pointOf i).val = (i 0).val / 2000) (idx2_lt1 i)
  intro a
  match a with
  | ⟨0, _⟩ => exact h.1
  | ⟨1, _⟩ => exact h.2

/-- So the array ends holding the map, whole. -/
private theorem arrMapC_eq (c : Dev nD) : (dat0 V c).arrAt 12 cfg0.N = affineArr (V c main_arg0) (V c main_arg7) (V c main_v2) :=
  (dat0 V c).arrAt_eq_of_cover 12 _ (fun t _ => flushedMapC_eq V c t) coverMapC

/-- Region 0, output window 9 (gated source scores): entry (p, q) of the array after the region. -/
theorem arr0_9_apply (c : Dev nD) (p : Fin 50000) (q : Fin 256) :
    at2 ((dat0 (F := Ideal) V c).arrAt 9 cfg0.N) p q
      = linRow (V c main_arg0) (V c main_arg3) (V c main_v0) p q * at2 (V c main_v3) (0 : Fin 1) q := by
  rw [arrSrc_eq V c]
  rfl

/-- Region 0, output window 10 (gated destination scores). -/
theorem arr0_10_apply (c : Dev nD) (p : Fin 50000) (q : Fin 256) :
    at2 ((dat0 (F := Ideal) V c).arrAt 10 cfg0.N) p q
      = linRow (V c main_arg0) (V c main_arg3) (V c main_v0) p q * at2 (V c main_v4) (0 : Fin 1) q := by
  rw [arrDst_eq V c]
  rfl

/-- Region 0, output window 11 (the second affine map). -/
theorem arr0_11_apply (c : Dev nD) (p : Fin 50000) (q : Fin 256) :
    at2 ((dat0 (F := Ideal) V c).arrAt 11 cfg0.N) p q
      = linRow (V c main_arg0) (V c main_arg5) (V c main_v1) p q := by
  rw [arrMapB_eq V c]
  rfl

/-- Region 0, output window 12 (the third affine map). -/
theorem arr0_12_apply (c : Dev nD) (p : Fin 50000) (q : Fin 256) :
    at2 ((dat0 (F := Ideal) V c).arrAt 12 cfg0.N) p q
      = linRow (V c main_arg0) (V c main_arg7) (V c main_v2) p q := by
  rw [arrMapC_eq V c]
  rfl

end Cert.KernelIdeal.Hand

end
-- ==== Proof.Reg1.lean ====
/-
  The second tiled call (400 blocks of 2000 edge rows): its two output arrays, entry by entry. The body is pointwise:
  the gate is the logistic function of the sum of the two taken score rows, the message the taken value row times
  the gate. Block t of an output is rows 2000·t … 2000·t + 1999, and the 400 blocks cover the array.
-/
import proofs.«415271_j5102421148357_1_alg».proof.Proof.Gen.KernelIdeal.Frame
import proofs.«415271_j5102421148357_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.Spec

variable (V : (c : Dev nD) → (b : Ref sig .tc) → Buf (Elt Ideal) ((c : Thread nD τ).loc b))

/-! ## The edge region: gate and gated message, entry by entry

Each of the region's 400 points works on 2000 consecutive edges (rows) with all 256 features: the three inputs' blocks and
the two outputs' blocks at point `t` are rows `2000·t … 2000·t + 1999` of their arrays. The body is pointwise, so what a
point writes back is the block of one whole-array function, and the 400 blocks fill the 800000 rows. -/

/-- A whole-block access starts at row 0, column 0. -/
private theorem offsets_zero : (![0, 0] : Fin 2 → Nat) = fun _ => 0 :=
  funext fun a => by match a with | ⟨0, _⟩ => rfl | ⟨1, _⟩ => rfl

/-- The gate of every edge and feature: the logistic function of the sum of the two projections. -/
private abbrev gateOf (a b : S800000x256.Idx → EReal) : S800000x256.Idx → EReal :=
  fun i => sigm (a i + b i)

/-- The gated message of every edge and feature: the third projection times the gate. -/
private abbrev msgOf (a b v : S800000x256.Idx → EReal) : S800000x256.Idx → EReal :=
  fun i => v i * sigm (a i + b i)

/-- The body's first stored value at an entry of the block: the gate of the two loaded entries. -/
private theorem gatePay_apply (x0 x1 : Vec Ideal S2000x256 .f32) (j : S2000x256.Idx) :
    k1_pay1 (F := Ideal) x0 x1 j = sigm (x0 j + x1 j) := by
  unfold k1_pay1
  rw [shapeCast_self, shapeCast_self]
  rfl

/-- The body's second stored value at an entry of the block: the third loaded entry times the gate. -/
private theorem msgPay_apply (x0 x1 x2 : Vec Ideal S2000x256 .f32) (j : S2000x256.Idx) :
    k1_pay2 (F := Ideal) x0 x1 x2 j = x2 j * sigm (x0 j + x1 j) := by
  unfold k1_pay2
  rw [shapeCast_self]
  show x2 j * k1_pay1 (F := Ideal) x0 x1 j = _
  rw [gatePay_apply]

/-- The same two facts as equations of functions of the loaded blocks. -/
private theorem gatePay_eq :
    (k1_pay1 (F := Ideal)) = fun x0 x1 => (fun j => sigm (x0 j + x1 j)) :=
  funext fun x0 => funext fun x1 => funext fun j => gatePay_apply x0 x1 j

private theorem msgPay_eq :
    (k1_pay2 (F := Ideal)) = fun x0 x1 x2 => (fun j => x2 j * sigm (x0 j + x1 j)) :=
  funext fun x0 => funext fun x1 => funext fun x2 => funext fun j => msgPay_apply x0 x1 x2 j

/-- Every window's block at point `t` is block (t, 0) of its array (checked at each of the 400 points). -/
private theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- The three projections as the region finds them, as arrays of extended reals. -/
private abbrev projA (c : Dev nD) : S800000x256.Idx → EReal := V c main_v8
private abbrev projB (c : Dev nD) : S800000x256.Idx → EReal := V c main_v9
private abbrev projV (c : Dev nD) : S800000x256.Idx → EReal := V c main_v10

/-- What point `t` writes back to the gate array is block `t` of the gate of the two projections. -/
private theorem flushed_gate (c : Dev nD) (t : Fin cfg1.N) :
    (dat1 (F := Ideal) V c).flushed 3 t
      = ((cfg1.win 3).blk t).view.read (Elt Ideal) (gateOf (projA V c) (projB V c)) := by
  show (cfg1.win 3).cut (grid1.coords t) ((dat1 V c).after 3 t) = _
  rw [after1_3]
  unfold out1_3
  rw [View.canon_unit_zero offsets_zero]
  simp only [View.ld_unit_zero (S := S2000x256) offsets_zero]
  rw [gatePay_eq]
  obtain ⟨a0, a1, b0, b1, -, -, g0, g1, -, -⟩ := block_index t
  funext j
  show sigm (projA V c (((cfg1.win 0).blk t).view.emb j) + projB V c (((cfg1.win 1).blk t).view.emb j))
    = sigm (projA V c (((cfg1.win 3).blk t).view.emb j) + projB V c (((cfg1.win 3).blk t).view.emb j))
  have h0 : ((cfg1.win 0).blk t).view.emb j = ((cfg1.win 3).blk t).view.emb j := by
    funext a; apply Fin.ext
    match a with
    | ⟨0, _⟩ => show win1_0.index t (0 : Fin 2) * 2000 + 1 * (j 0).val = win1_3.index t (0 : Fin 2) * 2000 + 1 * (j 0).val; omega
    | ⟨1, _⟩ => show win1_0.index t (1 : Fin 2) * 256 + 1 * (j 1).val = win1_3.index t (1 : Fin 2) * 256 + 1 * (j 1).val; omega
  have h1 : ((cfg1.win 1).blk t).view.emb j = ((cfg1.win 3).blk t).view.emb j := by
    funext a; apply Fin.ext
    match a with
    | ⟨0, _⟩ => show win1_1.index t (0 : Fin 2) * 2000 + 1 * (j 0).val = win1_3.index t (0 : Fin 2) * 2000 + 1 * (j 0).val; omega
    | ⟨1, _⟩ => show win1_1.index t (1 : Fin 2) * 256 + 1 * (j 1).val = win1_3.index t (1 : Fin 2) * 256 + 1 * (j 1).val; omega
  rw [h0, h1]

/-- What point `t` writes back to the message array is block `t` of the gated message of the three projections. -/
private theorem flushed_msg (c : Dev nD) (t : Fin cfg1.N) :
    (dat1 (F := Ideal) V c).flushed 4 t
      = ((cfg1.win 4).blk t).view.read (Elt Ideal) (msgOf (projA V c) (projB V c) (projV V c)) := by
  show (cfg1.win 4).cut (grid1.coords t) ((dat1 V c).after 4 t) = _
  rw [after1_4]
  unfold out1_4
  rw [View.canon_unit_zero offsets_zero]
  simp only [View.ld_unit_zero (S := S2000x256) offsets_zero]
  rw [msgPay_eq]
  obtain ⟨a0, a1, b0, b1, v0, v1, -, -, g0, g1⟩ := block_index t
  funext j
  show projV V c (((cfg1.win 2).blk t).view.emb j)
      * sigm (projA V c (((cfg1.win 0).blk t).view.emb j) + projB V c (((cfg1.win 1).blk t).view.emb j))
    = projV V c (((cfg1.win 4).blk t).view.emb j)
      * sigm (projA V c (((cfg1.win 4).blk t).view.emb j) + projB V c (((cfg1.win 4).blk t).view.emb j))
  have h0 : ((cfg1.win 0).blk t).view.emb j = ((cfg1.win 4).blk t).view.emb j := by
    funext a; apply Fin.ext
    match a with
    | ⟨0, _⟩ => show win1_0.index t (0 : Fin 2) * 2000 + 1 * (j 0).val = win1_4.index t (0 : Fin 2) * 2000 + 1 * (j 0).val; omega
    | ⟨1, _⟩ => show win1_0.index t (1 : Fin 2) * 256 + 1 * (j 1).val = win1_4.index t (1 : Fin 2) * 256 + 1 * (j 1).val; omega
  have h1 : ((cfg1.win 1).blk t).view.emb j = ((cfg1.win 4).blk t).view.emb j := by
    funext a; apply Fin.ext
    match a with
    | ⟨0, _⟩ => show win1_1.index t (0 : Fin 2) * 2000 + 1 * (j 0).val = win1_4.index t (0 : Fin 2) * 2000 + 1 * (j 0).val; omega
    | ⟨1, _⟩ => show win1_1.index t (1 : Fin 2) * 256 + 1 * (j 1).val = win1_4.index t (1 : Fin 2) * 256 + 1 * (j 1).val; omega
  have h2 : ((cfg1.win 2).blk t).view.emb j = ((cfg1.win 4).blk t).view.emb j := by
    funext a; apply Fin.ext
    match a with
    | ⟨0, _⟩ => show win1_2.index t (0 : Fin 2) * 2000 + 1 * (j 0).val = win1_4.index t (0 : Fin 2) * 2000 + 1 * (j 0).val; omega
    | ⟨1, _⟩ => show win1_2.index t (1 : Fin 2) * 256 + 1 * (j 1).val = win1_4.index t (1 : Fin 2) * 256 + 1 * (j 1).val; omega
  rw [h0, h1, h2]

/-- An entry of the gate array is in point `t`'s block iff its row and column are in the block's ranges. -/
private theorem mem_gate_block (t : Fin cfg1.N) (i : S800000x256.Idx) :
    i ∈ ((cfg1.win 3).blk t).view.set ↔ ∀ a : Fin 2, win1_3.index t a * S2000x256.size a ≤ (i a).val
      ∧ (i a).val < win1_3.index t a * S2000x256.size a + S2000x256.size a := by
  show i ∈ ((View.whole main_v11_0).slice (win1_3.rect t)).set ↔ _
  rw [View.set_slice_whole, Rect.mem_set_unit]
  exact Iff.rfl

/-- The same for the message array. -/
private theorem mem_msg_block (t : Fin cfg1.N) (i : S800000x256.Idx) :
    i ∈ ((cfg1.win 4).blk t).view.set ↔ ∀ a : Fin 2, win1_4.index t a * S2000x256.size a ≤ (i a).val
      ∧ (i a).val < win1_4.index t a * S2000x256.size a + S2000x256.size a := by
  show i ∈ ((View.whole main_v11_1).slice (win1_4.rect t)).set ↔ _
  rw [View.set_slice_whole, Rect.mem_set_unit]
  exact Iff.rfl

/-- The number of points of the region. -/
private theorem points_eq : cfg1.N = 400 := by decide

/-- Row `p` of the gate array lies in the block of point `p / 2000`. -/
private theorem gate_covered (i : S800000x256.Idx) :
    ∃ t : Fin cfg1.N, (cfg1.win 3).flush t = true ∧ i ∈ ((cfg1.win 3).blk t).view.set := by
  have hi0 : (i 0).val < 800000 := (i 0).isLt
  have hi1 : (i 1).val < 256 := (i 1).isLt
  have hN := points_eq
  have ht : (i 0).val / 2000 < cfg1.N := by omega
  refine ⟨⟨(i 0).val / 2000, ht⟩, flush1_3 _, ?_⟩
  rw [mem_gate_block]
  obtain ⟨-, -, -, -, -, -, g0, g1, -, -⟩ := block_index ⟨(i 0).val / 2000, ht⟩
  have g0' : win1_3.index ⟨(i 0).val / 2000, ht⟩ (0 : Fin 2) = (i 0).val / 2000 := g0
  intro a
  match a with
  | ⟨0, _⟩ =>
    show win1_3.index ⟨(i 0).val / 2000, ht⟩ (0 : Fin 2) * 2000 ≤ (i 0).val
      ∧ (i 0).val < win1_3.index ⟨(i 0).val / 2000, ht⟩ (0 : Fin 2) * 2000 + 2000
    omega
  | ⟨1, _⟩ =>
    show win1_3.index ⟨(i 0).val / 2000, ht⟩ (1 : Fin 2) * 256 ≤ (i 1).val
      ∧ (i 1).val < win1_3.index ⟨(i 0).val / 2000, ht⟩ (1 : Fin 2) * 256 + 256
    omega

/-- Row `p` of the message array lies in the block of point `p / 2000`. -/
private theorem msg_covered (i : S800000x256.Idx) :
    ∃ t : Fin cfg1.N, (cfg1.win 4).flush t = true ∧ i ∈ ((cfg1.win 4).blk t).view.set := by
  have hi0 : (i 0).val < 800000 := (i 0).isLt
  have hi1 : (i 1).val < 256 := (i 1).isLt
  have hN := points_eq
  have ht : (i 0).val / 2000 < cfg1.N := by omega
  refine ⟨⟨(i 0).val / 2000, ht⟩, flush1_4 _, ?_⟩
  rw [mem_msg_block]
  obtain ⟨-, -, -, -, -, -, -, -, g0, g1⟩ := block_index ⟨(i 0).val / 2000, ht⟩
  have g0' : win1_4.index ⟨(i 0).val / 2000, ht⟩ (0 : Fin 2) = (i 0).val / 2000 := g0
  intro a
  match a with
  | ⟨0, _⟩ =>
    show win1_4.index ⟨(i 0).val / 2000, ht⟩ (0 : Fin 2) * 2000 ≤ (i 0).val
      ∧ (i 0).val < win1_4.index ⟨(i 0).val / 2000, ht⟩ (0 : Fin 2) * 2000 + 2000
    omega
  | ⟨1, _⟩ =>
    show win1_4.index ⟨(i 0).val / 2000, ht⟩ (1 : Fin 2) * 256 ≤ (i 1).val
      ∧ (i 1).val < win1_4.index ⟨(i 0).val / 2000, ht⟩ (1 : Fin 2) * 256 + 256
    omega

/-- The gate array after the region, as one function of the two projections. -/
private theorem gate_array (c : Dev nD) :
    (dat1 (F := Ideal) V c).arrAt 3 cfg1.N = gateOf (projA V c) (projB V c) :=
  (dat1 (F := Ideal) V c).arrAt_eq_of_cover 3 (gateOf (projA V c) (projB V c))
    (fun t _ => flushed_gate V c t) gate_covered

/-- The message array after the region, as one function of the three projections. -/
private theorem msg_array (c : Dev nD) :
    (dat1 (F := Ideal) V c).arrAt 4 cfg1.N = msgOf (projA V c) (projB V c) (projV V c) :=
  (dat1 (F := Ideal) V c).arrAt_eq_of_cover 4 (msgOf (projA V c) (projB V c) (projV V c))
    (fun t _ => flushed_msg V c t) msg_covered

/-- Region 1, output window 3 (the gate of an edge): entry (e, f) of the array after the region. -/
theorem arr1_3_apply (c : Dev nD) (e : Fin 800000) (f : Fin 256) :
    at2 ((dat1 (F := Ideal) V c).arrAt 3 cfg1.N) e f
      = sigm (at2 (V c main_v8) e f + at2 (V c main_v9) e f) := by
  rw [gate_array V c]

/-- Region 1, output window 4 (the gated message of an edge). -/
theorem arr1_4_apply (c : Dev nD) (e : Fin 800000) (f : Fin 256) :
    at2 ((dat1 (F := Ideal) V c).arrAt 4 cfg1.N) e f
      = at2 (V c main_v10) e f * sigm (at2 (V c main_v8) e f + at2 (V c main_v9) e f) := by
  rw [msg_array V c]

end Cert.KernelIdeal.Hand

end
-- ==== Proof.LibVecRows.lean ====
/-
  A kernel's vector operations on a block of rows read at an index: the sum of each row, a vector of row values
  viewed as a column, and a column broadcast along the rows. Stated for any extents.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

namespace Cert.LibVecRows

open Idealize.ShloMosaic Idealize.ShloMosaic.ValueIdx

/-- The sum over the second axis of an `a × b` block, read at row `p`: the sum of the row. -/
theorem multiReduction_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  -- The reduction over one axis is the sum over that axis's coordinates of the source at the row index with the
  -- coordinate inserted; on the second axis of a rank-2 block the inserted index is (p, k).
  refine (Ideal.multiReduction_add_single src acc h hφ hacc (ix1 p)).trans ?_
  show ∑ k : Fin b, src (h.lift (ix1 p) k) = ∑ k : Fin b, src (ix2 p k)
  refine Finset.sum_congr rfl fun k _ => congrArg src ?_
  funext c
  match c with
  | ⟨0, _⟩ => exact Fin.ext rfl
  | ⟨1, _⟩ => exact Fin.ext rfl

/-- A vector of length `a` viewed as an `a × 1` column reads its own entry. -/
theorem shapeCast_col_apply {a : ℕ} {α : Type} (v : (⟨1, ![a]⟩ : Shape).Idx → α)
    (h : (⟨1, ![a]⟩ : Shape).ShapeCasts ⟨2, ![a, 1]⟩) (p : Fin a) (z : Fin 1) :
    shapeCast ⟨2, ![a, 1]⟩ v h (ix2 p z) = v (ix1 p) :=
  -- Both indices have the row-major position p: p * 1 + 0 on the column side.
  shapeCast_apply v h _ _ (by
    have hz : z.val = 0 := by omega
    rw [Shape.rowMajor_val_one, Shape.rowMajor_val_two]
    show p.val = p.val * 1 + z.val
    rw [hz, Nat.mul_one, Nat.add_zero])

/-- An `a × 1` column broadcast to `a × b` reads the column's entry of the row. -/
theorem broadcastTo_col_apply {a b : ℕ} {α : Type} (v : (⟨2, ![a, 1]⟩ : Shape).Idx → α)
    (h : (⟨2, ![a, 1]⟩ : Shape).Broadcasts ⟨2, ![a, b]⟩) (p : Fin a) (k : Fin b) :
    broadcastTo ⟨2, ![a, b]⟩ v h (ix2 p k) = v (ix2 p (0 : Fin 1)) := by
  -- The row axis keeps its coordinate (which is 0 anyway when the extent is 1); the unit axis reads 0.
  refine broadcastTo_apply v h (ix2 p k) (ix2 p (0 : Fin 1)) fun ax => ?_
  match ax with
  | ⟨0, _⟩ =>
    show p.val = if a = 1 then 0 else p.val
    split
    · have := p.isLt; omega
    · rfl
  | ⟨1, _⟩ => rfl

end Cert.LibVecRows

end
-- ==== Proof.Reg2.lean ====
/-
  The third tiled call (25 blocks of 2000 node rows): its output array, entry by entry. Per row the body forms
  h = u + s / (g + ε), the row's mean and mean squared deviation (row sums divided by 256), normalises through the
  reciprocal square root, scales by one row vector, shifts by another, clips at zero and adds the node's own entry.
  Block t of the output is rows 2000·t … 2000·t + 1999, and the 25 blocks cover the array.
-/
import proofs.«415271_j5102421148357_1_alg».proof.Proof.Gen.KernelIdeal.Frame
import proofs.«415271_j5102421148357_1_alg».proof.Proof.Spec
import proofs.«415271_j5102421148357_1_alg».proof.Proof.LibVecRows
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.Spec

/-! ## The body's arithmetic at an entry of a block -/

/-- A reciprocal square root of a vector, read at an index. -/
private theorem rsqrt_at {s : Shape} {φ : FTy} (a : FVec Ideal s φ) (i : s.Idx) : rsqrt a i = Ideal.rsqrt (a i) := rfl

/-- A float constant of the scalar unit is the same word's extended real. -/
private theorem scalar_word (w : BitVec 32) : Scalar.ofBits (F := Ideal) .f32 w = Ideal.ofBits .f32 w := rfl

/-- The sum along each row of a block, read at row `r`. -/
private theorem rowSum_at (v : FVec Ideal S2000x256 .f32) (hφ : FTy.f32 = FTy.f32 ∨ FTy.f32 = FTy.bf16)
    (hacc : (0x00000000#32 : BitVec 32) = 0x00000000#32) (r : Fin 2000) :
    multiReduction (F := Ideal) .add [1] S2000 v 0x00000000#32 reduces_S2000x256_S2000 hφ hacc (ix1 r)
      = ∑ k : Fin 256, v (ix2 r k) :=
  Cert.LibVecRows.multiReduction_rows_apply v _ reduces_S2000x256_S2000 hφ hacc r

/-- The row that the normalisation is fed, from three blocks: the first plus the second over the third plus ε. -/
private abbrev rowOf (x1 x2 x3 : Vec Ideal S2000x256 .f32) (r : Fin 2000) : Fin 256 → EReal :=
  fun k => x1 (ix2 r k) + Ideal.div (x2 (ix2 r k)) (x3 (ix2 r k) + eps)

/-- The body's one stored value at entry (r, q) of the block: the residual plus the normalised row, scaled, shifted and
    clipped at zero. -/
private theorem pay_at (x0 x1 x2 x3 : Vec Ideal S2000x256 .f32) (x4 x5 : Vec Ideal S1x256 .f32) (r : Fin 2000) (q : Fin 256) :
    k2_pay1 (F := Ideal) x1 x2 x3 x4 x5 x0 (ix2 r q)
      = x0 (ix2 r q) + normMul (rowOf x1 x2 x3 r) (fun k => x4 (ix2 (0 : Fin 1) k)) (fun k => x5 (ix2 (0 : Fin 1) k)) q := by
  unfold k2_pay1
  simp only [addf_apply, subf_apply, mulf_apply, divf_apply, maximumf_apply, broadcast_apply, rsqrt_at, shapeCast_self,
    Cert.LibVecRows.broadcastTo_col_apply, Cert.LibVecRows.shapeCast_col_apply, broadcastTo_1b_ab_apply, scalar_word]
  rw [rowSum_at, rowSum_at]
  simp only [addf_apply, subf_apply, mulf_apply, divf_apply, maximumf_apply, broadcast_apply, rsqrt_at, shapeCast_self,
    Cert.LibVecRows.broadcastTo_col_apply, Cert.LibVecRows.shapeCast_col_apply, broadcastTo_1b_ab_apply, scalar_word]
  rw [rowSum_at]
  simp only [addf_apply, subf_apply, mulf_apply, divf_apply, maximumf_apply, broadcast_apply, rsqrt_at, shapeCast_self,
    Cert.LibVecRows.broadcastTo_col_apply, Cert.LibVecRows.shapeCast_col_apply, broadcastTo_1b_ab_apply, scalar_word]
  rw [Ideal.ofBits_zero_f32]
  unfold normMul var dev mean
  rfl

/-- The row read through entry-wise equal sources. -/
private theorem rowOf_eq (x1 x2 x3 : Vec Ideal S2000x256 .f32) (r : Fin 2000) (f1 f2 f3 : Fin 256 → EReal)
    (h1 : ∀ k, x1 (ix2 r k) = f1 k) (h2 : ∀ k, x2 (ix2 r k) = f2 k) (h3 : ∀ k, x3 (ix2 r k) = f3 k) :
    rowOf x1 x2 x3 r = fun k => f1 k + Ideal.div (f2 k) (f3 k + eps) :=
  funext fun k => by
    show x1 (ix2 r k) + Ideal.div (x2 (ix2 r k)) (x3 (ix2 r k) + eps) = _
    rw [h1, h2, h3]

/-! ## The windows' blocks, read at an entry -/

variable (V : (c : Dev nD) → (b : Ref sig .tc) → Buf (Elt Ideal) ((c : Thread nD τ).loc b))

private theorem off_zero : (![0, 0] : Fin 2 → Nat) = fun _ => 0 :=
  funext fun a => match a with
    | ⟨0, _⟩ => rfl
    | ⟨1, _⟩ => rfl

/-- The printed index maps, decided over the grid's 25 points: a tiled window's block index at point `t` is (t, 0), -/
private theorem idx2_0 : ∀ t : Fin cfg2.N, win2_0.index t (0 : Fin 2) = t.val ∧ win2_0.index t (1 : Fin 2) = 0 :=
  (by decide +kernel : ∀ t : Fin grid2.N, _)
private theorem idx2_1 : ∀ t : Fin cfg2.N, win2_1.index t (0 : Fin 2) = t.val ∧ win2_1.index t (1 : Fin 2) = 0 :=
  (by decide +kernel : ∀ t : Fin grid2.N, _)
private theorem idx2_2 : ∀ t : Fin cfg2.N, win2_2.index t (0 : Fin 2) = t.val ∧ win2_2.index t (1 : Fin 2) = 0 :=
  (by decide +kernel : ∀ t : Fin grid2.N, _)
private theorem idx2_3 : ∀ t : Fin cfg2.N, win2_3.index t (0 : Fin 2) = t.val ∧ win2_3.index t (1 : Fin 2) = 0 :=
  (by decide +kernel : ∀ t : Fin grid2.N, _)
private theorem idx2_6 : ∀ t : Fin cfg2.N, win2_6.index t (0 : Fin 2) = t.val ∧ win2_6.index t (1 : Fin 2) = 0 :=
  (by decide +kernel : ∀ t : Fin grid2.N, _)
/-- and a row vector's is (0, 0). -/
private theorem idx2_4 : ∀ t : Fin cfg2.N, win2_4.index t (0 : Fin 2) = 0 ∧ win2_4.index t (1 : Fin 2) = 0 :=
  (by decide +kernel : ∀ t : Fin grid2.N, _)
private theorem idx2_5 : ∀ t : Fin cfg2.N, win2_5.index t (0 : Fin 2) = 0 ∧ win2_5.index t (1 : Fin 2) = 0 :=
  (by decide +kernel : ∀ t : Fin grid2.N, _)

/-- Window 0's block at point `t`, read at (r, k), is row 2000·t + r of its array at k. -/
private theorem iblk2_0_at (c : Dev nD) (t : Fin cfg2.N) (r : Fin 2000) (k : Fin 256) (P : Fin 50000)
    (hP : P.val = 2000 * t.val + r.val) :
    (iblk2 (F := Ideal) V c 0 t : Vec Ideal S2000x256 .f32) (ix2 r k) = at2 (V c main_arg0) P k := by
  obtain ⟨e0, e1⟩ := idx2_0 t
  unfold iblk2
  rw [View.read_apply]
  show V c main_arg0 _ = V c main_arg0 _
  congr 1
  funext a
  apply Fin.ext
  match a with
  | ⟨0, _⟩ => show win2_0.index t (0 : Fin 2) * 2000 + 1 * r.val = P.val; rw [e0, hP]; omega
  | ⟨1, _⟩ => show win2_0.index t (1 : Fin 2) * 256 + 1 * k.val = k.val; rw [e1]; omega

/-- Window 4's block at any point is its one-row array. -/
private theorem iblk2_4_at (c : Dev nD) (t : Fin cfg2.N) (k : Fin 256) :
    (iblk2 (F := Ideal) V c 4 t : Vec Ideal S1x256 .f32) (ix2 (0 : Fin 1) k) = at2 (V c main_v5) (0 : Fin 1) k := by
  obtain ⟨e0, e1⟩ := idx2_4 t
  unfold iblk2
  rw [View.read_apply]
  show V c main_v5 _ = V c main_v5 _
  congr 1
  funext a
  apply Fin.ext
  match a with
  | ⟨0, _⟩ => show win2_4.index t (0 : Fin 2) * 1 + 1 * 0 = 0; rw [e0]
  | ⟨1, _⟩ => show win2_4.index t (1 : Fin 2) * 256 + 1 * k.val = k.val; rw [e1]; omega

/-- Window 1's block at point `t`, read at (r, k), is row 2000·t + r of its array at k. -/
private theorem iblk2_1_at (c : Dev nD) (t : Fin cfg2.N) (r : Fin 2000) (k : Fin 256) (P : Fin 50000)
    (hP : P.val = 2000 * t.val + r.val) :
    (iblk2 (F := Ideal) V c 1 t : Vec Ideal S2000x256 .f32) (ix2 r k) = at2 (V c main_v7_2) P k := by
  obtain ⟨e0, e1⟩ := idx2_1 t
  unfold iblk2
  rw [View.read_apply]
  show V c main_v7_2 _ = V c main_v7_2 _
  congr 1
  funext a
  apply Fin.ext
  match a with
  | ⟨0, _⟩ => show win2_1.index t (0 : Fin 2) * 2000 + 1 * r.val = P.val; rw [e0, hP]; omega
  | ⟨1, _⟩ => show win2_1.index t (1 : Fin 2) * 256 + 1 * k.val = k.val; rw [e1]; omega

/-- Window 2's block at point `t`, read at (r, k), is row 2000·t + r of its array at k. -/
private theorem iblk2_2_at (c : Dev nD) (t : Fin cfg2.N) (r : Fin 2000) (k : Fin 256) (P : Fin 50000)
    (hP : P.val = 2000 * t.val + r.val) :
    (iblk2 (F := Ideal) V c 2 t : Vec Ideal S2000x256 .f32) (ix2 r k) = at2 (V c main_v14) P k := by
  obtain ⟨e0, e1⟩ := idx2_2 t
  unfold iblk2
  rw [View.read_apply]
  show V c main_v14 _ = V c main_v14 _
  congr 1
  funext a
  apply Fin.ext
  match a with
  | ⟨0, _⟩ => show win2_2.index t (0 : Fin 2) * 2000 + 1 * r.val = P.val; rw [e0, hP]; omega
  | ⟨1, _⟩ => show win2_2.index t (1 : Fin 2) * 256 + 1 * k.val = k.val; rw [e1]; omega

/-- Window 3's block at point `t`, read at (r, k), is row 2000·t + r of its array at k. -/
private theorem iblk2_3_at (c : Dev nD) (t : Fin cfg2.N) (r : Fin 2000) (k : Fin 256) (P : Fin 50000)
    (hP : P.val = 2000 * t.val + r.val) :
    (iblk2 (F := Ideal) V c 3 t : Vec Ideal S2000x256 .f32) (ix2 r k) = at2 (V c main_v17) P k := by
  obtain ⟨e0, e1⟩ := idx2_3 t
  unfold iblk2
  rw [View.read_apply]
  show V c main_v17 _ = V c main_v17 _
  congr 1
  funext a
  apply Fin.ext
  match a with
  | ⟨0, _⟩ => show win2_3.index t (0 : Fin 2) * 2000 + 1 * r.val = P.val; rw [e0, hP]; omega
  | ⟨1, _⟩ => show win2_3.index t (1 : Fin 2) * 256 + 1 * k.val = k.val; rw [e1]; omega

/-- Window 5's block at any point is its one-row array. -/
private theorem iblk2_5_at (c : Dev nD) (t : Fin cfg2.N) (k : Fin 256) :
    (iblk2 (F := Ideal) V c 5 t : Vec Ideal S1x256 .f32) (ix2 (0 : Fin 1) k) = at2 (V c main_v6) (0 : Fin 1) k := by
  obtain ⟨e0, e1⟩ := idx2_5 t
  unfold iblk2
  rw [View.read_apply]
  show V c main_v6 _ = V c main_v6 _
  congr 1
  funext a
  apply Fin.ext
  match a with
  | ⟨0, _⟩ => show win2_5.index t (0 : Fin 2) * 1 + 1 * 0 = 0; rw [e0]
  | ⟨1, _⟩ => show win2_5.index t (1 : Fin 2) * 256 + 1 * k.val = k.val; rw [e1]; omega

/-! ## What a point writes back, and the array after the region -/

/-- What the body leaves in the output window's buffer, at entry (r, q), from the input blocks. -/
private theorem out2_6_at (x0 x1 x2 x3 : Vec Ideal S2000x256 .f32) (x4 x5 : Vec Ideal S1x256 .f32) (r : Fin 2000) (q : Fin 256) :
    out2_6 (F := Ideal) x0 x1 x2 x3 x4 x5 (ix2 r q)
      = x0 (ix2 r q) + normMul (rowOf x1 x2 x3 r) (fun k => x4 (ix2 (0 : Fin 1) k)) (fun k => x5 (ix2 (0 : Fin 1) k)) q := by
  unfold out2_6
  rw [View.canon_unit_zero off_zero]
  simp only [View.ld_unit_zero (S := S2000x256) off_zero, View.ld_unit_zero (S := S1x256) off_zero]
  exact pay_at x0 x1 x2 x3 x4 x5 r q

/-- Entry (p, q) of the array the region leaves: the residual plus the normalised row. -/
private abbrev entry2 (c : Dev nD) (p : Fin 50000) (q : Fin 256) : EReal :=
  at2 (V c main_arg0) p q
    + normMul (fun k => at2 (V c main_v7_2) p k + Ideal.div (at2 (V c main_v14) p k) (at2 (V c main_v17) p k + eps))
        (fun k => at2 (V c main_v5) (0 : Fin 1) k)
        (fun k => at2 (V c main_v6) (0 : Fin 1) k) q

/-- The same as one array. -/
private abbrev res2 (c : Dev nD) : S50000x256.Idx → EReal := fun i => entry2 V c (i 0) (i 1)

/-- What point `t` writes back is block `t` of that array. -/
private theorem flushed2_6_eq (c : Dev nD) (t : Fin cfg2.N) :
    (dat2 (F := Ideal) V c).flushed 6 t = ((cfg2.win 6).blk t).view.read (Elt Ideal) (res2 V c) := by
  show (cfg2.win 6).cut (grid2.coords t) ((dat2 (F := Ideal) V c).after 6 t) = _
  rw [after2_6]
  refine funext fun (j : S2000x256.Idx) => ?_
  obtain ⟨r, q, rfl⟩ : ∃ (r : Fin 2000) (q : Fin 256), j = ix2 r q := ⟨j 0, j 1, eq_ix2 j⟩
  have ht : t.val < 25 := by have h := t.isLt; have hN : cfg2.N = 25 := N_2; omega
  have hr : r.val < 2000 := r.isLt
  obtain ⟨P, hP⟩ : ∃ P : Fin 50000, P.val = 2000 * t.val + r.val := ⟨⟨2000 * t.val + r.val, by omega⟩, rfl⟩
  show out2_6 (F := Ideal) (iblk2 V c 0 t) (iblk2 V c 1 t) (iblk2 V c 2 t) (iblk2 V c 3 t) (iblk2 V c 4 t) (iblk2 V c 5 t) (ix2 r q)
    = res2 V c (((cfg2.win 6).blk t).view.emb (ix2 r q))
  have hemb : ((cfg2.win 6).blk t).view.emb (ix2 r q) = ix2 P q := by
    obtain ⟨e0, e1⟩ := idx2_6 t
    funext a
    apply Fin.ext
    match a with
    | ⟨0, _⟩ => show win2_6.index t (0 : Fin 2) * 2000 + 1 * r.val = P.val; rw [e0, hP]; omega
    | ⟨1, _⟩ => show win2_6.index t (1 : Fin 2) * 256 + 1 * q.val = q.val; rw [e1]; omega
  rw [hemb]
  refine (out2_6_at _ _ _ _ _ _ r q).trans ?_
  show _ = entry2 V c P q
  rw [rowOf_eq _ _ _ r _ _ _ (fun k => iblk2_1_at V c t r k P hP) (fun k => iblk2_2_at V c t r k P hP)
    (fun k => iblk2_3_at V c t r k P hP)]
  simp only [iblk2_0_at V c t r _ P hP, iblk2_4_at V c t, iblk2_5_at V c t]

/-- An index of the array is in point `t`'s block iff each coordinate is in the block's range on its axis. -/
private theorem mem_blk2_6 (t : Fin cfg2.N) (i : S50000x256.Idx) :
    i ∈ ((cfg2.win 6).blk t).view.set
      ↔ ∀ a : Fin 2, win2_6.index t a * S2000x256.size a ≤ (i a).val
          ∧ (i a).val < win2_6.index t a * S2000x256.size a + S2000x256.size a := by
  show i ∈ ((View.whole main_v18).slice (win2_6.rect t)).set ↔ _
  rw [View.set_slice_whole, Rect.mem_set_unit]
  exact Iff.rfl

/-- The blocks cover the array: row p lies in the block of point p / 2000. -/
private theorem covered2_6 (i : S50000x256.Idx) :
    ∃ t : Fin cfg2.N, (cfg2.win 6).flush t = true ∧ i ∈ ((cfg2.win 6).blk t).view.set := by
  have hi0 : (i 0).val < 50000 := (i 0).isLt
  have hi1 : (i 1).val < 256 := (i 1).isLt
  have hN : cfg2.N = 25 := N_2
  obtain ⟨t, ht⟩ : ∃ t : Fin cfg2.N, t.val = (i 0).val / 2000 := ⟨⟨(i 0).val / 2000, by omega⟩, rfl⟩
  obtain ⟨e0, e1⟩ := idx2_6 t
  refine ⟨t, flush2_6 t, ?_⟩
  rw [mem_blk2_6]
  intro a
  match a with
  | ⟨0, _⟩ =>
    show win2_6.index t (0 : Fin 2) * 2000 ≤ (i 0).val ∧ (i 0).val < win2_6.index t (0 : Fin 2) * 2000 + 2000
    rw [e0, ht]; omega
  | ⟨1, _⟩ =>
    show win2_6.index t (1 : Fin 2) * 256 ≤ (i 1).val ∧ (i 1).val < win2_6.index t (1 : Fin 2) * 256 + 256
    rw [e1]; omega

/-- The array after the region, whole. -/
private theorem final2_6 (c : Dev nD) : (dat2 (F := Ideal) V c).arrAt 6 cfg2.N = res2 V c :=
  (dat2 (F := Ideal) V c).arrAt_eq_of_cover 6 (res2 V c) (fun t _ => flushed2_6_eq V c t) covered2_6

/-- Region 2, its one output window: entry (p, q) of the array after the region. The row fed to the
    normalisation is the second affine map's row plus the summed messages over the summed gates plus ε. -/
theorem arr2_6_apply (c : Dev nD) (p : Fin 50000) (q : Fin 256) :
    at2 ((dat2 (F := Ideal) V c).arrAt 6 cfg2.N) p q
      = at2 (V c main_arg0) p q
        + normMul (fun k => at2 (V c main_v7_2) p k + Ideal.div (at2 (V c main_v14) p k) (at2 (V c main_v17) p k + eps))
            (fun k => at2 (V c main_v5) (0 : Fin 1) k)
            (fun k => at2 (V c main_v6) (0 : Fin 1) k) q := by
  show (dat2 (F := Ideal) V c).arrAt 6 cfg2.N (ix2 p q) = _
  rw [final2_6 V c]

end Cert.KernelIdeal.Hand

end
-- ==== Proof.FoldA.lean ====
/-
  What the first tiled call finds in its buffers — the argument arrays as launched, and the five vectors (three
  shifts, two gate vectors) recast as one-row arrays, read at (0, q) — and which buffer holds each call's output
  arrays once the call has run.
-/
import proofs.«415271_j5102421148357_1_alg».proof.Proof.Gen.KernelIdeal.Frame
import proofs.«415271_j5102421148357_1_alg».proof.Proof.TakeDef
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.Spec

variable {F : FTy → Type} [FloatOps F]
variable (m : (ℓ : Loc nD τ sig) → Buf (Elt F) ℓ) (ρ : Dev nD → PrngReg)

/-! ## The first stretch: seven vectors made rows, nothing else written -/

/-- A vector of length `b` viewed as a `1 × b` row reads its own entry. -/
private theorem shapeCast_row_apply {b : ℕ} {α : Type} (v : (⟨1, ![b]⟩ : Shape).Idx → α)
    (h : (⟨1, ![b]⟩ : Shape).ShapeCasts ⟨2, ![1, b]⟩) (z : Fin 1) (q : Fin b) :
    shapeCast ⟨2, ![1, b]⟩ v h (ix2 z q) = v (ix1 q) := by
  -- the row index (z, q) and the vector index q sit at the same row-major position, since z = 0
  refine shapeCast_apply v h (ix2 z q) (ix1 q) ?_
  rw [Shape.rowMajor_val_one, Shape.rowMajor_val_two]
  show q.val = z.val * b + q.val
  have hz : z.val = 0 := Nat.lt_one_iff.mp z.isLt
  simp only [hz, Nat.zero_mul, Nat.zero_add]

/-- A buffer the first stretch does not write holds after it what it held before. -/
private theorem after0_of_ne (X : Valuation τ sig (Elt F)) (b : Ref sig .tc)
    (h0 : b ≠ main_v0) (h1 : b ≠ main_v1) (h2 : b ≠ main_v2) (h3 : b ≠ main_v3) (h4 : b ≠ main_v4)
    (h5 : b ≠ main_v5) (h6 : b ≠ main_v6) :
    StableHlo.after hostOps0 X (Proc.devRef .tc b) = X (Proc.devRef .tc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1, StableHlo.devRef_ne_of_ne h2,
      StableHlo.devRef_ne_of_ne h3, StableHlo.devRef_ne_of_ne h4, StableHlo.devRef_ne_of_ne h5,
      StableHlo.devRef_ne_of_ne h6⟩))

/-- After the first stretch the first row buffer is its source vector recast. -/
private theorem after0_v0 (X : Valuation τ sig (Elt F)) :
    StableHlo.after hostOps0 X (Proc.devRef .tc main_v0)
      = fun i => shapeCast S1x256 (X (Proc.devRef .tc main_arg4)) shapeCasts_S256_S1x256 i := by
  after_results
  rfl

/-- After the first stretch the second row buffer is its source vector recast. -/
private theorem after0_v1 (X : Valuation τ sig (Elt F)) :
    StableHlo.after hostOps0 X (Proc.devRef .tc main_v1)
      = fun i => shapeCast S1x256 (X (Proc.devRef .tc main_arg6)) shapeCasts_S256_S1x256 i := by
  after_results
  rfl

/-- After the first stretch the third row buffer is its source vector recast. -/
private theorem after0_v2 (X : Valuation τ sig (Elt F)) :
    StableHlo.after hostOps0 X (Proc.devRef .tc main_v2)
      = fun i => shapeCast S1x256 (X (Proc.devRef .tc main_arg8)) shapeCasts_S256_S1x256 i := by
  after_results
  rfl

/-- After the first stretch the fourth row buffer is its source vector recast. -/
private theorem after0_v3 (X : Valuation τ sig (Elt F)) :
    StableHlo.after hostOps0 X (Proc.devRef .tc main_v3)
      = fun i => shapeCast S1x256 (X (Proc.devRef .tc main_arg9)) shapeCasts_S256_S1x256 i := by
  after_results
  rfl

/-- After the first stretch the fifth row buffer is its source vector recast. -/
private theorem after0_v4 (X : Valuation τ sig (Elt F)) :
    StableHlo.after hostOps0 X (Proc.devRef .tc main_v4)
      = fun i => shapeCast S1x256 (X (Proc.devRef .tc main_arg10)) shapeCasts_S256_S1x256 i := by
  after_results
  rfl

/-! ## What region 0 finds: the arguments as launched, the seven vectors made rows -/

theorem V1_arg0 (c : Dev nD) : V1 m ρ c main_arg0 = m ((c : Thread nD τ).loc main_arg0) :=
  after0_of_ne (W0 m ρ c) main_arg0 (by decide) (by decide) (by decide) (by decide) (by decide) (by decide) (by decide)
theorem V1_arg3 (c : Dev nD) : V1 m ρ c main_arg3 = m ((c : Thread nD τ).loc main_arg3) :=
  after0_of_ne (W0 m ρ c) main_arg3 (by decide) (by decide) (by decide) (by decide) (by decide) (by decide) (by decide)
theorem V1_arg5 (c : Dev nD) : V1 m ρ c main_arg5 = m ((c : Thread nD τ).loc main_arg5) :=
  after0_of_ne (W0 m ρ c) main_arg5 (by decide) (by decide) (by decide) (by decide) (by decide) (by decide) (by decide)
theorem V1_arg7 (c : Dev nD) : V1 m ρ c main_arg7 = m ((c : Thread nD τ).loc main_arg7) :=
  after0_of_ne (W0 m ρ c) main_arg7 (by decide) (by decide) (by decide) (by decide) (by decide) (by decide) (by decide)
/-- The first bias as a row: entry (0, q) is the vector's entry q. -/
theorem V1_v0_apply (c : Dev nD) (q : Fin 256) :
    (V1 m ρ c main_v0 : S1x256.Idx → F .f32) (ix2 (0 : Fin 1) q) = (m ((c : Thread nD τ).loc main_arg4) : S256.Idx → F .f32) (ix1 q) := by
  exact (congrFun (after0_v0 (W0 m ρ c)) (ix2 (0 : Fin 1) q)).trans
    (shapeCast_row_apply (W0 m ρ c (Proc.devRef .tc main_arg4)) shapeCasts_S256_S1x256 0 q)
theorem V1_v1_apply (c : Dev nD) (q : Fin 256) :
    (V1 m ρ c main_v1 : S1x256.Idx → F .f32) (ix2 (0 : Fin 1) q) = (m ((c : Thread nD τ).loc main_arg6) : S256.Idx → F .f32) (ix1 q) := by
  exact (congrFun (after0_v1 (W0 m ρ c)) (ix2 (0 : Fin 1) q)).trans
    (shapeCast_row_apply (W0 m ρ c (Proc.devRef .tc main_arg6)) shapeCasts_S256_S1x256 0 q)
theorem V1_v2_apply (c : Dev nD) (q : Fin 256) :
    (V1 m ρ c main_v2 : S1x256.Idx → F .f32) (ix2 (0 : Fin 1) q) = (m ((c : Thread nD τ).loc main_arg8) : S256.Idx → F .f32) (ix1 q) := by
  exact (congrFun (after0_v2 (W0 m ρ c)) (ix2 (0 : Fin 1) q)).trans
    (shapeCast_row_apply (W0 m ρ c (Proc.devRef .tc main_arg8)) shapeCasts_S256_S1x256 0 q)
theorem V1_v3_apply (c : Dev nD) (q : Fin 256) :
    (V1 m ρ c main_v3 : S1x256.Idx → F .f32) (ix2 (0 : Fin 1) q) = (m ((c : Thread nD τ).loc main_arg9) : S256.Idx → F .f32) (ix1 q) := by
  exact (congrFun (after0_v3 (W0 m ρ c)) (ix2 (0 : Fin 1) q)).trans
    (shapeCast_row_apply (W0 m ρ c (Proc.devRef .tc main_arg9)) shapeCasts_S256_S1x256 0 q)
theorem V1_v4_apply (c : Dev nD) (q : Fin 256) :
    (V1 m ρ c main_v4 : S1x256.Idx → F .f32) (ix2 (0 : Fin 1) q) = (m ((c : Thread nD τ).loc main_arg10) : S256.Idx → F .f32) (ix1 q) := by
  exact (congrFun (after0_v4 (W0 m ρ c)) (ix2 (0 : Fin 1) q)).trans
    (shapeCast_row_apply (W0 m ρ c (Proc.devRef .tc main_arg10)) shapeCasts_S256_S1x256 0 q)

/-! ## Where each region's output arrays stand after it -/

theorem W2_v7_0 (c : Dev nD) : W2 m ρ c (Proc.devRef .tc main_v7_0) = (dat0 (V1 m ρ) c).arrAt 9 cfg0.N :=
  W2_arr m ρ c 9
theorem W2_v7_1 (c : Dev nD) : W2 m ρ c (Proc.devRef .tc main_v7_1) = (dat0 (V1 m ρ) c).arrAt 10 cfg0.N :=
  W2_arr m ρ c 10
theorem W2_v7_2 (c : Dev nD) : W2 m ρ c (Proc.devRef .tc main_v7_2) = (dat0 (V1 m ρ) c).arrAt 11 cfg0.N :=
  W2_arr m ρ c 11
theorem W2_v7_3 (c : Dev nD) : W2 m ρ c (Proc.devRef .tc main_v7_3) = (dat0 (V1 m ρ) c).arrAt 12 cfg0.N :=
  W2_arr m ρ c 12
theorem W6_v11_0 (c : Dev nD) : W6 m ρ c (Proc.devRef .tc main_v11_0) = (dat1 (V5 m ρ) c).arrAt 3 cfg1.N :=
  W6_arr m ρ c 3
theorem W6_v11_1 (c : Dev nD) : W6 m ρ c (Proc.devRef .tc main_v11_1) = (dat1 (V5 m ρ) c).arrAt 4 cfg1.N :=
  W6_arr m ρ c 4
theorem W8_v18 (c : Dev nD) : W8 m ρ c (Proc.devRef .tc main_v18) = (dat2 (V7 m ρ) c).arrAt 6 cfg2.N :=
  W8_arr m ρ c 6

end Cert.KernelIdeal.Hand

end
-- ==== Proof.FoldB.lean ====
/-
  What the second tiled call finds: three arrays of rows taken from the first call's outputs — the gated source
  scores and the third affine map at the source indices, the gated destination scores at the destination indices —
  each the one function `takeRows` of the array taken from and the launch index vector.
-/
import proofs.«415271_j5102421148357_1_alg».proof.Proof.Gen.KernelIdeal.Frame
import proofs.«415271_j5102421148357_1_alg».proof.Proof.TakeDef
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.Spec

variable {F : FTy → Type} [FloatOps F]
variable (m : (ℓ : Loc nD τ sig) → Buf (Elt F) ℓ) (ρ : Dev nD → PrngReg)

/-! ## Typed references: contents carried to the buffer's own type and back -/

/-- Contents carried to a typed reference's buffer and back are the contents. -/
private theorem ofBuf_toBuf {T : BufTy} (x : StableHlo.TRef sig T) (v : T.Contents (Elt F)) :
    x.ofBuf (x.toBuf v) = v := by
  obtain ⟨r, h, h2, h3⟩ := x
  subst h
  rfl

/-! ## A buffer that no operation of a stretch writes keeps its contents -/

/-- For a literal stretch `ops` none of whose operations writes the literal buffer `b`, `after ops X b = X b`:
    each operation writes one buffer, and that buffer is another reference than `b`. -/
local macro "stretch_keeps" ops:ident : tactic => `(tactic| (
  refine StableHlo.after_of_forall_not_mem _ _ (List.forall_iff_forall_mem.mp ?_)
  simp only [$ops:ident, List.Forall, StableHlo.nullary_writes, StableHlo.unary_writes, StableHlo.binary_writes,
    StableHlo.ternary_writes, StableHlo.reshape_writes, Finset.mem_singleton]
  repeat' apply And.intro
  all_goals exact StableHlo.devRef_ne_of_ne (by decide)))

private theorem hostOps0_keeps_arg1 (X : Valuation τ sig (Elt F)) :
    StableHlo.after hostOps0 X (Proc.devRef .tc main_arg1) = X (Proc.devRef .tc main_arg1) := by
  stretch_keeps hostOps0
private theorem hostOps0_keeps_arg2 (X : Valuation τ sig (Elt F)) :
    StableHlo.after hostOps0 X (Proc.devRef .tc main_arg2) = X (Proc.devRef .tc main_arg2) := by
  stretch_keeps hostOps0

private theorem hostOps1_keeps_arg1 (X : Valuation τ sig (Elt F)) :
    StableHlo.after hostOps1 X (Proc.devRef .tc main_arg1) = X (Proc.devRef .tc main_arg1) := by
  stretch_keeps hostOps1
private theorem hostOps1_keeps_arg2 (X : Valuation τ sig (Elt F)) :
    StableHlo.after hostOps1 X (Proc.devRef .tc main_arg2) = X (Proc.devRef .tc main_arg2) := by
  stretch_keeps hostOps1
private theorem hostOps1_keeps_v7_1 (X : Valuation τ sig (Elt F)) :
    StableHlo.after hostOps1 X (Proc.devRef .tc main_v7_1) = X (Proc.devRef .tc main_v7_1) := by
  stretch_keeps hostOps1
private theorem hostOps1_keeps_v7_3 (X : Valuation τ sig (Elt F)) :
    StableHlo.after hostOps1 X (Proc.devRef .tc main_v7_3) = X (Proc.devRef .tc main_v7_3) := by
  stretch_keeps hostOps1

private theorem hostOps1_1_keeps_arg1 (X : Valuation τ sig (Elt F)) :
    StableHlo.after hostOps1_1 X (Proc.devRef .tc main_arg1) = X (Proc.devRef .tc main_arg1) := by
  stretch_keeps hostOps1_1
private theorem hostOps1_1_keeps_v7_3 (X : Valuation τ sig (Elt F)) :
    StableHlo.after hostOps1_1 X (Proc.devRef .tc main_v7_3) = X (Proc.devRef .tc main_v7_3) := by
  stretch_keeps hostOps1_1
private theorem hostOps1_1_keeps_v8 (X : Valuation τ sig (Elt F)) :
    StableHlo.after hostOps1_1 X (Proc.devRef .tc main_v8) = X (Proc.devRef .tc main_v8) := by
  stretch_keeps hostOps1_1

private theorem hostOps1_2_keeps_v8 (X : Valuation τ sig (Elt F)) :
    StableHlo.after hostOps1_2 X (Proc.devRef .tc main_v8) = X (Proc.devRef .tc main_v8) := by
  stretch_keeps hostOps1_2
private theorem hostOps1_2_keeps_v9 (X : Valuation τ sig (Elt F)) :
    StableHlo.after hostOps1_2 X (Proc.devRef .tc main_v9) = X (Proc.devRef .tc main_v9) := by
  stretch_keeps hostOps1_2

/-! ## What each of the three stretches of taken rows writes, from any contents before it

Each stretch is the same twenty-three operations at its own buffers: the composition `takeRows` names, applied to the
contents of the array taken from and of the index vector before the stretch. -/

/-- The first stretch: rows of `main_v7_0` at the indices `main_arg1`, left in `main_v8`. -/
private theorem after_hostOps1_v8 (X : Valuation τ sig (Elt F)) :
    StableHlo.after hostOps1 X (Proc.devRef .tc main_v8)
      = takeRows (X (Proc.devRef .tc main_v7_0)) (X (Proc.devRef .tc main_arg1)) := by
  have e1 : ∀ h1 h2 h3, (StableHlo.TRef.of (T := ⟨S800000, .i32⟩) main_arg1 h1 h2 h3).ofBuf (X (Proc.devRef .tc main_arg1))
      = X (Proc.devRef .tc main_arg1) := fun _ _ _ => rfl
  have e2 : ∀ h1 h2 h3, (StableHlo.TRef.of (T := ⟨S50000x256, .f32⟩) main_v7_0 h1 h2 h3).ofBuf (X (Proc.devRef .tc main_v7_0))
      = X (Proc.devRef .tc main_v7_0) := fun _ _ _ => rfl
  have e3 : ∀ h1 h2 h3 (v : (⟨S800000x256, .f32⟩ : BufTy).Contents (Elt F)),
      (StableHlo.TRef.of (T := ⟨S800000x256, .f32⟩) main_v8 h1 h2 h3).toBuf v = v := fun _ _ _ _ => rfl
  after_results_simp
  simp only [ofBuf_toBuf]
  rw [e1, e2, e3]
  rfl

/-- The second stretch: rows of `main_v7_1` at the indices `main_arg2`, left in `main_v9`. -/
private theorem after_hostOps1_1_v9 (X : Valuation τ sig (Elt F)) :
    StableHlo.after hostOps1_1 X (Proc.devRef .tc main_v9)
      = takeRows (X (Proc.devRef .tc main_v7_1)) (X (Proc.devRef .tc main_arg2)) := by
  have e1 : ∀ h1 h2 h3, (StableHlo.TRef.of (T := ⟨S800000, .i32⟩) main_arg2 h1 h2 h3).ofBuf (X (Proc.devRef .tc main_arg2))
      = X (Proc.devRef .tc main_arg2) := fun _ _ _ => rfl
  have e2 : ∀ h1 h2 h3, (StableHlo.TRef.of (T := ⟨S50000x256, .f32⟩) main_v7_1 h1 h2 h3).ofBuf (X (Proc.devRef .tc main_v7_1))
      = X (Proc.devRef .tc main_v7_1) := fun _ _ _ => rfl
  have e3 : ∀ h1 h2 h3 (v : (⟨S800000x256, .f32⟩ : BufTy).Contents (Elt F)),
      (StableHlo.TRef.of (T := ⟨S800000x256, .f32⟩) main_v9 h1 h2 h3).toBuf v = v := fun _ _ _ _ => rfl
  after_results_simp
  simp only [ofBuf_toBuf]
  rw [e1, e2, e3]
  rfl

/-- The third stretch: rows of `main_v7_3` at the indices `main_arg1`, left in `main_v10`. -/
private theorem after_hostOps1_2_v10 (X : Valuation τ sig (Elt F)) :
    StableHlo.after hostOps1_2 X (Proc.devRef .tc main_v10)
      = takeRows (X (Proc.devRef .tc main_v7_3)) (X (Proc.devRef .tc main_arg1)) := by
  have e1 : ∀ h1 h2 h3, (StableHlo.TRef.of (T := ⟨S800000, .i32⟩) main_arg1 h1 h2 h3).ofBuf (X (Proc.devRef .tc main_arg1))
      = X (Proc.devRef .tc main_arg1) := fun _ _ _ => rfl
  have e2 : ∀ h1 h2 h3, (StableHlo.TRef.of (T := ⟨S50000x256, .f32⟩) main_v7_3 h1 h2 h3).ofBuf (X (Proc.devRef .tc main_v7_3))
      = X (Proc.devRef .tc main_v7_3) := fun _ _ _ => rfl
  have e3 : ∀ h1 h2 h3 (v : (⟨S800000x256, .f32⟩ : BufTy).Contents (Elt F)),
      (StableHlo.TRef.of (T := ⟨S800000x256, .f32⟩) main_v10 h1 h2 h3).toBuf v = v := fun _ _ _ _ => rfl
  after_results_simp
  simp only [ofBuf_toBuf]
  rw [e1, e2, e3]
  rfl

/-! ## The two index vectors at region 0's exit are the launch's

Neither is an array of region 0, and the reshapes before it write neither. -/

private theorem W2_arg1 (c : Dev nD) :
    W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := hostOps0_keeps_arg1 _
    _ = m ((c : Thread nD τ).loc main_arg1) := rfl

private theorem W2_arg2 (c : Dev nD) :
    W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := hostOps0_keeps_arg2 _
    _ = m ((c : Thread nD τ).loc main_arg2) := rfl

/-! ## What region 1 finds: the three arrays of taken rows -/

/-- The gated source scores, taken at the source indices. -/
theorem V5_v8 (c : Dev nD) :
    V5 m ρ c main_v8 = takeRows (W2 m ρ c (Proc.devRef .tc main_v7_0)) (m ((c : Thread nD τ).loc main_arg1)) :=
  calc V5 m ρ c main_v8
    _ = W4 m ρ c (Proc.devRef .tc main_v8) := hostOps1_2_keeps_v8 _
    _ = W3 m ρ c (Proc.devRef .tc main_v8) := hostOps1_1_keeps_v8 _
    _ = takeRows (W2 m ρ c (Proc.devRef .tc main_v7_0)) (W2 m ρ c (Proc.devRef .tc main_arg1)) := after_hostOps1_v8 _
    _ = takeRows (W2 m ρ c (Proc.devRef .tc main_v7_0)) (m ((c : Thread nD τ).loc main_arg1)) :=
          congrArg (takeRows _) (W2_arg1 m ρ c)
/-- The gated destination scores, taken at the destination indices. -/
theorem V5_v9 (c : Dev nD) :
    V5 m ρ c main_v9 = takeRows (W2 m ρ c (Proc.devRef .tc main_v7_1)) (m ((c : Thread nD τ).loc main_arg2)) :=
  calc V5 m ρ c main_v9
    _ = W4 m ρ c (Proc.devRef .tc main_v9) := hostOps1_2_keeps_v9 _
    _ = takeRows (W3 m ρ c (Proc.devRef .tc main_v7_1)) (W3 m ρ c (Proc.devRef .tc main_arg2)) := after_hostOps1_1_v9 _
    _ = takeRows (W2 m ρ c (Proc.devRef .tc main_v7_1)) (W2 m ρ c (Proc.devRef .tc main_arg2)) :=
          congrArg₂ takeRows (hostOps1_keeps_v7_1 _) (hostOps1_keeps_arg2 _)
    _ = takeRows (W2 m ρ c (Proc.devRef .tc main_v7_1)) (m ((c : Thread nD τ).loc main_arg2)) :=
          congrArg (takeRows _) (W2_arg2 m ρ c)
/-- The third affine map's rows, taken at the source indices. -/
theorem V5_v10 (c : Dev nD) :
    V5 m ρ c main_v10 = takeRows (W2 m ρ c (Proc.devRef .tc main_v7_3)) (m ((c : Thread nD τ).loc main_arg1)) :=
  calc V5 m ρ c main_v10
    _ = takeRows (W4 m ρ c (Proc.devRef .tc main_v7_3)) (W4 m ρ c (Proc.devRef .tc main_arg1)) := after_hostOps1_2_v10 _
    _ = takeRows (W3 m ρ c (Proc.devRef .tc main_v7_3)) (W3 m ρ c (Proc.devRef .tc main_arg1)) :=
          congrArg₂ takeRows (hostOps1_1_keeps_v7_3 _) (hostOps1_1_keeps_arg1 _)
    _ = takeRows (W2 m ρ c (Proc.devRef .tc main_v7_3)) (W2 m ρ c (Proc.devRef .tc main_arg1)) :=
          congrArg₂ takeRows (hostOps1_keeps_v7_3 _) (hostOps1_keeps_arg1 _)
    _ = takeRows (W2 m ρ c (Proc.devRef .tc main_v7_3)) (m ((c : Thread nD τ).loc main_arg1)) :=
          congrArg (takeRows _) (W2_arg1 m ρ c)

end Cert.KernelIdeal.Hand

end
-- ==== Proof.FoldC.lean ====
/-
  What the third tiled call finds: the node array as launched, the second affine map as the first call left it, the
  summed messages and summed gates (each a scatter-add, at the destination indices, of one of the second call's
  outputs into zeros), and the scale and shift vectors recast as one-row arrays, read at (0, q).
-/
import proofs.«415271_j5102421148357_1_alg».proof.Proof.Gen.KernelIdeal.Frame
import proofs.«415271_j5102421148357_1_alg».proof.Proof.TakeDef
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.Spec

variable {F : FTy → Type} [FloatOps F]
variable (m : (ℓ : Loc nD τ sig) → Buf (Elt F) ℓ) (ρ : Dev nD → PrngReg)

/-! ## Stretches that leave a buffer alone

A buffer that no operation of a stretch writes holds after the stretch what it held before, whatever the
contents the stretch starts from. -/

/-- Closes `after ops X b = X b` for a stretch `ops`, a literal list, none of whose operations writes `b`. -/
local macro "unwritten " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

section Keep
variable (X : Valuation τ sig (Elt F))

private theorem ops2_keep_arg2 :
    StableHlo.after hostOps2 X (Proc.devRef .tc main_arg2) = X (Proc.devRef .tc main_arg2) := by
  unwritten hostOps2
private theorem ops2_keep_v7_2 :
    StableHlo.after hostOps2 X (Proc.devRef .tc main_v7_2) = X (Proc.devRef .tc main_v7_2) := by
  unwritten hostOps2
private theorem ops2_keep_v5 :
    StableHlo.after hostOps2 X (Proc.devRef .tc main_v5) = X (Proc.devRef .tc main_v5) := by
  unwritten hostOps2
private theorem ops2_keep_v6 :
    StableHlo.after hostOps2 X (Proc.devRef .tc main_v6) = X (Proc.devRef .tc main_v6) := by
  unwritten hostOps2

private theorem ops1_keep_v7_2 :
    StableHlo.after hostOps1 X (Proc.devRef .tc main_v7_2) = X (Proc.devRef .tc main_v7_2) := by
  unwritten hostOps1
private theorem ops1_1_keep_v7_2 :
    StableHlo.after hostOps1_1 X (Proc.devRef .tc main_v7_2) = X (Proc.devRef .tc main_v7_2) := by
  unwritten hostOps1_1
private theorem ops1_2_keep_v7_2 :
    StableHlo.after hostOps1_2 X (Proc.devRef .tc main_v7_2) = X (Proc.devRef .tc main_v7_2) := by
  unwritten hostOps1_2

private theorem ops1_keep_v5 :
    StableHlo.after hostOps1 X (Proc.devRef .tc main_v5) = X (Proc.devRef .tc main_v5) := by
  unwritten hostOps1
private theorem ops1_1_keep_v5 :
    StableHlo.after hostOps1_1 X (Proc.devRef .tc main_v5) = X (Proc.devRef .tc main_v5) := by
  unwritten hostOps1_1
private theorem ops1_2_keep_v5 :
    StableHlo.after hostOps1_2 X (Proc.devRef .tc main_v5) = X (Proc.devRef .tc main_v5) := by
  unwritten hostOps1_2

private theorem ops1_keep_v6 :
    StableHlo.after hostOps1 X (Proc.devRef .tc main_v6) = X (Proc.devRef .tc main_v6) := by
  unwritten hostOps1
private theorem ops1_1_keep_v6 :
    StableHlo.after hostOps1_1 X (Proc.devRef .tc main_v6) = X (Proc.devRef .tc main_v6) := by
  unwritten hostOps1_1
private theorem ops1_2_keep_v6 :
    StableHlo.after hostOps1_2 X (Proc.devRef .tc main_v6) = X (Proc.devRef .tc main_v6) := by
  unwritten hostOps1_2

/-! ## Stretches that write a buffer: the operations' functions on the contents before the stretch -/

/-- The first scatter-add of the last stretch: zeros, the index column made of `main_arg2`, the updates
    `main_v11_1`. -/
private theorem ops2_v14 :
    StableHlo.after hostOps2 X (Proc.devRef .tc main_v14)
      = Host.scatterAdd scatter_S50000x256_S800000x1_S800000x256_1_0_0_1
          (broadcastInDim S50000x256 ![] bcast_S_S50000x256 (constant S_ .f32 0x00000000#32))
          (broadcastInDim S800000x1 ![0] bcast_S800000_S800000x1_0 (X (Proc.devRef .tc main_arg2)))
          (X (Proc.devRef .tc main_v11_1)) := by
  after_results
/-- The second scatter-add: the same of the updates `main_v11_0`. -/
private theorem ops2_v17 :
    StableHlo.after hostOps2 X (Proc.devRef .tc main_v17)
      = Host.scatterAdd scatter_S50000x256_S800000x1_S800000x256_1_0_0_1
          (broadcastInDim S50000x256 ![] bcast_S_S50000x256 (constant S_ .f32 0x00000000#32))
          (broadcastInDim S800000x1 ![0] bcast_S800000_S800000x1_0 (X (Proc.devRef .tc main_arg2)))
          (X (Proc.devRef .tc main_v11_0)) := by
  after_results
/-- The first stretch views the vector `main_arg11` as a row. -/
private theorem ops0_v5 :
    StableHlo.after hostOps0 X (Proc.devRef .tc main_v5)
      = fun i => shapeCast S1x256 (X (Proc.devRef .tc main_arg11)) shapeCasts_S256_S1x256 i := by
  after_results; rfl
/-- The first stretch views the vector `main_arg12` as a row. -/
private theorem ops0_v6 :
    StableHlo.after hostOps0 X (Proc.devRef .tc main_v6)
      = fun i => shapeCast S1x256 (X (Proc.devRef .tc main_arg12)) shapeCasts_S256_S1x256 i := by
  after_results; rfl

end Keep

/-- A vector of 256 entries viewed as a row reads, at column `q`, its entry `q`: both indices have row-major
    position `q` (on the row side `0 * 256 + q`). -/
private theorem shapeCast_row_apply {α : Type} (v : S256.Idx → α) (q : Fin 256) :
    shapeCast S1x256 v shapeCasts_S256_S1x256 (ix2 (0 : Fin 1) q) = v (ix1 q) :=
  shapeCast_apply v shapeCasts_S256_S1x256 _ _ (by
    rw [Shape.rowMajor_val_one, Shape.rowMajor_val_two]
    show q.val = (0 : Fin 1).val * 256 + q.val
    show q.val = 0 * 256 + q.val
    omega)

/-! ## What region 1 finds and leaves of the buffers it does not own -/

/-- The destination indices are never written: at region 1's exit they are as launched. -/
private theorem W6_arg2 (c : Dev nD) :
    W6 m ρ c (Proc.devRef .tc main_arg2) = m ((c : Thread nD τ).loc main_arg2) :=
  calc W6 m ρ c (Proc.devRef .tc main_arg2)
    _ = W7 m ρ c (Proc.devRef .tc main_arg2) := (ops2_keep_arg2 (W6 m ρ c)).symm
    _ = W8 m ρ c (Proc.devRef .tc main_arg2) := (W8_of_ne m ρ c main_arg2 (by decide)).symm
    _ = m ((c : Thread nD τ).loc main_arg2) := W8_main_arg2 m ρ c

/-- The three row-gathers write neither `main_v7_2`, nor `main_v5`, nor `main_v6`. -/
private theorem W5_v7_2 (c : Dev nD) :
    W5 m ρ c (Proc.devRef .tc main_v7_2) = W2 m ρ c (Proc.devRef .tc main_v7_2) :=
  (ops1_2_keep_v7_2 (W4 m ρ c)).trans ((ops1_1_keep_v7_2 (W3 m ρ c)).trans (ops1_keep_v7_2 (W2 m ρ c)))
private theorem W5_v5 (c : Dev nD) :
    W5 m ρ c (Proc.devRef .tc main_v5) = W2 m ρ c (Proc.devRef .tc main_v5) :=
  (ops1_2_keep_v5 (W4 m ρ c)).trans ((ops1_1_keep_v5 (W3 m ρ c)).trans (ops1_keep_v5 (W2 m ρ c)))
private theorem W5_v6 (c : Dev nD) :
    W5 m ρ c (Proc.devRef .tc main_v6) = W2 m ρ c (Proc.devRef .tc main_v6) :=
  (ops1_2_keep_v6 (W4 m ρ c)).trans ((ops1_1_keep_v6 (W3 m ρ c)).trans (ops1_keep_v6 (W2 m ρ c)))

/-- The scale row at region 2's entry is the first stretch's view of the launched vector. -/
private theorem V7_v5 (c : Dev nD) :
    W7 m ρ c (Proc.devRef .tc main_v5)
      = fun i => shapeCast S1x256 (m ((c : Thread nD τ).loc main_arg11)) shapeCasts_S256_S1x256 i :=
  calc W7 m ρ c (Proc.devRef .tc main_v5)
    _ = W6 m ρ c (Proc.devRef .tc main_v5) := ops2_keep_v5 (W6 m ρ c)
    _ = W5 m ρ c (Proc.devRef .tc main_v5) := W6_of_ne m ρ c main_v5 (by decide)
    _ = W2 m ρ c (Proc.devRef .tc main_v5) := W5_v5 m ρ c
    _ = W1 m ρ c (Proc.devRef .tc main_v5) := W2_of_ne m ρ c main_v5 (by decide)
    _ = _ := ops0_v5 (W0 m ρ c)
/-- The shift row likewise. -/
private theorem V7_v6 (c : Dev nD) :
    W7 m ρ c (Proc.devRef .tc main_v6)
      = fun i => shapeCast S1x256 (m ((c : Thread nD τ).loc main_arg12)) shapeCasts_S256_S1x256 i :=
  calc W7 m ρ c (Proc.devRef .tc main_v6)
    _ = W6 m ρ c (Proc.devRef .tc main_v6) := ops2_keep_v6 (W6 m ρ c)
    _ = W5 m ρ c (Proc.devRef .tc main_v6) := W6_of_ne m ρ c main_v6 (by decide)
    _ = W2 m ρ c (Proc.devRef .tc main_v6) := W5_v6 m ρ c
    _ = W1 m ρ c (Proc.devRef .tc main_v6) := W2_of_ne m ρ c main_v6 (by decide)
    _ = _ := ops0_v6 (W0 m ρ c)

/-! ## What region 2 finds -/

theorem V7_arg0 (c : Dev nD) : V7 m ρ c main_arg0 = m ((c : Thread nD τ).loc main_arg0) :=
  -- Region 2 reads this buffer through an input window, so its exit contents are its entry contents; and the
  -- exit contents walk back to the launch memory.
  ((W8_arr m ρ c 0).trans (((dat2 (V7 m ρ) c).arrAt_in 0 rfl _).trans (A_eq2 (V7 m ρ) c 0))).symm.trans
    (W8_main_arg0 m ρ c)
/-- The second affine map's array is still what region 0 left. -/
theorem V7_v7_2 (c : Dev nD) : V7 m ρ c main_v7_2 = W2 m ρ c (Proc.devRef .tc main_v7_2) :=
  calc W7 m ρ c (Proc.devRef .tc main_v7_2)
    _ = W6 m ρ c (Proc.devRef .tc main_v7_2) := ops2_keep_v7_2 (W6 m ρ c)
    _ = W5 m ρ c (Proc.devRef .tc main_v7_2) := W6_of_ne m ρ c main_v7_2 (by decide)
    _ = W2 m ρ c (Proc.devRef .tc main_v7_2) := W5_v7_2 m ρ c
/-- The summed messages: the scatter-add, at the destination indices, of region 1's second output into zeros. -/
theorem V7_v14 (c : Dev nD) :
    V7 m ρ c main_v14 = Host.scatterAdd scatter_S50000x256_S800000x1_S800000x256_1_0_0_1
      (broadcastInDim S50000x256 ![] bcast_S_S50000x256 (constant S_ .f32 0x00000000#32))
      (broadcastInDim S800000x1 ![0] bcast_S800000_S800000x1_0 (m ((c : Thread nD τ).loc main_arg2)))
      (W6 m ρ c (Proc.devRef .tc main_v11_1)) := by
  refine (ops2_v14 (W6 m ρ c)).trans ?_
  rw [W6_arg2 m ρ c]
/-- The summed gates: the same of region 1's first output. -/
theorem V7_v17 (c : Dev nD) :
    V7 m ρ c main_v17 = Host.scatterAdd scatter_S50000x256_S800000x1_S800000x256_1_0_0_1
      (broadcastInDim S50000x256 ![] bcast_S_S50000x256 (constant S_ .f32 0x00000000#32))
      (broadcastInDim S800000x1 ![0] bcast_S800000_S800000x1_0 (m ((c : Thread nD τ).loc main_arg2)))
      (W6 m ρ c (Proc.devRef .tc main_v11_0)) := by
  refine (ops2_v17 (W6 m ρ c)).trans ?_
  rw [W6_arg2 m ρ c]
/-- The scale as a row: entry (0, q) is the vector's entry q. -/
theorem V7_v5_apply (c : Dev nD) (q : Fin 256) :
    (V7 m ρ c main_v5 : S1x256.Idx → F .f32) (ix2 (0 : Fin 1) q) = (m ((c : Thread nD τ).loc main_arg11) : S256.Idx → F .f32) (ix1 q) :=
  (congrFun (V7_v5 m ρ c) (ix2 (0 : Fin 1) q)).trans (shapeCast_row_apply _ q)
/-- The shift as a row. -/
theorem V7_v6_apply (c : Dev nD) (q : Fin 256) :
    (V7 m ρ c main_v6 : S1x256.Idx → F .f32) (ix2 (0 : Fin 1) q) = (m ((c : Thread nD τ).loc main_arg12) : S256.Idx → F .f32) (ix1 q) :=
  (congrFun (V7_v6 m ρ c) (ix2 (0 : Fin 1) q)).trans (shapeCast_row_apply _ q)

end Cert.KernelIdeal.Hand

end
-- ==== Proof.LibRowScatter.lean ====
/-
  Rows scattered and gathered on the host, read at an index, at the ideal instance (floats are extended reals);
  and three facts about finite sums of extended reals and re-indexed sums.

  • A scatter-add of ROWS: operand [N, C], one index word per update row ([E, 1]), updates [E, C]. Element (n, f)
    of the result is the operand's plus the sum over the update rows e whose index word, read signed, is n, of
    update element (e, f).
    Likewise for a vector operand [N] and updates [E].
  • A gather of ROWS: operand [N, C] (or [N]), one index word per result row. Result element (e, f) is the operand's
    at the row the index word names, read signed and clamped into [0, N − 1].
  • A nonnegative real factor goes through a finite sum of extended reals; a three-level block sum is the flat sum;
    a sum over a + b terms splits.
-/
import Mathlib.Data.EReal.Operations
import Mathlib.Algebra.BigOperators.Fin
import Mathlib.Algebra.BigOperators.Group.Finset.Basic
import Mathlib.Logic.Equiv.Fin.Basic
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Idealize.ShloMosaic.RowScatter

open Idealize.ShloMosaic Idealize.ShloMosaic.ValueIdx

/-- The shape of an a × b matrix. -/
abbrev S2 (a b : ℕ) : Shape := ⟨2, ![a, b]⟩
/-- The shape of a vector of length a. -/
abbrev S1 (a : ℕ) : Shape := ⟨1, ![a]⟩

/-! ## Finite sums of extended reals -/

/-- Multiplication by a nonnegative REAL distributes over a finite sum of extended reals. (Multiplication of extended
    reals does not distribute over addition in general: ⊤ · (1 + (−1)) = 0 but ⊤ · 1 + ⊤ · (−1) = ⊥.) -/
theorem coe_nonneg_mul_sum {ι : Type*} (s : Finset ι) (r : ℝ) (hr : 0 ≤ r) (g : ι → EReal) :
    (r : EReal) * ∑ i ∈ s, g i = ∑ i ∈ s, (r : EReal) * g i := by
  classical
  refine Finset.induction_on s ?_ ?_
  · simp
  · intro a s ha ih
    rw [Finset.sum_insert ha, Finset.sum_insert ha,
      EReal.left_distrib_of_nonneg_of_ne_top (EReal.coe_nonneg.mpr hr) (EReal.coe_ne_top r), ih]

/-- A factor that is a nonnegative real goes through a sum of selected terms: if it takes each selected a e to b e, it
    takes 0 + Σ (selected a) to 0 + Σ (selected b). -/
theorem scale_through_sum {E : ℕ} (dn : EReal) (r : ℝ) (hr : 0 ≤ r) (hd : dn = (r : EReal)) (cond : Fin E → Prop)
    [DecidablePred cond] (a b : Fin E → EReal) (h : ∀ e, cond e → dn * a e = b e) :
    dn * (0 + ∑ e : Fin E, if cond e then a e else 0) = 0 + ∑ e : Fin E, if cond e then b e else 0 := by
  rw [zero_add, zero_add, hd, coe_nonneg_mul_sum _ r hr]
  refine Finset.sum_congr rfl fun e _ => ?_
  by_cases hc : cond e
  · rw [if_pos hc, if_pos hc, ← hd, h e hc]
  · rw [if_neg hc, if_neg hc, mul_zero]

/-! ## Re-indexed sums -/

section Reindex
variable {M : Type*} [AddCommMonoid M]

/-- A sum over A blocks of B sub-blocks of C terms, the term at position (B·c + s)·C + n, is the sum over the
    A·B·C positions. -/
theorem sum_blocks (A B C : ℕ) (g : ℕ → M) :
    ∑ c : Fin A, ∑ s : Fin B, ∑ n : Fin C, g ((B * c.val + s.val) * C + n.val) = ∑ N : Fin (A * B * C), g N.val := by
  rw [← Equiv.sum_comp (finProdFinEquiv (m := A * B) (n := C)) (fun N => g N.val), Fintype.sum_prod_type,
    ← Equiv.sum_comp (finProdFinEquiv (m := A) (n := B)), Fintype.sum_prod_type]
  refine Finset.sum_congr rfl fun c _ => Finset.sum_congr rfl fun s _ => Finset.sum_congr rfl fun n _ => ?_
  congr 1
  simp only [finProdFinEquiv_apply_val]
  ring

/-- A sum over a + b positions is the sum over the first a plus the sum over the last b. -/
theorem sum_split (a b : ℕ) (g : ℕ → M) :
    ∑ N : Fin (a + b), g N.val = ∑ N : Fin a, g N.val + ∑ N : Fin b, g (a + N.val) := by
  rw [Fin.sum_univ_add]
  simp only [Fin.val_castAdd, Fin.val_natAdd]

end Reindex

/-! ## A gather of rows, read at an index

On each operand axis the index read is the clamped start plus the batching coordinate plus the offset coordinate. Here
there are no batching axes; the row axis is collapsed (offset 0) and its start is the index word; the column axis has
start 0 and its offset is the result's column. -/

section Gather
variable {α : Type}

/-- A GATHER OF ROWS, read at (e, f): operand [N, C], one index word per result row, whole rows taken
    (slice sizes [1, C], the row axis collapsed). The result's (e, f) is the operand's at row idx[e, 0] — read signed
    and clamped into [0, N − 1] — and column f. -/
theorem gather_rows_apply {N E C : ℕ} (hN : 0 < N) (d : GatherDims (S2 N C) (S2 E 1) (S2 E C))
    (ho : d.offsetDims = [1]) (hc : d.collapsedSliceDims = [0]) (hob : d.operandBatchingDims = [])
    (hsb : d.startIndicesBatchingDims = []) (hm : d.startIndexMap = [0]) (hv : d.indexVectorDim = 1)
    (hsz : d.sliceSizes = ![1, C]) (x : (S2 N C).Idx → α) (idx : IVec (S2 E 1) 32) (e : Fin E) (f : Fin C) :
    Host.gather d x idx (ix2 e f) = x (ix2 ⟨min (idx (ix2 e 0)).toInt.toNat (N - 1), by omega⟩ f) := by
  obtain ⟨od, cd, ob, sb, sm, iv, ss, wf⟩ := d
  simp only at ho hc hob hsb hm hv hsz
  subst ho hc hob hsb hm hv hsz
  unfold Host.gather
  congr 1
  funext a
  refine Fin.ext ?_
  match a with
  | ⟨0, _⟩ =>
    show GatherDims.start _ (ix2 e f) idx 0 + GatherDims.batchCoord _ (ix2 e f) 0 + GatherDims.offCoord _ (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : ∀ c, GatherDims.siIdx (s := S2 N C) (si := S2 E 1) (t := S2 E C) ⟨[1], [0], [], [], [0], 1, ![1, C], wf⟩ (ix2 e f) c = ix2 e 0 := by
      intro c
      funext b; refine Fin.ext ?_
      match b with
      | ⟨0, _⟩ => rfl
      | ⟨1, _⟩ =>
        have hc1 : c.val < 1 := c.isLt
        show c.val = 0
        omega
    rw [hsi]
    rfl
  | ⟨1, _⟩ =>
    show GatherDims.start _ (ix2 e f) idx 1 + GatherDims.batchCoord _ (ix2 e f) 1 + GatherDims.offCoord _ (ix2 e f) 1 = _
    rw [GatherDims.batchCoord_eq_zero _ _ _ List.not_mem_nil]
    unfold GatherDims.start
    rw [dif_neg (show (1 : Fin 2) ∉ [(0 : Fin 2)] by decide)]
    unfold GatherDims.offCoord
    rw [dif_pos ((GatherDims.mem_sKept _ _).mpr ⟨show (1 : Fin 2) ∉ [(0 : Fin 2)] by decide, List.not_mem_nil⟩)]
    simp only [Nat.zero_add]
    rfl

/-- A GATHER OF ELEMENTS of a vector, read at e: operand [N], one index word per result element. The result's e is
    the operand's at idx[e, 0], read signed and clamped into [0, N − 1]. -/
theorem gather_elems_apply {N E : ℕ} (hN : 0 < N) (d : GatherDims (S1 N) (S2 E 1) (S1 E))
    (ho : d.offsetDims = []) (hc : d.collapsedSliceDims = [0]) (hob : d.operandBatchingDims = [])
    (hsb : d.startIndicesBatchingDims = []) (hm : d.startIndexMap = [0]) (hv : d.indexVectorDim = 1)
    (hsz : d.sliceSizes = ![1]) (x : (S1 N).Idx → α) (idx : IVec (S2 E 1) 32) (e : Fin E) :
    Host.gather d x idx (ix1 e) = x (ix1 ⟨min (idx (ix2 e 0)).toInt.toNat (N - 1), by omega⟩) := by
  obtain ⟨od, cd, ob, sb, sm, iv, ss, wf⟩ := d
  simp only at ho hc hob hsb hm hv hsz
  subst ho hc hob hsb hm hv hsz
  unfold Host.gather
  congr 1
  funext a
  refine Fin.ext ?_
  match a with
  | ⟨0, _⟩ =>
    show GatherDims.start _ (ix1 e) idx 0 + GatherDims.batchCoord _ (ix1 e) 0 + GatherDims.offCoord _ (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : ∀ c, GatherDims.siIdx (s := S1 N) (si := S2 E 1) (t := S1 E) ⟨[], [0], [], [], [0], 1, ![1], wf⟩ (ix1 e) c = ix2 e 0 := by
      intro c
      funext b; refine Fin.ext ?_
      match b with
      | ⟨0, _⟩ => rfl
      | ⟨1, _⟩ =>
        have hc1 : c.val < 1 := c.isLt
        show c.val = 0
        omega
    rw [hsi]
    rfl

end Gather

/-! ## A scatter-add of rows, read at an index

The result at an operand index is the operand's element plus the sum of the updates that land there. An update index
(e, f') has, on the row axis, start = the index word of row e read signed and window coordinate 0 (the axis is
inserted); on the column axis, start 0 and window coordinate f'. The sum over the updates landing on (n, f), written
over all (e, f') with an indicator, is a double sum whose inner sum over f' keeps the one term f' = f. -/

section Scatter

/-- An update index lands on operand index i exactly when, on every operand axis, the window's start (the index word
    read signed, or 0) plus the window coordinate is i's coordinate — as integers: a landing point outside the
    operand on some axis is no operand index, and the update is dropped. -/
theorem resultIdx?_eq_some_iff {s si u : Shape} (d : ScatterDims s si u) {w : ℕ} (j : u.Idx) (idx : IVec si w)
    (i : s.Idx) :
    d.resultIdx? j idx = some i ↔ ∀ a, d.start j idx a + (d.window j a : ℤ) = ((i a).val : ℤ) := by
  unfold ScatterDims.resultIdx?
  split
  · rename_i h
    rw [Option.some.injEq]
    constructor
    · intro he a
      have h1 := h a
      rw [← he]
      show _ = ((d.start j idx a + (d.window j a : ℤ)).toNat : ℤ)
      omega
    · intro he
      funext a
      refine Fin.ext ?_
      have h1 := h a
      have h2 := he a
      show (d.start j idx a + (d.window j a : ℤ)).toNat = (i a).val
      omega
  · rename_i h
    constructor
    · intro he
      cases he
    · intro he
      exfalso
      apply h
      intro a
      have h2 := he a
      have h3 := (i a).isLt
      omega

/-- A SCATTER-ADD OF ROWS, read at (n, f): operand [N, C], one index word per update row, updates [E, C]. Update
    element (e, f') lands on (n, f) exactly when the index word of row e, read signed, is n, and f' = f. So the
    result's (n, f) is the operand's plus the sum, over the update rows e whose index word is n, of update (e, f). -/
theorem scatterAdd_rows_apply {N E C : ℕ} (d : ScatterDims (S2 N C) (S2 E 1) (S2 E C))
    (hu : d.updateWindowDims = [1]) (hi : d.insertedWindowDims = [0]) (hs : d.scatterDimsToOperandDims = [0])
    (hv : d.indexVectorDim = 1) (x : (S2 N C).Idx → EReal) (idx : IVec (S2 E 1) 32) (upd : (S2 E C).Idx → EReal)
    (n : Fin N) (f : Fin C) :
    Host.scatterAdd (F := Ideal) (φ := .f32) d x idx upd (ix2 n f) =
      x (ix2 n f) + ∑ e : Fin E, if (idx (ix2 e 0)).toInt = (n.val : ℤ) then upd (ix2 e f) else 0 := by
  obtain ⟨uw, iw, sd, iv, wf⟩ := d
  simp only at hu hi hs hv
  subst hu hi hs hv
  show Ideal.hostScatterAdd _ x idx upd (ix2 n f) = _
  unfold Ideal.hostScatterAdd
  congr 1
  rw [Finset.sum_filter, sum_idx2]
  refine Finset.sum_congr rfl fun e _ => ?_
  have hs0 : ∀ f' : Fin C, ScatterDims.start (s := S2 N C) (si := S2 E 1) (u := S2 E C) ⟨[1], [0], [0], 1, wf⟩ (ix2 e f') idx 0
      = (idx (ix2 e 0)).toInt := by
    intro f'
    unfold ScatterDims.start
    rw [dif_pos (List.mem_singleton.mpr rfl)]
    have hsi : ∀ c, ScatterDims.siIdx (s := S2 N C) (si := S2 E 1) (u := S2 E C) ⟨[1], [0], [0], 1, wf⟩ (ix2 e f') c = ix2 e 0 := by
      intro c
      funext b; refine Fin.ext ?_
      match b with
      | ⟨0, _⟩ => rfl
      | ⟨1, _⟩ =>
        have hc1 : c.val < 1 := c.isLt
        show c.val = 0
        omega
    rw [hsi]
  have hs1 : ∀ f' : Fin C, ScatterDims.start (s := S2 N C) (si := S2 E 1) (u := S2 E C) ⟨[1], [0], [0], 1, wf⟩ (ix2 e f') idx 1 = 0 := by
    intro f'
    unfold ScatterDims.start
    rw [dif_neg (show (1 : Fin 2) ∉ [(0 : Fin 2)] by decide)]
  have hw0 : ∀ f' : Fin C, ScatterDims.window (s := S2 N C) (si := S2 E 1) (u := S2 E C) ⟨[1], [0], [0], 1, wf⟩ (ix2 e f') 0 = 0 := by
    intro f'
    unfold ScatterDims.window
    split
    · rename_i ha
      exact absurd ha (show (0 : Fin 2) ∉ (List.finRange 2).filter (fun a : Fin 2 => a ∉ [(0 : Fin 2)]) by decide)
    · rfl
  have hw1 : ∀ f' : Fin C, ScatterDims.window (s := S2 N C) (si := S2 E 1) (u := S2 E C) ⟨[1], [0], [0], 1, wf⟩ (ix2 e f') 1 = f'.val := by
    intro f'
    unfold ScatterDims.window
    split
    · rfl
    · rename_i ha
      exact absurd (show (1 : Fin 2) ∈ (List.finRange 2).filter (fun a : Fin 2 => a ∉ [(0 : Fin 2)]) by decide) ha
  have key : ∀ f' : Fin C, (ScatterDims.resultIdx? (s := S2 N C) (si := S2 E 1) (u := S2 E C) ⟨[1], [0], [0], 1, wf⟩ (ix2 e f') idx = some (ix2 n f))
      ↔ ((idx (ix2 e 0)).toInt = (n.val : ℤ) ∧ f' = f) := by
    intro f'
    rw [resultIdx?_eq_some_iff]
    constructor
    · intro h
      have h0 : (idx (ix2 e 0)).toInt + ((0 : ℕ) : ℤ) = (n.val : ℤ) := by
        have := h 0; rw [hs0, hw0] at this; exact this
      have h1 : (0 : ℤ) + ((f'.val : ℕ) : ℤ) = (f.val : ℤ) := by
        have := h 1; rw [hs1, hw1] at this; exact this
      exact ⟨by omega, Fin.ext (by omega)⟩
    · rintro ⟨h0, hf⟩ a
      match a with
      | ⟨0, _⟩ =>
        show ScatterDims.start _ _ idx 0 + ((ScatterDims.window _ _ 0 : ℕ) : ℤ) = (n.val : ℤ)
        rw [hs0, hw0, h0]; simp
      | ⟨1, _⟩ =>
        show ScatterDims.start _ _ idx 1 + ((ScatterDims.window _ _ 1 : ℕ) : ℤ) = (f.val : ℤ)
        rw [hs1, hw1, hf]; simp
  simp only [key]
  by_cases hP : (idx (ix2 e 0)).toInt = (n.val : ℤ)
  · simp only [hP, true_and, if_true]
    rw [Finset.sum_ite_eq' Finset.univ f (fun b => upd (ix2 e b))]
    simp
  · simp only [hP, false_and, if_false]
    exact Finset.sum_const_zero

/-- A SCATTER-ADD OF ELEMENTS into a vector, read at n: operand [N], one index word per update element, updates [E].
    Update element e lands on n exactly when its index word, read signed, is n. So the result's n is the operand's
    plus the sum of the updates whose index word is n. -/
theorem scatterAdd_elems_apply {N E : ℕ} (d : ScatterDims (S1 N) (S2 E 1) (S1 E))
    (hu : d.updateWindowDims = []) (hi : d.insertedWindowDims = [0]) (hs : d.scatterDimsToOperandDims = [0])
    (hv : d.indexVectorDim = 1) (x : (S1 N).Idx → EReal) (idx : IVec (S2 E 1) 32) (upd : (S1 E).Idx → EReal)
    (n : Fin N) :
    Host.scatterAdd (F := Ideal) (φ := .f32) d x idx upd (ix1 n) =
      x (ix1 n) + ∑ e : Fin E, if (idx (ix2 e 0)).toInt = (n.val : ℤ) then upd (ix1 e) else 0 := by
  obtain ⟨uw, iw, sd, iv, wf⟩ := d
  simp only at hu hi hs hv
  subst hu hi hs hv
  show Ideal.hostScatterAdd _ x idx upd (ix1 n) = _
  unfold Ideal.hostScatterAdd
  congr 1
  have hsum : ∀ g : (S1 E).Idx → EReal, ∑ j, g j = ∑ e : Fin E, g (ix1 e) := by
    intro g
    refine (Fintype.sum_equiv ⟨fun e : Fin E => (ix1 e : (S1 E).Idx), fun j => j 0, fun _ => rfl, fun j => (eq_ix1 j).symm⟩ _ _ fun _ => rfl).symm
  rw [Finset.sum_filter, hsum]
  refine Finset.sum_congr rfl fun e _ => ?_
  have hs0 : ScatterDims.start (s := S1 N) (si := S2 E 1) (u := S1 E) ⟨[], [0], [0], 1, wf⟩ (ix1 e) idx 0
      = (idx (ix2 e 0)).toInt := by
    unfold ScatterDims.start
    rw [dif_pos (List.mem_singleton.mpr rfl)]
    have hsi : ∀ c, ScatterDims.siIdx (s := S1 N) (si := S2 E 1) (u := S1 E) ⟨[], [0], [0], 1, wf⟩ (ix1 e) c = ix2 e 0 := by
      intro c
      funext b; refine Fin.ext ?_
      match b with
      | ⟨0, _⟩ => rfl
      | ⟨1, _⟩ =>
        have hc1 : c.val < 1 := c.isLt
        show c.val = 0
        omega
    rw [hsi]
  have hw0 : ScatterDims.window (s := S1 N) (si := S2 E 1) (u := S1 E) ⟨[], [0], [0], 1, wf⟩ (ix1 e) 0 = 0 := by
    unfold ScatterDims.window
    split
    · rename_i ha
      exact absurd ha (show (0 : Fin 1) ∉ (List.finRange 1).filter (fun a : Fin 1 => a ∉ [(0 : Fin 1)]) by decide)
    · rfl
  have key : (ScatterDims.resultIdx? (s := S1 N) (si := S2 E 1) (u := S1 E) ⟨[], [0], [0], 1, wf⟩ (ix1 e) idx = some (ix1 n))
      ↔ (idx (ix2 e 0)).toInt = (n.val : ℤ) := by
    rw [resultIdx?_eq_some_iff]
    constructor
    · intro h
      have h0 : (idx (ix2 e 0)).toInt + ((0 : ℕ) : ℤ) = (n.val : ℤ) := by
        have := h 0; rw [hs0, hw0] at this; exact this
      omega
    · intro h0 a
      match a with
      | ⟨0, _⟩ =>
        show ScatterDims.start _ _ idx 0 + ((ScatterDims.window _ _ 0 : ℕ) : ℤ) = (n.val : ℤ)
        rw [hs0, hw0, h0]; simp
  simp only [key]

end Scatter

end Idealize.ShloMosaic.RowScatter

end
-- ==== Proof.LibHostRows.lean ====
/-
  Host layout operations and the host's row sum read at an index, for arrays of rows: a vector made a column, a
  scalar broadcast anywhere, a column broadcast along the rows, a vector made a row, a row broadcast down the
  rows, and the sum of a matrix's rows. Stated for any extents.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibHostRows

open Idealize.ShloMosaic Idealize.ShloMosaic.ValueIdx

/-- The host's sum over the second axis of an `a × b` array, read at row `r`: the initial value plus the sum of
    the row. -/
theorem hostReduceAdd_rows_apply {a b : ℕ} {φ : FTy} (x : FVec Ideal ⟨2, ![a, b]⟩ φ) (init : (⟨0, ![]⟩ : Shape).Idx → Ideal φ)
    (h : (⟨2, ![a, b]⟩ : Shape).ReducesTo [1] ⟨1, ![a]⟩) (hu : 0 < (⟨0, ![]⟩ : Shape).numel) (r : Fin a) :
    Host.reduceAdd x init h hu (ix1 r) = init ix0 + ∑ k : Fin b, x (ix2 r k) := by
  have hR : (⟨2, ![a, b]⟩ : Shape).Reduces [1] ⟨1, ![a]⟩ := ⟨h.1, Nat.one_pos, h.2⟩
  have e0 : Shape.Idx.first hu = ix0 := eq_ix0 _
  unfold Host.reduceAdd
  rw [Ideal.hostReduceAdd_def, Ideal.hostReduceAdd_single h hR, e0]
  refine congrArg (fun z => init ix0 + z) (Finset.sum_congr rfl fun k _ => congrArg x ?_)
  funext c
  match c with
  | ⟨0, _⟩ => rfl
  | ⟨1, _⟩ => rfl

/-- A vector of length `a` broadcast to an `a × 1` column reads its own entry. -/
theorem broadcastInDim_vec_col_apply {a : ℕ} {α : Type} (v : (⟨1, ![a]⟩ : Shape).Idx → α)
    (h : (⟨1, ![a]⟩ : Shape).BroadcastsInDim ⟨2, ![a, 1]⟩ (![0] : Fin 1 → Fin 2)) (r : Fin a) (z : Fin 1) :
    broadcastInDim ⟨2, ![a, 1]⟩ ![0] h v (ix2 r z) = v (ix1 r) := by
  refine broadcastInDim_apply _ h v (ix2 r z) (ix1 r) fun ax => ?_
  match ax with
  | ⟨0, _⟩ =>
    show r.val = if a = 1 then 0 else r.val
    split
    · have := r.isLt; omega
    · rfl

/-- A scalar broadcast to any shape reads the scalar. -/
theorem broadcastInDim_scalar_apply {t : Shape} {α : Type} (v : (⟨0, ![]⟩ : Shape).Idx → α)
    (h : (⟨0, ![]⟩ : Shape).BroadcastsInDim t (![] : Fin 0 → Fin t.rank)) (j : t.Idx) :
    broadcastInDim t ![] h v j = v ix0 := by
  exact broadcastInDim_apply _ h v j ix0 fun ax => ax.elim0

/-- An `a × 1` column broadcast to `a × b` reads the column's entry of the row. -/
theorem broadcastInDim_col_apply {a b : ℕ} {α : Type} (v : (⟨2, ![a, 1]⟩ : Shape).Idx → α)
    (h : (⟨2, ![a, 1]⟩ : Shape).BroadcastsInDim ⟨2, ![a, b]⟩ (![0, 1] : Fin 2 → Fin 2)) (r : Fin a) (k : Fin b) :
    broadcastInDim ⟨2, ![a, b]⟩ ![0, 1] h v (ix2 r k) = v (ix2 r (0 : Fin 1)) := by
  refine broadcastInDim_apply _ h v (ix2 r k) (ix2 r (0 : Fin 1)) fun ax => ?_
  match ax with
  | ⟨0, _⟩ =>
    show r.val = if a = 1 then 0 else r.val
    split
    · have := r.isLt; omega
    · rfl
  | ⟨1, _⟩ => rfl

/-- A vector of length `b` broadcast to a `1 × b` row reads its own entry. -/
theorem broadcastInDim_vec_row_apply {b : ℕ} {α : Type} (v : (⟨1, ![b]⟩ : Shape).Idx → α)
    (h : (⟨1, ![b]⟩ : Shape).BroadcastsInDim ⟨2, ![1, b]⟩ (![1] : Fin 1 → Fin 2)) (z : Fin 1) (k : Fin b) :
    broadcastInDim ⟨2, ![1, b]⟩ ![1] h v (ix2 z k) = v (ix1 k) := by
  refine broadcastInDim_apply _ h v (ix2 z k) (ix1 k) fun ax => ?_
  match ax with
  | ⟨0, _⟩ =>
    show k.val = if b = 1 then 0 else k.val
    split
    · have := k.isLt; omega
    · rfl

/-- A `1 × b` row broadcast to `a × b` reads the row's entry of the column. -/
theorem broadcastInDim_row_apply {a b : ℕ} {α : Type} (v : (⟨2, ![1, b]⟩ : Shape).Idx → α)
    (h : (⟨2, ![1, b]⟩ : Shape).BroadcastsInDim ⟨2, ![a, b]⟩ (![0, 1] : Fin 2 → Fin 2)) (r : Fin a) (k : Fin b) :
    broadcastInDim ⟨2, ![a, b]⟩ ![0, 1] h v (ix2 r k) = v (ix2 (0 : Fin 1) k) := by
  refine broadcastInDim_apply _ h v (ix2 r k) (ix2 (0 : Fin 1) k) fun ax => ?_
  match ax with
  | ⟨0, _⟩ => rfl
  | ⟨1, _⟩ =>
    show k.val = if b = 1 then 0 else k.val
    split
    · have := k.isLt; omega
    · rfl

end Cert.LibHostRows

end
-- ==== Proof.Take.lean ====
/-
  Rows taken at in-range indices, and the scatter-add of edge rows into node rows, read at an index: where an index
  word read signed lies in [0, 50000) it is not wrapped, it passes the range test and the gather's clamp leaves it
  alone, so the taken row is the row it names; the scatter-add into zeros is, at (p, k), the sum of the updates'
  entries (e, k) over the edges e whose index word read signed is p.
-/
import proofs.«415271_j5102421148357_1_alg».proof.Proof.Gen.KernelIdeal
import proofs.«415271_j5102421148357_1_alg».proof.Proof.Spec
import proofs.«415271_j5102421148357_1_alg».proof.Proof.LibRowScatter
import proofs.«415271_j5102421148357_1_alg».proof.Proof.LibHostRows
import Idealize.ShloMosaic.Lib.Pipeline.Value
import Idealize.ShloMosaic.Lib.ValueIdx
import Idealize.ShloMosaic.Lib.ReduceAll
import Idealize.ShloMosaic.Lib.StableHlo.Predicate
import Idealize.ShloMosaic.PureOps.Ideal.Laws
import proofs.«415271_j5102421148357_1_alg».proof.Proof.TakeDef

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.Spec

/-! ## Words: signed compares against 0 and 49999 -/

/-- A word that is not negative, read signed, is not below 0: the "less than zero" test gives the bit 0. -/
private theorem cmpi_slt_zero_of_nonneg (v : BitVec 32) (h : 0 ≤ v.toInt) : IntOp.cmpi .slt v 0#32 = 0#1 := by
  have hz : (0#32 : BitVec 32).toInt = 0 := by decide
  have hb : v.slt 0#32 = false := by
    rw [BitVec.slt_eq_decide, decide_eq_false_iff_not, hz]
    omega
  show BitVec.ofBool (v.slt 0#32) = 0#1
  rw [hb]
  rfl

/-- A word that is not negative, read signed, passes the "at least zero" test. -/
private theorem cmpi_sge_zero_of_nonneg (v : BitVec 32) (h : 0 ≤ v.toInt) : IntOp.cmpi .sge v 0#32 = 1#1 := by
  have hz : (0#32 : BitVec 32).toInt = 0 := by decide
  have hb : (0#32 : BitVec 32).sle v = true := by
    rw [BitVec.sle_eq_decide, decide_eq_true_iff, hz]
    exact h
  show BitVec.ofBool ((0#32 : BitVec 32).sle v) = 1#1
  rw [hb]
  rfl

/-- A word that is at most 49999, read signed, passes the "at most 49999" test. -/
private theorem cmpi_sle_49999_of_le (v : BitVec 32) (h : v.toInt ≤ 49999) : IntOp.cmpi .sle v 49999#32 = 1#1 := by
  have hz : (49999#32 : BitVec 32).toInt = 49999 := by decide
  have hb : v.sle 49999#32 = true := by
    rw [BitVec.sle_eq_decide, decide_eq_true_iff, hz]
    exact h
  show BitVec.ofBool (v.sle 49999#32) = 1#1
  rw [hb]
  rfl

/-! ## A fold by "and" of ones is one; the row-wise "and" of a one-column array -/

/-- A left fold by "and" that starts at 1 and meets only 1s ends at 1. -/
private theorem foldl_andi_one {ι : Type} (g : ι → BitVec 1) :
    ∀ (l : List ι) (init : BitVec 1), init = 1#1 → (∀ n ∈ l, g n = 1#1) →
      l.foldl (fun r n => IntOp.andi r (g n)) init = 1#1
  | [], init, h, _ => h
  | a :: l, init, h, hl => by
    rw [List.foldl_cons]
    refine foldl_andi_one g l _ ?_ (fun n hn => hl n (List.mem_cons_of_mem _ hn))
    rw [h, hl a List.mem_cons_self]
    rfl

/-- The "and" over the second axis of an a × 1 array of bits, from the bit 1, read at row r: it is 1 when the one
    entry of the row is 1 (the only index that drops to r is (r, 0)). -/
private theorem reduce_andi_col_apply {a : ℕ} (m : IVec ⟨2, ![a, 1]⟩ 1) (init : IVec ⟨0, ![]⟩ 1)
    (h : (⟨2, ![a, 1]⟩ : Shape).ReducesTo [1] ⟨1, ![a]⟩) (hu : 0 < (⟨0, ![]⟩ : Shape).numel) (r : Fin a)
    (hinit : init ix0 = 1#1) (hm : m (ix2 r (0 : Fin 1)) = 1#1) :
    Host.reduce IntOp.andi m init h hu (ix1 r) = 1#1 := by
  rw [Host.reduce_eq_foldl]
  refine foldl_andi_one m _ _ ?_ ?_
  · rw [eq_ix0 (Shape.Idx.first hu)]
    exact hinit
  · intro i hi
    have hd : h.drop i = ix1 r := by simpa using (List.mem_filter.1 hi).2
    have h0 : (i 0).val = r.val := congrArg (fun j : (⟨1, ![a]⟩ : Shape).Idx => (j 0).val) hd
    have h1 : (i 1).val = 0 := by
      have := idx2_lt1 i
      omega
    have hi' : i = ix2 r (0 : Fin 1) := by
      rw [eq_ix2 i]
      congr 1
      · exact Fin.ext h0
      · exact Fin.ext h1
    rw [hi']
    exact hm

/-! ## A vector broadcast along the rows of a matrix -/

/-- A vector of length a broadcast to a × b along the first axis reads, at (r, k), its entry r. -/
private theorem broadcastInDim_vec_rows_apply {a b : ℕ} {α : Type} (v : (⟨1, ![a]⟩ : Shape).Idx → α)
    (h : (⟨1, ![a]⟩ : Shape).BroadcastsInDim ⟨2, ![a, b]⟩ (![0] : Fin 1 → Fin 2)) (r : Fin a) (k : Fin b) :
    broadcastInDim ⟨2, ![a, b]⟩ ![0] h v (ix2 r k) = v (ix1 r) := by
  refine broadcastInDim_apply _ h v (ix2 r k) (ix1 r) fun ax => ?_
  match ax with
  | ⟨0, _⟩ =>
    show r.val = if a = 1 then 0 else r.val
    split
    · have := r.isLt; omega
    · rfl

/-! ## The wrapped index and the range mask, read at a row -/

/-- The index wrapped once if negative, read at e, is the index word itself when that word is not negative. -/
private theorem wrapped_apply (idx : IVec S800000 32) (e : Fin 800000) (h0 : 0 ≤ (idx (ix1 e)).toInt) :
    (select (cmpi .slt idx (broadcastInDim S800000 ![] bcast_S_S800000 (constantI S_ 32 0#32)))
      (addi idx (broadcastInDim S800000 ![] bcast_S_S800000 (constantI S_ 32 50000#32))) idx) (ix1 e)
      = idx (ix1 e) := by
  show Scalar.select (IntOp.cmpi .slt (idx (ix1 e)) 0#32) (IntOp.addi (idx (ix1 e)) 50000#32) (idx (ix1 e)) = idx (ix1 e)
  rw [cmpi_slt_zero_of_nonneg _ h0, select_zero]

/-- The range mask of an index vector w, read at (e, f): it is the bit 1 when w's word at e, read signed, lies in
    [0, 49999]: both compares pass at (e, 0), their "and" is 1, the row-wise "and" of the one-column array is 1, and
    the broadcast along the row reads it. -/
private theorem mask_apply (w : IVec S800000 32) (e : Fin 800000) (f : Fin 256)
    (h0 : 0 ≤ (w (ix1 e)).toInt) (h1 : (w (ix1 e)).toInt ≤ 49999) :
    (broadcastInDim S800000x256 ![0] bcast_S800000_S800000x256_0
      (Host.reduce IntOp.andi
        (andi
          (cmpi .sge (broadcastInDim S800000x1 ![0] bcast_S800000_S800000x1_0 w)
            (broadcastInDim S800000x1 ![] bcast_S_S800000x1 (constantI S_ 32 0#32)))
          (cmpi .sle (broadcastInDim S800000x1 ![0] bcast_S800000_S800000x1_0 w)
            (broadcastInDim S800000x1 ![0, 1] bcast_S1x1_S800000x1_0_1
              (broadcastInDim S1x1 ![1] bcast_S1_S1x1_1 (constantI S1 32 49999#32)))))
        (constantI S_ 1 1#1) reducesTo_S800000x1_S800000_d1 h_S_)) (ix2 e f) = 1#1 := by
  rw [broadcastInDim_vec_rows_apply]
  refine reduce_andi_col_apply _ _ _ _ e rfl ?_
  have hc : broadcastInDim S800000x1 ![0] bcast_S800000_S800000x1_0 w (ix2 e (0 : Fin 1)) = w (ix1 e) :=
    Cert.LibHostRows.broadcastInDim_vec_col_apply w _ e 0
  show IntOp.andi
      (IntOp.cmpi .sge (broadcastInDim S800000x1 ![0] bcast_S800000_S800000x1_0 w (ix2 e (0 : Fin 1))) 0#32)
      (IntOp.cmpi .sle (broadcastInDim S800000x1 ![0] bcast_S800000_S800000x1_0 w (ix2 e (0 : Fin 1))) 49999#32) = 1#1
  rw [hc, cmpi_sge_zero_of_nonneg _ h0, cmpi_sle_49999_of_le _ h1]
  rfl

/-- The select of the gathered rows by the range mask of an index vector w, read at (e, f), where w's word at e, read
    signed, lies in [0, 50000): the mask bit is 1, the gather reads the row the word names, and its clamp to 49999
    does nothing. -/
private theorem take_core (x : FVec Ideal S50000x256 .f32) (w : IVec S800000 32) (e : Fin 800000) (f : Fin 256)
    (h0 : 0 ≤ (w (ix1 e)).toInt) (h1 : (w (ix1 e)).toInt < 50000) :
    (select
      (broadcastInDim S800000x256 ![0] bcast_S800000_S800000x256_0
        (Host.reduce IntOp.andi
          (andi
            (cmpi .sge (broadcastInDim S800000x1 ![0] bcast_S800000_S800000x1_0 w)
              (broadcastInDim S800000x1 ![] bcast_S_S800000x1 (constantI S_ 32 0#32)))
            (cmpi .sle (broadcastInDim S800000x1 ![0] bcast_S800000_S800000x1_0 w)
              (broadcastInDim S800000x1 ![0, 1] bcast_S1x1_S800000x1_0_1
                (broadcastInDim S1x1 ![1] bcast_S1_S1x1_1 (constantI S1 32 49999#32)))))
          (constantI S_ 1 1#1) reducesTo_S800000x1_S800000_d1 h_S_))
      (Host.gather gather_S50000x256_S800000x1_S800000x256_1_0_n_n_0_1_1256 x
        (broadcastInDim S800000x1 ![0] bcast_S800000_S800000x1_0 w))
      (broadcastInDim S800000x256 ![] bcast_S_S800000x256 (constant (F := Ideal) S_ .f32 0x7FC00000#32)) : A2 800000 256)
      (ix2 e f)
      = (x : A2 50000 256) (ix2 ⟨(w (ix1 e)).toInt.toNat, by omega⟩ f) := by
  rw [select_apply, mask_apply w e f h0 (by omega), select_one,
    Idealize.ShloMosaic.RowScatter.gather_rows_apply (by norm_num) _ rfl rfl rfl rfl rfl rfl rfl]
  refine congrArg x (congrArg (fun r => ix2 r f) (Fin.ext ?_))
  show min (broadcastInDim S800000x1 ![0] bcast_S800000_S800000x1_0 w (ix2 e (0 : Fin 1))).toInt.toNat (50000 - 1)
    = (w (ix1 e)).toInt.toNat
  rw [Cert.LibHostRows.broadcastInDim_vec_col_apply]
  omega

/-- Where the index word of row e, read signed, lies in [0, 50000), the taken row e is the row of `x` it names:
    no wrap (the word is not negative), the range test passes, and the gather's clamp does nothing. -/
theorem takeRows_apply (x : FVec Ideal S50000x256 .f32) (idx : IVec S800000 32) (e : Fin 800000) (f : Fin 256)
    (h0 : 0 ≤ (idx (ix1 e)).toInt) (h1 : (idx (ix1 e)).toInt < 50000) :
    (takeRows (F := Ideal) x idx : A2 800000 256) (ix2 e f)
      = (x : A2 50000 256) (ix2 ⟨(idx (ix1 e)).toInt.toNat, by omega⟩ f) := by
  have hW := wrapped_apply idx e h0
  unfold takeRows
  rw [take_core x _ e f (by rw [hW]; exact h0) (by rw [hW]; exact h1)]
  refine congrArg x (congrArg (fun r => ix2 r f) (Fin.ext ?_))
  exact congrArg (fun v : BitVec 32 => v.toInt.toNat) hW

/-- The scatter-add of edge rows into node rows used twice by the program, read at (p, k): zero plus the sum, over
    the edges whose index word read signed is p, of the update's entry (e, k). -/
theorem scatterRows_apply (idx : IVec S800000 32) (upd : A2 800000 256) (p : Fin 50000) (k : Fin 256) :
    (Host.scatterAdd (F := Ideal) (φ := .f32) scatter_S50000x256_S800000x1_S800000x256_1_0_0_1
        (broadcastInDim S50000x256 ![] bcast_S_S50000x256 (constant (F := Ideal) S_ .f32 0x00000000#32))
        (broadcastInDim S800000x1 ![0] bcast_S800000_S800000x1_0 idx) upd : A2 50000 256) (ix2 p k)
      = 0 + ∑ e : Fin 800000, if (idx (ix1 e)).toInt = (p.val : ℤ) then upd (ix2 e k) else 0 := by
  refine (Idealize.ShloMosaic.RowScatter.scatterAdd_rows_apply (N := 50000) (E := 800000) (C := 256)
    scatter_S50000x256_S800000x1_S800000x256_1_0_0_1 rfl rfl rfl rfl _ _ upd p k).trans ?_
  have hz : (broadcastInDim S50000x256 ![] bcast_S_S50000x256 (constant (F := Ideal) S_ .f32 0x00000000#32) : A2 50000 256)
      (ix2 p k) = 0 := by
    show Ideal.ofBits .f32 0x00000000#32 = 0
    exact Ideal.ofBits_zero_f32
  rw [hz]
  refine congrArg (fun z : EReal => 0 + z) (Finset.sum_congr rfl fun e _ => ?_)
  rw [Cert.LibHostRows.broadcastInDim_vec_col_apply]

end Cert.KernelIdeal.Hand

end
-- ==== Proof.Pre.lean ====
/-
  The precondition's last conjunct, read back: every source index, read as a signed word, lies in [0, 50000).
-/
import proofs.«415271_j5102421148357_1_alg».proof.Defs
import proofs.«415271_j5102421148357_1_alg».proof.Proof.Gen.KernelIdeal
import proofs.«415271_j5102421148357_1_alg».proof.Proof.Gen.Pre_finite_inputs
import Idealize.ShloMosaic.Lib.ValueIdx
import Idealize.ShloMosaic.Lib.ReduceAll
import Idealize.ShloMosaic.Lib.StableHlo.Predicate

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem

/-- The tail of the printed predicate, read back: when its word is one, the last `all` it folds in is one,
    so both signed compares of the index array hold at every position. -/
private theorem part3_read {F : FTy → Type} [FloatOps F] (a1 : IVec Cert.Pre_finite_inputs.S800000 32)
    (v48 : IVec Cert.Pre_finite_inputs.S_ 1) (v49 v50 : FVec F Cert.Pre_finite_inputs.S256 .f32)
    (h : Cert.Pre_finite_inputs.fn_part3 (F := F) a1 v48 v49 v50 ValueIdx.ix0 = 1#1) (e : Fin 800000) :
    0 ≤ (a1 (ix1 e)).toInt ∧ (a1 (ix1 e)).toInt < 50000 := by
  dsimp only [Cert.Pre_finite_inputs.fn_part3] at h
  have h2 := (IntOp.andi_eq_one.1 h).2
  haveI : Subsingleton Cert.Pre_finite_inputs.S_.Idx := ⟨fun a b => funext fun d => d.elim0⟩
  have h3 := Host.reduce_andi_all _ _ _ _ _ h2 (ix1 e)
  obtain ⟨hge, hlt⟩ := IntOp.andi_eq_one.1 h3
  have hge' := IntOp.cmpi_sge.1 hge
  have hlt' := IntOp.cmpi_slt.1 hlt
  change (0#32 : BitVec 32).toInt ≤ (a1 (ix1 e)).toInt at hge'
  change (a1 (ix1 e)).toInt < (50000#32 : BitVec 32).toInt at hlt'
  rw [show (0#32 : BitVec 32).toInt = 0 from by decide] at hge'
  rw [show (50000#32 : BitVec 32).toInt = 50000 from by decide] at hlt'
  exact ⟨hge', hlt'⟩

/-- What the precondition says of the source indices: every one, read signed, lies in [0, 50000). -/
theorem src_range (m : (ℓ : Loc nD τ sig) → Buf (Elt Ideal) ℓ) (hpre : Cert.Pre_KernelIdeal m) (c : Dev nD) (e : Fin 800000) :
    0 ≤ ((m ((c.tc : Thread nD τ).loc main_arg1) : IVec S800000 32) (ix1 e)).toInt
      ∧ ((m ((c.tc : Thread nD τ).loc main_arg1) : IVec S800000 32) (ix1 e)).toInt < 50000 :=
  part3_read _ _ _ _ (congrFun (hpre c) ValueIdx.ix0) e

end Cert.KernelIdeal.Hand

end
-- ==== Proof.RefSide.lean ====
/-
  The reference program stage by stage, each read at an index on the extended reals: the four node arrays as affine
  maps (two of them times a gate vector), an edge's gate and message where its index words lie in [0, 50000) (no
  wrap, no clamp), the two scatter-adds as sums over the edges whose destination word is the node, the row fed to the
  normalisation, and the result as the node's own entry plus the normalised row.
-/
import proofs.«415271_j5102421148357_1_alg».proof.Proof.Gen.ReferenceIdeal.Read
import proofs.«415271_j5102421148357_1_alg».proof.Proof.Spec
import proofs.«415271_j5102421148357_1_alg».proof.Proof.LibRowScatter
import proofs.«415271_j5102421148357_1_alg».proof.Proof.LibHostRows
import Idealize.ShloMosaic.Lib.Pipeline.Value
import Idealize.ShloMosaic.Lib.ValueIdx
import Idealize.ShloMosaic.PureOps.Ideal.Laws

set_option maxRecDepth 16384

noncomputable section

open scoped BigOperators

namespace Cert.ReferenceIdeal.Hand

open Cert.ReferenceIdeal Cert.ReferenceIdeal.Gen Cert.ReferenceIdeal.Read
open Idealize.ShloMosaic Idealize.ShloMosaic.TcCoe Idealize.ShloMosaic.ValueIdx Idealize.SL.Sem
open Cert.Spec

variable (x0 : A2 50000 256) (x1 x2 : IVec S800000 32) (x3 : A2 256 256) (x4 : A1 256) (x5 : A2 256 256) (x6 : A1 256)
  (x7 : A2 256 256) (x8 x9 x10 x11 x12 : A1 256)

/-! ## General readings: constants, contractions, broadcasts, the index wrap and the row gather -/

/-- The float 1.0 is the extended real 1. -/
private theorem ofBits_one_f32 : Ideal.ofBits .f32 0x3F800000#32 = 1 := by
  simp [Ideal.ofBits, Ideal.ieee, -EReal.coe_mul]; norm_num

/-- The contraction of a 50000 × 256 array with a 256 × 256 array at (p, q): the sum over k of x[p,k]·W[k,q]. -/
private theorem dot_apply (x : A2 50000 256) (W : A2 256 256) (p : Fin 50000) (q : Fin 256) :
    (val_main_v0 (F := Ideal) x W : A2 50000 256) (ix2 p q) = ∑ k : Fin 256, x (ix2 p k) * W (ix2 k q) := by
  rw [val_main_v0_apply]
  refine Finset.sum_congr rfl fun k _ => ?_
  have el : lidx_main_v0 (ix2 p q) k = ix2 p k :=
    funext fun a => Fin.ext (by match a with | ⟨0, _⟩ => rfl | ⟨1, _⟩ => rfl)
  have er : ridx_main_v0 (ix2 p q) k = ix2 k q :=
    funext fun a => Fin.ext (by match a with | ⟨0, _⟩ => rfl | ⟨1, _⟩ => rfl)
  rw [el, er]

/-- A vector of 256 entries made a row and broadcast down 50000 rows reads, at (p, q), its entry q. -/
private theorem rowbc_apply (v : A1 256) (p : Fin 50000) (q : Fin 256) :
    (val_main_v2 (F := Ideal) v : A2 50000 256) (ix2 p q) = v (ix1 q) := by
  rw [val_main_v2_apply, val_main_v1_apply]
  exact congrArg v (funext fun a => Fin.ext (by match a with | ⟨0, _⟩ => rfl))

/-- The affine map x·W + b of the program at (p, q). -/
private theorem lin_apply (x : A2 50000 256) (W : A2 256 256) (b : A1 256) (p : Fin 50000) (q : Fin 256) :
    (val_main_v3 (F := Ideal) x W b : A2 50000 256) (ix2 p q) = lin x W b p q := by
  rw [val_main_v3_apply, dot_apply, rowbc_apply]
  rfl

/-- The index wrap of a word that read signed is nonnegative is the word itself. -/
private theorem wrap_of_nonneg (w : BitVec 32) (h : 0 ≤ w.toInt) :
    Scalar.select (IntOp.cmpi .slt w 0#32) (IntOp.addi w 50000#32) w = w := by
  have hc : ¬ IntOp.cmpi .slt w 0#32 = 1#1 := by
    rw [IntOp.cmpi_slt]
    have h0 : (0#32 : BitVec 32).toInt = 0 := by decide
    omega
  exact if_neg hc

/-- The wrapped index words made a column, at row e: the word itself when it is nonnegative read signed. -/
private theorem wrapcol_apply (xi : IVec S800000 32) (e : Fin 800000) (h0 : 0 ≤ (xi (ix1 e)).toInt) :
    (val_main_v23 (F := Ideal) xi) (ix2 e (0 : Fin 1)) = xi (ix1 e) := by
  rw [val_main_v23_apply]
  have ei : idx_main_v23 (ix2 e (0 : Fin 1)) = ix1 e :=
    funext fun a => Fin.ext (by match a with | ⟨0, _⟩ => rfl)
  rw [ei]
  exact wrap_of_nonneg _ h0

/-- A gather of rows of a 50000 × 256 array by the wrapped index words, at (e, f), when row e's word read signed lies in
    [0, 50000): the array's row named by the word, column f. -/
private theorem gather_apply (y : A2 50000 256) (xi : IVec S800000 32) (e : Fin 800000) (f : Fin 256)
    (h0 : 0 ≤ (xi (ix1 e)).toInt) (h1 : (xi (ix1 e)).toInt < 50000) :
    (Host.gather gather_S50000x256_S800000x1_S800000x256_1_0_n_n_0_1_1256 y (val_main_v23 (F := Ideal) xi) : A2 800000 256)
      (ix2 e f) = y (ix2 ⟨(xi (ix1 e)).toInt.toNat, by omega⟩ f) := by
  refine (RowScatter.gather_rows_apply (N := 50000) (E := 800000) (C := 256) (by decide)
    gather_S50000x256_S800000x1_S800000x256_1_0_n_n_0_1_1256 rfl rfl rfl rfl rfl rfl rfl y
    (val_main_v23 (F := Ideal) xi) e f).trans ?_
  refine congrArg y (congrArg (fun r => ix2 r f) (Fin.ext ?_))
  show min ((val_main_v23 (F := Ideal) xi) (ix2 e (0 : Fin 1))).toInt.toNat (50000 - 1) = (xi (ix1 e)).toInt.toNat
  rw [wrapcol_apply xi e h0]
  omega

/-- A scatter-add of 800000 update rows into the zero 50000 × 256 array by the index words made a column, at (p, k):
    zero plus the sum of the update rows' entries k over the rows whose word read signed is p. -/
private theorem scatter_apply (xi : IVec S800000 32) (u : A2 800000 256) (p : Fin 50000) (k : Fin 256) :
    (Host.scatterAdd (F := Ideal) (φ := .f32) scatter_S50000x256_S800000x1_S800000x256_1_0_0_1 (val_main_v47 (F := Ideal))
      (val_main_v48 (F := Ideal) xi) u : A2 50000 256) (ix2 p k)
      = 0 + ∑ e : Fin 800000, if (xi (ix1 e)).toInt = (p.val : ℤ) then u (ix2 e k) else 0 := by
  refine (RowScatter.scatterAdd_rows_apply (N := 50000) (E := 800000) (C := 256)
    scatter_S50000x256_S800000x1_S800000x256_1_0_0_1 rfl rfl rfl rfl (val_main_v47 (F := Ideal))
    (val_main_v48 (F := Ideal) xi) u p k).trans ?_
  have hz : (val_main_v47 (F := Ideal)) (ix2 p k) = 0 := by
    rw [val_main_v47_apply, val_main_cst_6_apply]
    exact Ideal.ofBits_zero_f32
  have hi : ∀ e : Fin 800000, (val_main_v48 (F := Ideal) xi) (ix2 e (0 : Fin 1)) = xi (ix1 e) := by
    intro e
    rw [val_main_v48_apply]
    exact congrArg xi (funext fun a => Fin.ext (by match a with | ⟨0, _⟩ => rfl))
  rw [hz]
  refine congrArg (fun z => (0 : EReal) + z) (Finset.sum_congr rfl fun e _ => ?_)
  rw [hi e]

/-! ## The normalisation: row sums, the mean, the deviations and the variance of a row of the array fed to it -/

/-- The host's row sum of a 50000 × 256 array from the constant zero, at row p: the sum of the row. -/
private theorem rowsum_apply (y : A2 50000 256) (p : Fin 50000) :
    (Host.reduceAdd (F := Ideal) (φ := .f32) (s := S50000x256) (t := S50000) y (val_main_cst_9 (F := Ideal))
      reducesTo_S50000x256_S50000_d1 h_S_ : A1 50000) (ix1 p)
      = ∑ k : Fin 256, y (ix2 p k) := by
  refine (LibHostRows.hostReduceAdd_rows_apply (a := 50000) (b := 256) y (val_main_cst_9 (F := Ideal))
    reducesTo_S50000x256_S50000_d1 h_S_ p).trans ?_
  have hz : (val_main_cst_9 (F := Ideal)) ix0 = 0 := by
    rw [val_main_cst_9_apply]
    exact Ideal.ofBits_zero_f32
  rw [hz, zero_add]

/-- Row p of the array fed to the normalisation. -/
private abbrev hrow (p : Fin 50000) : Fin 256 → EReal :=
  fun k => (val_main_v56 (F := Ideal) x0 x1 x2 x3 x4 x5 x6 x7 x8 x9 x10 : A2 50000 256) (ix2 p k)

/-- The column of row means at row p is the mean of row p. -/
private theorem mean_col (p : Fin 50000) :
    (val_main_v60 (F := Ideal) x0 x1 x2 x3 x4 x5 x6 x7 x8 x9 x10) (ix2 p (0 : Fin 1))
      = mean (hrow x0 x1 x2 x3 x4 x5 x6 x7 x8 x9 x10 p) := by
  have ei : idx_main_v58 (ix2 p (0 : Fin 1)) = ix1 p :=
    funext fun a => Fin.ext (by match a with | ⟨0, _⟩ => rfl)
  have hs : (val_main_v57 (F := Ideal) x0 x1 x2 x3 x4 x5 x6 x7 x8 x9 x10) (ix1 p)
      = ∑ k : Fin 256, hrow x0 x1 x2 x3 x4 x5 x6 x7 x8 x9 x10 p k :=
    rowsum_apply (val_main_v56 (F := Ideal) x0 x1 x2 x3 x4 x5 x6 x7 x8 x9 x10) p
  rw [val_main_v60_apply, val_main_v58_apply, ei, hs]
  rfl

/-- The deviations array at (p, k) is the deviation of row p's entry k from the row's mean. -/
private theorem dev_sq_apply (p : Fin 50000) (k : Fin 256) :
    (val_main_v62 (F := Ideal) x0 x1 x2 x3 x4 x5 x6 x7 x8 x9 x10) (ix2 p k)
      = dev (hrow x0 x1 x2 x3 x4 x5 x6 x7 x8 x9 x10 p) k := by
  have ei : idx_main_v61 (ix2 p k) = ix2 p (0 : Fin 1) :=
    funext fun a => Fin.ext (by match a with | ⟨0, _⟩ => rfl | ⟨1, _⟩ => rfl)
  rw [val_main_v62_apply, val_main_v61_apply, ei, mean_col]
  rfl

/-- The second copy of the deviations array, likewise. -/
private theorem dev_apply (p : Fin 50000) (k : Fin 256) :
    (val_main_v69 (F := Ideal) x0 x1 x2 x3 x4 x5 x6 x7 x8 x9 x10) (ix2 p k)
      = dev (hrow x0 x1 x2 x3 x4 x5 x6 x7 x8 x9 x10 p) k := by
  have ei : idx_main_v68 (ix2 p k) = ix2 p (0 : Fin 1) :=
    funext fun a => Fin.ext (by match a with | ⟨0, _⟩ => rfl | ⟨1, _⟩ => rfl)
  rw [val_main_v69_apply, val_main_v68_apply, ei, mean_col]
  rfl

/-- The column of row variances at row p is the variance of row p. -/
private theorem var_col (p : Fin 50000) :
    (val_main_v67 (F := Ideal) x0 x1 x2 x3 x4 x5 x6 x7 x8 x9 x10) (ix2 p (0 : Fin 1))
      = var (hrow x0 x1 x2 x3 x4 x5 x6 x7 x8 x9 x10 p) := by
  have ei : idx_main_v65 (ix2 p (0 : Fin 1)) = ix1 p :=
    funext fun a => Fin.ext (by match a with | ⟨0, _⟩ => rfl)
  have hs : (val_main_v64 (F := Ideal) x0 x1 x2 x3 x4 x5 x6 x7 x8 x9 x10) (ix1 p)
      = ∑ k : Fin 256, dev (hrow x0 x1 x2 x3 x4 x5 x6 x7 x8 x9 x10 p) k * dev (hrow x0 x1 x2 x3 x4 x5 x6 x7 x8 x9 x10 p) k := by
    refine (rowsum_apply (val_main_v63 (F := Ideal) x0 x1 x2 x3 x4 x5 x6 x7 x8 x9 x10) p).trans ?_
    refine Finset.sum_congr rfl fun k _ => ?_
    rw [val_main_v63_apply, dev_sq_apply]
    rfl
  rw [val_main_v67_apply, val_main_v65_apply, ei, hs]
  rfl

/-- The gated source scores at (p, q). -/
theorem os_apply (p : Fin 50000) (q : Fin 256) :
    (val_main_v14 (F := Ideal) x0 x3 x4 x9 : A2 50000 256) (ix2 p q) = lin x0 x3 x4 p q * x9 (ix1 q) := by
  rw [val_main_v14_apply, lin_apply]
  exact congrArg (fun z => lin x0 x3 x4 p q * z) (rowbc_apply x9 p q)
/-- The gated destination scores at (p, q). -/
theorem od_apply (p : Fin 50000) (q : Fin 256) :
    (val_main_v17 (F := Ideal) x0 x3 x4 x10 : A2 50000 256) (ix2 p q) = lin x0 x3 x4 p q * x10 (ix1 q) := by
  rw [val_main_v17_apply, lin_apply]
  exact congrArg (fun z => lin x0 x3 x4 p q * z) (rowbc_apply x10 p q)
/-- The second affine map at (p, q). -/
theorem uh_apply (p : Fin 50000) (q : Fin 256) :
    (val_main_v7 (F := Ideal) x0 x5 x6 : A2 50000 256) (ix2 p q) = lin x0 x5 x6 p q :=
  lin_apply x0 x5 x6 p q
/-- The third affine map at (p, q). -/
theorem vh_apply (p : Fin 50000) (q : Fin 256) :
    (val_main_v11 (F := Ideal) x0 x7 x8 : A2 50000 256) (ix2 p q) = lin x0 x7 x8 p q :=
  lin_apply x0 x7 x8 p q

/-- An edge's gate, where its two index words read signed lie in [0, 50000): the logistic function of the source
    score at the source row plus the destination score at the destination row. -/
theorem sig_apply (e : Fin 800000) (f : Fin 256)
    (hs0 : 0 ≤ (x1 (ix1 e)).toInt) (hs1 : (x1 (ix1 e)).toInt < 50000)
    (hd0 : 0 ≤ (x2 (ix1 e)).toInt) (hd1 : (x2 (ix1 e)).toInt < 50000) :
    (val_main_v38 (F := Ideal) x0 x1 x2 x3 x4 x9 x10 : A2 800000 256) (ix2 e f)
      = sigm ((val_main_v14 (F := Ideal) x0 x3 x4 x9 : A2 50000 256) (ix2 ⟨(x1 (ix1 e)).toInt.toNat, by omega⟩ f)
            + (val_main_v17 (F := Ideal) x0 x3 x4 x10 : A2 50000 256) (ix2 ⟨(x2 (ix1 e)).toInt.toNat, by omega⟩ f)) := by
  have g1 : (val_main_v24 (F := Ideal) x0 x1 x3 x4 x9 : A2 800000 256) (ix2 e f)
      = (val_main_v14 (F := Ideal) x0 x3 x4 x9 : A2 50000 256) (ix2 ⟨(x1 (ix1 e)).toInt.toNat, by omega⟩ f) :=
    gather_apply (val_main_v14 (F := Ideal) x0 x3 x4 x9) x1 e f hs0 hs1
  have g2 : (val_main_v31 (F := Ideal) x0 x2 x3 x4 x10 : A2 800000 256) (ix2 e f)
      = (val_main_v17 (F := Ideal) x0 x3 x4 x10 : A2 50000 256) (ix2 ⟨(x2 (ix1 e)).toInt.toNat, by omega⟩ f) :=
    gather_apply (val_main_v17 (F := Ideal) x0 x3 x4 x10) x2 e f hd0 hd1
  rw [val_main_v38_apply, val_main_v36_apply, val_main_v34_apply, val_main_v33_apply, val_main_v32_apply, g1, g2]
  show Ideal.div (Ideal.ofBits .f32 0x3F800000#32) (Ideal.ofBits .f32 0x3F800000#32 + Ideal.exp (-(_ + _))) = _
  rw [ofBits_one_f32]
  rfl
/-- An edge's gated message, under the same condition: the third affine map at the source row times the gate. -/
theorem num_apply (e : Fin 800000) (f : Fin 256)
    (hs0 : 0 ≤ (x1 (ix1 e)).toInt) (hs1 : (x1 (ix1 e)).toInt < 50000) :
    (val_main_v46 (F := Ideal) x0 x1 x2 x3 x4 x7 x8 x9 x10 : A2 800000 256) (ix2 e f)
      = (val_main_v11 (F := Ideal) x0 x7 x8 : A2 50000 256) (ix2 ⟨(x1 (ix1 e)).toInt.toNat, by omega⟩ f)
        * (val_main_v38 (F := Ideal) x0 x1 x2 x3 x4 x9 x10 : A2 800000 256) (ix2 e f) := by
  have g : (val_main_v45 (F := Ideal) x0 x1 x7 x8 : A2 800000 256) (ix2 e f)
      = (val_main_v11 (F := Ideal) x0 x7 x8 : A2 50000 256) (ix2 ⟨(x1 (ix1 e)).toInt.toNat, by omega⟩ f) :=
    gather_apply (val_main_v11 (F := Ideal) x0 x7 x8) x1 e f hs0 hs1
  rw [val_main_v46_apply, g]
  rfl

/-- The summed messages at (p, k): zero plus the sum over the edges whose destination word read signed is p. -/
theorem ssh_apply (p : Fin 50000) (k : Fin 256) :
    (val_main_v49 (F := Ideal) x0 x1 x2 x3 x4 x7 x8 x9 x10 : A2 50000 256) (ix2 p k)
      = 0 + ∑ e : Fin 800000, if (x2 (ix1 e)).toInt = (p.val : ℤ)
          then (val_main_v46 (F := Ideal) x0 x1 x2 x3 x4 x7 x8 x9 x10 : A2 800000 256) (ix2 e k) else 0 := by
  exact scatter_apply x2 (val_main_v46 (F := Ideal) x0 x1 x2 x3 x4 x7 x8 x9 x10) p k
/-- The summed gates at (p, k). -/
theorem ss_apply (p : Fin 50000) (k : Fin 256) :
    (val_main_v52 (F := Ideal) x0 x1 x2 x3 x4 x9 x10 : A2 50000 256) (ix2 p k)
      = 0 + ∑ e : Fin 800000, if (x2 (ix1 e)).toInt = (p.val : ℤ)
          then (val_main_v38 (F := Ideal) x0 x1 x2 x3 x4 x9 x10 : A2 800000 256) (ix2 e k) else 0 := by
  exact scatter_apply x2 (val_main_v38 (F := Ideal) x0 x1 x2 x3 x4 x9 x10) p k

/-- The row fed to the normalisation at (p, k). -/
theorem h_apply (p : Fin 50000) (k : Fin 256) :
    (val_main_v56 (F := Ideal) x0 x1 x2 x3 x4 x5 x6 x7 x8 x9 x10 : A2 50000 256) (ix2 p k)
      = (val_main_v7 (F := Ideal) x0 x5 x6 : A2 50000 256) (ix2 p k)
        + Ideal.div ((val_main_v49 (F := Ideal) x0 x1 x2 x3 x4 x7 x8 x9 x10 : A2 50000 256) (ix2 p k))
            ((val_main_v52 (F := Ideal) x0 x1 x2 x3 x4 x9 x10 : A2 50000 256) (ix2 p k) + eps) := by
  rw [val_main_v56_apply, val_main_v55_apply, val_main_v54_apply]
  rfl

/-- The reference's result at (p, q): the node's own entry plus the normalised row (through the quotient by the
    square root), scaled, shifted and clipped at zero. -/
theorem out_apply (p : Fin 50000) (q : Fin 256) :
    (val_main_v82 (F := Ideal) x0 x1 x2 x3 x4 x5 x6 x7 x8 x9 x10 x11 x12 : A2 50000 256) (ix2 p q)
      = x0 (ix2 p q)
        + normDiv (fun k => (val_main_v56 (F := Ideal) x0 x1 x2 x3 x4 x5 x6 x7 x8 x9 x10 : A2 50000 256) (ix2 p k))
            (fun k => x11 (ix1 k)) (fun k => x12 (ix1 k)) q := by
  have ei : idx_main_v73 (ix2 p q) = ix2 p (0 : Fin 1) :=
    funext fun a => Fin.ext (by match a with | ⟨0, _⟩ => rfl | ⟨1, _⟩ => rfl)
  have hg : (val_main_v76 (F := Ideal) x11 : A2 50000 256) (ix2 p q) = x11 (ix1 q) := rowbc_apply x11 p q
  have hb : (val_main_v79 (F := Ideal) x12 : A2 50000 256) (ix2 p q) = x12 (ix1 q) := rowbc_apply x12 p q
  have hz : (val_main_call0_v0 (F := Ideal) : A2 50000 256) (ix2 p q) = 0 := by
    rw [val_main_call0_v0_apply, val_main_call0_cst_apply]
    exact Ideal.ofBits_zero_f32
  rw [val_main_v82_apply, val_main_v81_apply, val_main_v80_apply, val_main_v77_apply, val_main_v74_apply,
    val_main_v73_apply, ei, val_main_v72_apply, val_main_v71_apply, var_col, dev_apply, hg, hb, hz]
  rfl

end Cert.ReferenceIdeal.Hand

end
-- ==== Proof.Bridge.lean ====
/-
  The kernel program's result is the reference's result function of the launch arrays, entry by entry.

  Node side: after the first call each of its four output arrays is, at (p, q), the reference's corresponding node
  array (an affine map of x, twice more times a gate vector). Edge side: where an edge's source and destination
  words lie in [0, 50000) the taken rows are the gathered rows, so the edge's gate and message are the reference's.
  The source words all lie there by the precondition; a destination word outside it lands on no node in either
  scatter-add, and one that lands on node p is p. So the summed gates and summed messages agree node by node, the
  row fed to the normalisation agrees, and the two spellings of the normalisation agree.
-/
import proofs.«415271_j5102421148357_1_alg».proof.Proof.Gen.KernelIdeal.Frame
import proofs.«415271_j5102421148357_1_alg».proof.Proof.Gen.ReferenceIdeal.Read
import proofs.«415271_j5102421148357_1_alg».proof.Proof.Spec
import proofs.«415271_j5102421148357_1_alg».proof.Proof.SpecLaw
import proofs.«415271_j5102421148357_1_alg».proof.Proof.TakeDef
import proofs.«415271_j5102421148357_1_alg».proof.Proof.Reg0
import proofs.«415271_j5102421148357_1_alg».proof.Proof.Reg1
import proofs.«415271_j5102421148357_1_alg».proof.Proof.Reg2
import proofs.«415271_j5102421148357_1_alg».proof.Proof.FoldA
import proofs.«415271_j5102421148357_1_alg».proof.Proof.FoldB
import proofs.«415271_j5102421148357_1_alg».proof.Proof.FoldC
import proofs.«415271_j5102421148357_1_alg».proof.Proof.Take
import proofs.«415271_j5102421148357_1_alg».proof.Proof.Pre
import proofs.«415271_j5102421148357_1_alg».proof.Proof.RefSide
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Cert.Spec

variable (m : (ℓ : Loc nD τ sig) → Buf (Elt Ideal) ℓ) (ρ : Dev nD → PrngReg)

/-! ## The launch arrays, by name -/

abbrev aX (c : Dev nD) : A2 50000 256 := m ((c : Thread nD τ).loc main_arg0)
abbrev aSrc (c : Dev nD) : IVec S800000 32 := m ((c : Thread nD τ).loc main_arg1)
abbrev aDst (c : Dev nD) : IVec S800000 32 := m ((c : Thread nD τ).loc main_arg2)
abbrev aW (c : Dev nD) : A2 256 256 := m ((c : Thread nD τ).loc main_arg3)
abbrev aBW (c : Dev nD) : A1 256 := m ((c : Thread nD τ).loc main_arg4)
abbrev aU (c : Dev nD) : A2 256 256 := m ((c : Thread nD τ).loc main_arg5)
abbrev aBU (c : Dev nD) : A1 256 := m ((c : Thread nD τ).loc main_arg6)
abbrev aV (c : Dev nD) : A2 256 256 := m ((c : Thread nD τ).loc main_arg7)
abbrev aBV (c : Dev nD) : A1 256 := m ((c : Thread nD τ).loc main_arg8)
abbrev aAl (c : Dev nD) : A1 256 := m ((c : Thread nD τ).loc main_arg9)
abbrev aAr (c : Dev nD) : A1 256 := m ((c : Thread nD τ).loc main_arg10)
abbrev aG (c : Dev nD) : A1 256 := m ((c : Thread nD τ).loc main_arg11)
abbrev aB (c : Dev nD) : A1 256 := m ((c : Thread nD τ).loc main_arg12)

/-! ## Node side -/

/-- The row-shaped shift read at (0, q) makes `linRow` the affine map `lin`. -/
theorem linRow_eq_lin (x : A2 50000 256) (W : A2 256 256) (b2 : A2 1 256) (b : A1 256)
    (hb : ∀ q : Fin 256, b2 (ix2 (0 : Fin 1) q) = b (ix1 q)) (p : Fin 50000) (q : Fin 256) :
    linRow x W b2 p q = lin x W b p q := by
  unfold linRow lin
  rw [hb q]

/-- The gated source scores the first call leaves are the reference's. -/
theorem node_os (c : Dev nD) (p : Fin 50000) (q : Fin 256) :
    at2 (W2 m ρ c (Proc.devRef .tc main_v7_0)) p q = at2 (Cert.ReferenceIdeal.Read.val_main_v14 (F := Ideal) (aX m c) (aW m c) (aBW m c) (aAl m c)) p q := by
  rw [W2_v7_0 m ρ c, arr0_9_apply (V1 m ρ) c p q]
  show _ = (Cert.ReferenceIdeal.Read.val_main_v14 (F := Ideal) (aX m c) (aW m c) (aBW m c) (aAl m c)) (ix2 p q)
  rw [Cert.ReferenceIdeal.Hand.os_apply, V1_arg0 m ρ c, V1_arg3 m ρ c,
    linRow_eq_lin (aX m c) (aW m c) (V1 m ρ c main_v0) (aBW m c) (fun q => V1_v0_apply m ρ c q) p q]
  exact congrArg (fun z => lin (aX m c) (aW m c) (aBW m c) p q * z) (V1_v3_apply m ρ c q)

/-- The gated destination scores. -/
theorem node_od (c : Dev nD) (p : Fin 50000) (q : Fin 256) :
    at2 (W2 m ρ c (Proc.devRef .tc main_v7_1)) p q = at2 (Cert.ReferenceIdeal.Read.val_main_v17 (F := Ideal) (aX m c) (aW m c) (aBW m c) (aAr m c)) p q := by
  rw [W2_v7_1 m ρ c, arr0_10_apply (V1 m ρ) c p q]
  show _ = (Cert.ReferenceIdeal.Read.val_main_v17 (F := Ideal) (aX m c) (aW m c) (aBW m c) (aAr m c)) (ix2 p q)
  rw [Cert.ReferenceIdeal.Hand.od_apply, V1_arg0 m ρ c, V1_arg3 m ρ c,
    linRow_eq_lin (aX m c) (aW m c) (V1 m ρ c main_v0) (aBW m c) (fun q => V1_v0_apply m ρ c q) p q]
  exact congrArg (fun z => lin (aX m c) (aW m c) (aBW m c) p q * z) (V1_v4_apply m ρ c q)

/-- The second affine map. -/
theorem node_uh (c : Dev nD) (p : Fin 50000) (q : Fin 256) :
    at2 (W2 m ρ c (Proc.devRef .tc main_v7_2)) p q = at2 (Cert.ReferenceIdeal.Read.val_main_v7 (F := Ideal) (aX m c) (aU m c) (aBU m c)) p q := by
  rw [W2_v7_2 m ρ c, arr0_11_apply (V1 m ρ) c p q]
  show _ = (Cert.ReferenceIdeal.Read.val_main_v7 (F := Ideal) (aX m c) (aU m c) (aBU m c)) (ix2 p q)
  rw [Cert.ReferenceIdeal.Hand.uh_apply, V1_arg0 m ρ c, V1_arg5 m ρ c,
    linRow_eq_lin (aX m c) (aU m c) (V1 m ρ c main_v1) (aBU m c) (fun q => V1_v1_apply m ρ c q) p q]

/-- The third affine map. -/
theorem node_vh (c : Dev nD) (p : Fin 50000) (q : Fin 256) :
    at2 (W2 m ρ c (Proc.devRef .tc main_v7_3)) p q = at2 (Cert.ReferenceIdeal.Read.val_main_v11 (F := Ideal) (aX m c) (aV m c) (aBV m c)) p q := by
  rw [W2_v7_3 m ρ c, arr0_12_apply (V1 m ρ) c p q]
  show _ = (Cert.ReferenceIdeal.Read.val_main_v11 (F := Ideal) (aX m c) (aV m c) (aBV m c)) (ix2 p q)
  rw [Cert.ReferenceIdeal.Hand.vh_apply, V1_arg0 m ρ c, V1_arg7 m ρ c,
    linRow_eq_lin (aX m c) (aV m c) (V1 m ρ c main_v2) (aBV m c) (fun q => V1_v2_apply m ρ c q) p q]

/-! ## Edge side -/

/-- An edge's gate, where both its index words lie in [0, 50000). -/
theorem edge_sig (c : Dev nD) (e : Fin 800000) (k : Fin 256)
    (hs0 : 0 ≤ (aSrc m c (ix1 e)).toInt) (hs1 : (aSrc m c (ix1 e)).toInt < 50000)
    (hd0 : 0 ≤ (aDst m c (ix1 e)).toInt) (hd1 : (aDst m c (ix1 e)).toInt < 50000) :
    at2 (W6 m ρ c (Proc.devRef .tc main_v11_0)) e k = at2 (Cert.ReferenceIdeal.Read.val_main_v38 (F := Ideal) (aX m c) (aSrc m c) (aDst m c) (aW m c) (aBW m c) (aAl m c) (aAr m c)) e k := by
  rw [W6_v11_0 m ρ c, arr1_3_apply (V5 m ρ) c e k, V5_v8 m ρ c, V5_v9 m ρ c]
  show sigm (_ + _) = (Cert.ReferenceIdeal.Read.val_main_v38 (F := Ideal) (aX m c) (aSrc m c) (aDst m c) (aW m c) (aBW m c) (aAl m c) (aAr m c)) (ix2 e k)
  rw [Cert.ReferenceIdeal.Hand.sig_apply (aX m c) (aSrc m c) (aDst m c) (aW m c) (aBW m c) (aAl m c) (aAr m c) e k hs0 hs1 hd0 hd1]
  refine congrArg sigm ?_
  refine congrArg₂ (· + ·) ?_ ?_
  · exact (takeRows_apply _ (aSrc m c) e k hs0 hs1).trans (node_os m ρ c _ k)
  · exact (takeRows_apply _ (aDst m c) e k hd0 hd1).trans (node_od m ρ c _ k)

/-- An edge's gated message, under the same condition. -/
theorem edge_num (c : Dev nD) (e : Fin 800000) (k : Fin 256)
    (hs0 : 0 ≤ (aSrc m c (ix1 e)).toInt) (hs1 : (aSrc m c (ix1 e)).toInt < 50000)
    (hd0 : 0 ≤ (aDst m c (ix1 e)).toInt) (hd1 : (aDst m c (ix1 e)).toInt < 50000) :
    at2 (W6 m ρ c (Proc.devRef .tc main_v11_1)) e k = at2 (Cert.ReferenceIdeal.Read.val_main_v46 (F := Ideal) (aX m c) (aSrc m c) (aDst m c) (aW m c) (aBW m c) (aV m c) (aBV m c) (aAl m c) (aAr m c)) e k := by
  have hsig := edge_sig m ρ c e k hs0 hs1 hd0 hd1
  rw [W6_v11_0 m ρ c, arr1_3_apply (V5 m ρ) c e k] at hsig
  rw [W6_v11_1 m ρ c, arr1_4_apply (V5 m ρ) c e k, hsig, V5_v10 m ρ c]
  show _ = (Cert.ReferenceIdeal.Read.val_main_v46 (F := Ideal) (aX m c) (aSrc m c) (aDst m c) (aW m c) (aBW m c) (aV m c) (aBV m c) (aAl m c) (aAr m c)) (ix2 e k)
  rw [Cert.ReferenceIdeal.Hand.num_apply (aX m c) (aSrc m c) (aDst m c) (aW m c) (aBW m c) (aV m c) (aBV m c) (aAl m c) (aAr m c) e k hs0 hs1]
  refine congrArg (· * at2 (Cert.ReferenceIdeal.Read.val_main_v38 (F := Ideal) (aX m c) (aSrc m c) (aDst m c) (aW m c) (aBW m c) (aAl m c) (aAr m c)) e k) ?_
  exact (takeRows_apply _ (aSrc m c) e k hs0 hs1).trans (node_vh m ρ c _ k)

/-! ## The sums over the edges that land on a node -/

variable (hpre : Cert.Pre_KernelIdeal m)
include hpre

/-- The summed gates at (p, k). -/
theorem node_ss (c : Dev nD) (p : Fin 50000) (k : Fin 256) :
    at2 (V7 m ρ c main_v17) p k = at2 (Cert.ReferenceIdeal.Read.val_main_v52 (F := Ideal) (aX m c) (aSrc m c) (aDst m c) (aW m c) (aBW m c) (aAl m c) (aAr m c)) p k := by
  rw [V7_v17 m ρ c]
  show _ = (Cert.ReferenceIdeal.Read.val_main_v52 (F := Ideal) (aX m c) (aSrc m c) (aDst m c) (aW m c) (aBW m c) (aAl m c) (aAr m c)) (ix2 p k)
  rw [Cert.ReferenceIdeal.Hand.ss_apply]
  refine (scatterRows_apply (aDst m c) (W6 m ρ c (Proc.devRef .tc main_v11_0)) p k).trans ?_
  refine congrArg (fun z => (0 : EReal) + z) (Finset.sum_congr rfl fun e _ => ?_)
  have hs := src_range m hpre c e
  by_cases hc : (aDst m c (ix1 e)).toInt = (p.val : ℤ)
  · rw [if_pos hc, if_pos hc]
    have hp := p.isLt
    exact edge_sig m ρ c e k hs.1 hs.2 (by omega) (by omega)
  · rw [if_neg hc, if_neg hc]

/-- The summed messages at (p, k). -/
theorem node_ssh (c : Dev nD) (p : Fin 50000) (k : Fin 256) :
    at2 (V7 m ρ c main_v14) p k = at2 (Cert.ReferenceIdeal.Read.val_main_v49 (F := Ideal) (aX m c) (aSrc m c) (aDst m c) (aW m c) (aBW m c) (aV m c) (aBV m c) (aAl m c) (aAr m c)) p k := by
  rw [V7_v14 m ρ c]
  show _ = (Cert.ReferenceIdeal.Read.val_main_v49 (F := Ideal) (aX m c) (aSrc m c) (aDst m c) (aW m c) (aBW m c) (aV m c) (aBV m c) (aAl m c) (aAr m c)) (ix2 p k)
  rw [Cert.ReferenceIdeal.Hand.ssh_apply]
  refine (scatterRows_apply (aDst m c) (W6 m ρ c (Proc.devRef .tc main_v11_1)) p k).trans ?_
  refine congrArg (fun z => (0 : EReal) + z) (Finset.sum_congr rfl fun e _ => ?_)
  have hs := src_range m hpre c e
  by_cases hc : (aDst m c (ix1 e)).toInt = (p.val : ℤ)
  · rw [if_pos hc, if_pos hc]
    have hp := p.isLt
    exact edge_num m ρ c e k hs.1 hs.2 (by omega) (by omega)
  · rw [if_neg hc, if_neg hc]

/-! ## The result -/

/-- The row fed to the normalisation at (p, k). -/
theorem node_h (c : Dev nD) (p : Fin 50000) (k : Fin 256) :
    at2 (V7 m ρ c main_v7_2) p k + Ideal.div (at2 (V7 m ρ c main_v14) p k) (at2 (V7 m ρ c main_v17) p k + eps)
      = at2 (Cert.ReferenceIdeal.Read.val_main_v56 (F := Ideal) (aX m c) (aSrc m c) (aDst m c) (aW m c) (aBW m c) (aU m c) (aBU m c) (aV m c) (aBV m c) (aAl m c) (aAr m c)) p k := by
  rw [node_ssh m ρ hpre c p k, node_ss m ρ hpre c p k, V7_v7_2 m ρ c, node_uh m ρ c p k]
  show _ = (Cert.ReferenceIdeal.Read.val_main_v56 (F := Ideal) (aX m c) (aSrc m c) (aDst m c) (aW m c) (aBW m c) (aU m c) (aBU m c) (aV m c) (aBV m c) (aAl m c) (aAr m c)) (ix2 p k)
  rw [Cert.ReferenceIdeal.Hand.h_apply]

/-- The kernel program's result array is the reference's result function of the launch arrays. -/
theorem kernel_value (c : Dev nD) :
    (W8 m ρ c (Proc.devRef .tc main_v18) : A2 50000 256) = (Cert.ReferenceIdeal.Read.val_main_v82 (F := Ideal) (aX m c) (aSrc m c) (aDst m c) (aW m c) (aBW m c) (aU m c) (aBU m c) (aV m c) (aBV m c) (aAl m c) (aAr m c) (aG m c) (aB m c)) := by
  funext i
  obtain ⟨p, q, rfl⟩ : ∃ (p : Fin 50000) (q : Fin 256), i = ix2 p q := ⟨i 0, i 1, eq_ix2 i⟩
  show at2 (W8 m ρ c (Proc.devRef .tc main_v18)) p q = (Cert.ReferenceIdeal.Read.val_main_v82 (F := Ideal) (aX m c) (aSrc m c) (aDst m c) (aW m c) (aBW m c) (aU m c) (aBU m c) (aV m c) (aBV m c) (aAl m c) (aAr m c) (aG m c) (aB m c)) (ix2 p q)
  rw [W8_v18 m ρ c, arr2_6_apply (V7 m ρ) c p q, Cert.ReferenceIdeal.Hand.out_apply, ← normMul_eq_normDiv]
  have hh : (fun k => at2 (V7 m ρ c main_v7_2) p k + Ideal.div (at2 (V7 m ρ c main_v14) p k) (at2 (V7 m ρ c main_v17) p k + eps))
      = fun k => (Cert.ReferenceIdeal.Read.val_main_v56 (F := Ideal) (aX m c) (aSrc m c) (aDst m c) (aW m c) (aBW m c) (aU m c) (aBU m c) (aV m c) (aBV m c) (aAl m c) (aAr m c)) (ix2 p k) := funext fun k => node_h m ρ hpre c p k
  have hg : (fun k => at2 (V7 m ρ c main_v5) (0 : Fin 1) k) = fun k => aG m c (ix1 k) := funext fun k => V7_v5_apply m ρ c k
  have hb : (fun k => at2 (V7 m ρ c main_v6) (0 : Fin 1) k) = fun k => aB m c (ix1 k) := funext fun k => V7_v6_apply m ρ c k
  rw [hh, hg, hb, V7_arg0 m ρ c]

end Cert.KernelIdeal.Hand

end
-- ==== Proof.lean ====
/-
  The certificate of a gated graph-attention layer with a layer norm: three tiled calls (node transforms; the edge
  gate and message; the normalisation with the residual) around host row-gathers and scatter-adds, against one host
  program.

  The frames of the two kernel programs are the generated ones; the reference's frame is its generated run with the
  result dropped. The idealization rewrote nothing. For the value claim both programs are run from memories that
  agree on the arguments: the kernel program ends with its result array at the last boundary's contents, which is
  the reference's result function of the launch arrays (`kernel_value`: under the precondition every source index
  lies in [0, 50000), so each taken row is the gathered row; a destination index outside that range lands on no
  node in either program's scatter-adds), and the reference's generated run ends at the same function.
-/
import proofs.«415271_j5102421148357_1_alg».proof.Defs
import proofs.«415271_j5102421148357_1_alg».proof.Proof.Gen.Kernel
import proofs.«415271_j5102421148357_1_alg».proof.Proof.Gen.Kernel.Frame
import proofs.«415271_j5102421148357_1_alg».proof.Proof.Gen.KernelIdeal
import proofs.«415271_j5102421148357_1_alg».proof.Proof.Gen.KernelIdeal.Frame
import proofs.«415271_j5102421148357_1_alg».proof.Proof.Gen.ReferenceIdeal
import proofs.«415271_j5102421148357_1_alg».proof.Proof.Gen.ReferenceIdeal.Run
import proofs.«415271_j5102421148357_1_alg».proof.Proof.Gen.ReferenceIdeal.Read
import proofs.«415271_j5102421148357_1_alg».proof.Proof.Gen.Pre_finite_inputs
import proofs.«415271_j5102421148357_1_alg».proof.Proof.KRun
import proofs.«415271_j5102421148357_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end at the reference's result function of the (agreeing) argument arrays. -/
theorem algebraic : Cert.algebraic_KernelIdeal_ReferenceIdeal := by
  intro m ρ m' ρ' hpre hagree
  refine ⟨fun c => Cert.ReferenceIdeal.Read.val_main_v82 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.Hand.kernel_value m ρ hpre c), (h c).2⟩)
      (Cert.KernelIdeal.Hand.run_all m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11, e12⟩ := hagree c
    rw [Cert.ReferenceIdeal.Read.val_main_v82_eq, e0, e1, e2, e3, e4, e5, e6, e7, e8, e9, e10, e11, e12]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
